-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v37_0)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v37_0) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S40000x128 : Shape := ⟨2, ![40000, 128]⟩
abbrev S64x128 : Shape := ⟨2, ![64, 128]⟩
abbrev S640000 : Shape := ⟨1, ![640000]⟩
abbrev S40000 : Shape := ⟨1, ![40000]⟩
abbrev S128x128 : Shape := ⟨2, ![128, 128]⟩
abbrev S128 : Shape := ⟨1, ![128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_
  bcast_S_S40000 : S_.BroadcastsInDim S40000 (![] : Fin 0 → Fin S40000.rank)
  reducesTo_S40000_S_d0 : S40000.ReducesTo [0] S_

variable [Facts]

def fn_part8 {F : FTy → Type} [FloatOps F] (main_v130 : IVec S_ 1) (main_v135 : IVec S40000 1) (main_c_53 : IVec S_ 1) : IVec S_ 1 :=
  let main_v136 : IVec S_ 1 := (fun x v => Host.reduce IntOp.andi x v reducesTo_S40000_S_d0 h_S_) main_v135 main_c_53
  let main_v137 : IVec S_ 1 := andi main_v130 main_v136
  main_v137

def fn_part7 {F : FTy → Type} [FloatOps F] (main_arg5 : IVec S640000 32) (main_arg6 : IVec S40000 32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_c_48 : IVec S_ 32 := constantI S_ 32 0#32
  let main_v124 : IVec S640000 32 := broadcastInDim S640000 ![] bcast_S_S640000 main_c_48
  let main_v125 : IVec S640000 1 := cmpi .sge main_arg5 main_v124
  let main_c_49 : IVec S_ 32 := constantI S_ 32 64#32
  let main_v126 : IVec S640000 32 := broadcastInDim S640000 ![] bcast_S_S640000 main_c_49
  let main_v127 : IVec S640000 1 := cmpi .slt main_arg5 main_v126
  let main_v128 : IVec S640000 1 := andi main_v125 main_v127
  let main_c_50 : IVec S_ 1 := constantI S_ 1 1#1
  let main_v129 : IVec S_ 1 := (fun x v => Host.reduce IntOp.andi x v reducesTo_S640000_S_d0 h_S_) main_v128 main_c_50
  let main_v130 : IVec S_ 1 := andi main_v123 main_v129
  let main_c_51 : IVec S_ 32 := constantI S_ 32 0#32
  let main_v131 : IVec S40000 32 := broadcastInDim S40000 ![] bcast_S_S40000 main_c_51
  let main_v132 : IVec S40000 1 := cmpi .sge main_arg6 main_v131
  let main_c_52 : IVec S_ 32 := constantI S_ 32 64#32
  let main_v133 : IVec S40000 32 := broadcastInDim S40000 ![] bcast_S_S40000 main_c_52
  let main_v134 : IVec S40000 1 := cmpi .slt main_arg6 main_v133
  let main_v135 : IVec S40000 1 := andi main_v132 main_v134
  let main_c_53 : IVec S_ 1 := constantI S_ 1 1#1
  fn_part8 (F := F) main_v130 main_v135 main_c_53

def fn_part6 {F : FTy → Type} [FloatOps F] (main_arg5 : IVec S640000 32) (main_arg6 : IVec S40000 32) (main_arg25 : FVec F S128x128 .f32) (main_arg26 : FVec F S128 .f32) (main_arg27 : FVec F S128x128 .f32) (main_arg28 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg25
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg26
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg27
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg28
  fn_part7 (F := F) main_arg5 main_arg6 main_v118 main_v119

def fn_part5 {F : FTy → Type} [FloatOps F] (main_arg5 : IVec S640000 32) (main_arg6 : IVec S40000 32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg23
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg24
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg5 main_arg6 main_arg25 main_arg26 main_arg27 main_arg28 main_v98 main_v101 main_c_39

def fn_part4 {F : FTy → Type} [FloatOps F] (main_arg5 : IVec S640000 32) (main_arg6 : IVec S40000 32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg19
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg21
  let main_cst_32 : FVec F S_ .f32 := constant S_ .f32 0x7F800000#32
  fn_part5 (F := F) main_arg5 main_arg6 main_arg22 main_arg23 main_arg24 main_arg25 main_arg26 main_arg27 main_arg28 main_v83 main_v84 main_cst_32

def fn_part3 {F : FTy → Type} [FloatOps F] (main_arg5 : IVec S640000 32) (main_arg6 : IVec S40000 32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg5 main_arg6 main_arg18 main_arg19 main_arg20 main_arg21 main_arg22 main_arg23 main_arg24 main_arg25 main_arg26 main_arg27 main_arg28 main_v63 main_v67

def fn_part2 {F : FTy → Type} [FloatOps F] (main_arg5 : IVec S640000 32) (main_arg6 : IVec S40000 32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg5 main_arg6 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : IVec S640000 32) (main_arg6 : IVec S40000 32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg5 main_arg6 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S640000x128 .f32) (main_arg1 : FVec F S40000x128 .f32) (main_arg2 : FVec F S64x128 .f32) (main_arg3 : IVec S640000 32) (main_arg4 : IVec S640000 32) (main_arg5 : IVec S640000 32) (main_arg6 : IVec S40000 32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S640000x128 : Shape := ⟨2, ![640000, 128]⟩
abbrev S40000x128 : Shape := ⟨2, ![40000, 128]⟩
abbrev S64x128 : Shape := ⟨2, ![64, 128]⟩
abbrev S640000 : Shape := ⟨1, ![640000]⟩
abbrev S40000 : Shape := ⟨1, ![40000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S640000x1 : Shape := ⟨2, ![640000, 1]⟩
abbrev S1x640000 : Shape := ⟨2, ![1, 640000]⟩
abbrev S8000x128 : Shape := ⟨2, ![8000, 128]⟩
abbrev S5120x128 : Shape := ⟨2, ![5120, 128]⟩
abbrev S1x5120 : Shape := ⟨2, ![1, 5120]⟩
abbrev S64x5120 : Shape := ⟨2, ![64, 5120]⟩
abbrev S125x64x128 : Shape := ⟨3, ![125, 64, 128]⟩
abbrev S40000x1 : Shape := ⟨2, ![40000, 1]⟩
abbrev S1280x128 : Shape := ⟨2, ![1280, 128]⟩
abbrev S2000x128 : Shape := ⟨2, ![2000, 128]⟩
abbrev S2000x1 : Shape := ⟨2, ![2000, 1]⟩
abbrev S2000x64 : Shape := ⟨2, ![2000, 64]⟩
abbrev S20x64x128 : Shape := ⟨3, ![20, 64, 128]⟩

abbrev nBuf : Space → Nat
  | .hbm => 85
  | .vmem => 60
  | .smem => 0
  | _ => 0

abbrev bufTy : (tb : Table) → Fin (tcTables nBuf tb) → BufTy
  | .hbm, ⟨0, _⟩ => ⟨S640000x128, .f32⟩
  | .hbm, ⟨1, _⟩ => ⟨S40000x128, .f32⟩
  | .hbm, ⟨2, _⟩ => ⟨S64x128, .f32⟩
  | .hbm, ⟨3, _⟩ => ⟨S640000, .i32⟩
  | .hbm, ⟨4, _⟩ => ⟨S640000, .i32⟩
  | .hbm, ⟨5, _⟩ => ⟨S640000, .i32⟩
  | .hbm, ⟨6, _⟩ => ⟨S40000, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S1x128, .f32⟩
  | .hbm, ⟨30, _⟩ => ⟨S1x128, .f32⟩
  | .hbm, ⟨31, _⟩ => ⟨S40000x128, .f32⟩
  | .hbm, ⟨32, _⟩ => ⟨S40000x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S64x128, .f32⟩
  | .hbm, ⟨37, _⟩ => ⟨S64x128, .f32⟩
  | .hbm, ⟨38, _⟩ => ⟨S64x128, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S640000x128, .f32⟩
  | .hbm, ⟨58, _⟩ => ⟨S1x640000, .i32⟩
  | .hbm, ⟨59, _⟩ => ⟨S1x128, .f32⟩
  | .hbm, ⟨60, _⟩ => ⟨S640000x128, .f32⟩
  | .hbm, ⟨61, _⟩ => ⟨S8000x128, .f32⟩
  | .hbm, ⟨62, _⟩ => ⟨S125x64x128, .f32⟩
  | .hbm, ⟨63, _⟩ => ⟨S_, .f32⟩
  | .hbm, ⟨64, _⟩ => ⟨S64x128, .f32⟩
  | .hbm, ⟨65, _⟩ => ⟨S_, .f32⟩
  | .hbm, ⟨66, _⟩ => ⟨S40000x128, .f32⟩
  | .hbm, ⟨67, _⟩ => ⟨S640000x1, .i32⟩
  | .hbm, ⟨68, _⟩ => ⟨S40000x128, .f32⟩
  | .hbm, ⟨69, _⟩ => ⟨S_, .f32⟩
  | .hbm, ⟨70, _⟩ => ⟨S40000x128, .f32⟩
  | .hbm, ⟨71, _⟩ => ⟨S640000x1, .i32⟩
  | .hbm, ⟨72, _⟩ => ⟨S40000x128, .f32⟩
  | .hbm, ⟨73, _⟩ => ⟨S40000x1, .i32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S40000x128, .f32⟩
  | .hbm, ⟨78, _⟩ => ⟨S1280x128, .f32⟩
  | .hbm, ⟨79, _⟩ => ⟨S20x64x128, .f32⟩
  | .hbm, ⟨80, _⟩ => ⟨S_, .f32⟩
  | .hbm, ⟨81, _⟩ => ⟨S64x128, .f32⟩
  | .hbm, ⟨82, _⟩ => ⟨S1x128, .f32⟩
  | .hbm, ⟨83, _⟩ => ⟨S1x128, .f32⟩
  | .hbm, ⟨84, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S64x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S5120x128, .f32⟩
  | .local _ .vmem, ⟨21, _⟩ => ⟨S5120x128, .f32⟩
  | .local _ .vmem, ⟨22, _⟩ => ⟨S5120x128, .f32⟩
  | .local _ .vmem, ⟨23, _⟩ => ⟨S5120x128, .f32⟩
  | .local _ .vmem, ⟨24, _⟩ => ⟨S128x128, .f32⟩
  | .local _ .vmem, ⟨25, _⟩ => ⟨S1x128, .f32⟩
  | .local _ .vmem, ⟨26, _⟩ => ⟨S64x128, .f32⟩
  | .local _ .vmem, ⟨27, _⟩ => ⟨S1x5120, .i32⟩
  | .local _ .vmem, ⟨28, _⟩ => ⟨S1x5120, .i32⟩
  | .local _ .vmem, ⟨29, _⟩ => ⟨S5120x128, .f32⟩
  | .local _ .vmem, ⟨30, _⟩ => ⟨S5120x128, .f32⟩
  | .local _ .vmem, ⟨31, _⟩ => ⟨S64x128, .f32⟩
  | .local _ .vmem, ⟨32, _⟩ => ⟨S64x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x1, .i32⟩
  | .local _ .vmem, ⟨40, _⟩ => ⟨S2000x1, .i32⟩
  | .local _ .vmem, ⟨41, _⟩ => ⟨S64x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S64x128, .f32⟩
  | .local _ .vmem, ⟨51, _⟩ => ⟨S64x128, .f32⟩
  | .local _ .vmem, ⟨52, _⟩ => ⟨S64x128, .f32⟩
  | .local _ .vmem, ⟨53, _⟩ => ⟨S64x128, .f32⟩
  | .local _ .vmem, ⟨54, _⟩ => ⟨S64x128, .f32⟩
  | .local _ .vmem, ⟨55, _⟩ => ⟨S128x128, .f32⟩
  | .local _ .vmem, ⟨56, _⟩ => ⟨S1x128, .f32⟩
  | .local _ .vmem, ⟨57, _⟩ => ⟨S128x128, .f32⟩
  | .local _ .vmem, ⟨58, _⟩ => ⟨S1x128, .f32⟩
  | .local _ .vmem, ⟨59, _⟩ => ⟨S64x128, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2_0 : Ref sig .tc := ⟨.hbm, 31, rfl⟩
abbrev main_v2_1 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6_0 : Ref sig .tc := ⟨.hbm, 36, rfl⟩
abbrev main_v6_1 : Ref sig .tc := ⟨.hbm, 37, rfl⟩
abbrev main_v6_2 : Ref sig .tc := ⟨.hbm, 38, rfl⟩
abbrev main_c : Ref sig .tc := ⟨.hbm, 39, rfl⟩
abbrev main_v7 : Ref sig .tc := ⟨.hbm, 40, rfl⟩
abbrev main_v8 : Ref sig .tc := ⟨.hbm, 41, rfl⟩
abbrev main_c_0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_1 : Ref sig .tc := ⟨.hbm, 48, rfl⟩
abbrev main_v14 : Ref sig .tc := ⟨.hbm, 49, rfl⟩
abbrev main_v15 : Ref sig .tc := ⟨.hbm, 50, rfl⟩
abbrev main_c_2 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24_0 : Ref sig .tc := ⟨.hbm, 60, rfl⟩
abbrev main_v24_1 : Ref sig .tc := ⟨.hbm, 61, rfl⟩
abbrev main_v25 : Ref sig .tc := ⟨.hbm, 62, rfl⟩
abbrev main_cst : Ref sig .tc := ⟨.hbm, 63, rfl⟩
abbrev main_v26 : Ref sig .tc := ⟨.hbm, 64, rfl⟩
abbrev main_cst_3 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_4 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37_0 : Ref sig .tc := ⟨.hbm, 77, rfl⟩
abbrev main_v37_1 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg10_0 : Ref sig .tc := ⟨.vmem, 47, rfl⟩
abbrev cc3_stg11_0 : Ref sig .tc := ⟨.vmem, 48, rfl⟩
abbrev cc3_stg11_1 : Ref sig .tc := ⟨.vmem, 49, rfl⟩
abbrev cc3_stg12_0 : Ref sig .tc := ⟨.vmem, 50, rfl⟩
abbrev cc3_stg12_1 : Ref sig .tc := ⟨.vmem, 51, rfl⟩
abbrev cc4_stg0_0 : Ref sig .tc := ⟨.vmem, 52, rfl⟩
abbrev cc4_stg1_0 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem10_0 : DmaSem sig := 47
abbrev cc3_sem11_0 : DmaSem sig := 48
abbrev cc3_sem11_1 : DmaSem sig := 49
abbrev cc3_sem12_0 : DmaSem sig := 50
abbrev cc3_sem12_1 : DmaSem sig := 51
abbrev cc4_sem0_0 : DmaSem sig := 52
abbrev cc4_sem1_0 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem7_0 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5120x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5120x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x5120 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5120x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S64x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  broadcasts_S1x128_S64x128 : S1x128.Broadcasts S64x128
  bcast_S_S640000 : S_.BroadcastsInDim S640000 (![] : Fin 0 → Fin S640000.rank)
  bcast_S640000_S640000x1_0 : S640000.BroadcastsInDim S640000x1 (![0] : Fin 1 → Fin S640000x1.rank)
  shapeCasts_S640000_S1x640000 : S640000.ShapeCasts S1x640000
  inb_S5120x128_S5120x128_0_0 : ∀ a, (![0, 0] : Fin 2 → Nat) a + S5120x128.size a ≤ S5120x128.size a
  h_S5120x128 : 0 < S5120x128.numel
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S64x5120 : S1x5120.Broadcasts S64x5120
  iota_S64x5120_d0_w32 : S64x5120.Iotas .tc 32 [0]
  natLt_1_32 : 1 < 32
  shapeCasts_S64x128_S64x128 : S64x128.ShapeCasts S64x128
  broadcasts_S1x128_S5120x128 : S1x128.Broadcasts S5120x128
  shapeCasts_S5120x128_S5120x128 : S5120x128.ShapeCasts S5120x128
  shapeCasts_S8000x128_S125x64x128 : S8000x128.ShapeCasts S125x64x128
  reducesTo_S125x64x128_S64x128_d0 : S125x64x128.ReducesTo [0] S64x128
  h_S_ : 0 < S_.numel
  bcast_S_S40000x128 : S_.BroadcastsInDim S40000x128 (![] : Fin 0 → Fin S40000x128.rank)
  shapeCasts_S40000_S40000x1 : S40000.ShapeCasts S40000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  shapeCasts_S1280x128_S20x64x128 : S1280x128.ShapeCasts S20x64x128
  reducesTo_S20x64x128_S64x128_d0 : S20x64x128.ReducesTo [0] S64x128
  dot_S5000x128_S128x128_S5000x128_1_0_0_1_n_n_wf : DotDims.WF S5000x128 S128x128 S5000x128 [1] [0] [0] [1] [] []
  dot_S64x128_S128x128_S64x128_1_0_0_1_n_n_wf : DotDims.WF S64x128 S128x128 S64x128 [1] [0] [0] [1] [] []
  gather_S40000x128_S640000x1_S640000x128_1_0_n_n_0_1_1128_wf : GatherDims.WF S40000x128 S640000x1 S640000x128 [1] [0] [] [0] [] 1 ![1, 128]
  dot_S5120x128_S128x128_S5120x128_1_0_0_1_n_n_wf : DotDims.WF S5120x128 S128x128 S5120x128 [1] [0] [0] [1] [] []
  dot_S64x5120_S64x128_S5120x128_0_0_1_1_n_n_wf : DotDims.WF S64x5120 S64x128 S5120x128 [0] [0] [1] [1] [] []
  dot_S64x5120_S5120x128_S64x128_1_0_0_1_n_n_wf : DotDims.WF S64x5120 S5120x128 S64x128 [1] [0] [0] [1] [] []
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  dot_S2000x64_S2000x128_S64x128_0_0_1_1_n_n_wf : DotDims.WF S2000x64 S2000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x128.size a
  hwx1_0 : ∀ i : grid1.Coords, EltTy.bits .f32 = 32 ∨ (Rect.block (s := S64x128) S64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S64x128.size a
  hwx1_7 : ∀ i : grid1.Coords, EltTy.bits .f32 = 32 ∨ (Rect.block (s := S64x128) S64x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S64x128.size a
  hwx1_8 : ∀ i : grid1.Coords, EltTy.bits .f32 = 32 ∨ (Rect.block (s := S64x128) S64x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x128.size a ≤ S64x128.size a
  hwx1_9 : ∀ i : grid1.Coords, EltTy.bits .f32 = 32 ∨ (Rect.block (s := S64x128) S64x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5120x128.size a ≤ S640000x128.size a
  hwx2_0 : ∀ i : grid2.Coords, EltTy.bits .f32 = 32 ∨ (Rect.block (s := S640000x128) S5120x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x128.size a ≤ S640000x128.size a
  hwx2_1 : ∀ i : grid2.Coords, EltTy.bits .f32 = 32 ∨ (Rect.block (s := S640000x128) S5120x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x5120.size a ≤ S1x640000.size a
  hwx2_5 : ∀ i : grid2.Coords, EltTy.bits .i32 = 32 ∨ (Rect.block (s := S1x640000) S1x5120.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5120x128.size a ≤ S640000x128.size a
  hwx2_6 : ∀ i : grid2.Coords, EltTy.bits .f32 = 32 ∨ (Rect.block (s := S640000x128) S5120x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S8000x128.size a
  hwx2_7 : ∀ i : grid2.Coords, EltTy.bits .f32 = 32 ∨ (Rect.block (s := S8000x128) S64x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S40000x128.size a
  hwx3_0 : ∀ i : grid3.Coords, EltTy.bits .f32 = 32 ∨ (Rect.block (s := S40000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S40000x128.size a
  hwx3_1 : ∀ i : grid3.Coords, EltTy.bits .f32 = 32 ∨ (Rect.block (s := S40000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S40000x128.size a
  hwx3_2 : ∀ i : grid3.Coords, EltTy.bits .f32 = 32 ∨ (Rect.block (s := S40000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S40000x1.size a
  hwx3_3 : ∀ i : grid3.Coords, EltTy.bits .i32 = 32 ∨ (Rect.block (s := S40000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x128.size a ≤ S64x128.size a
  hwx3_4 : ∀ i : grid3.Coords, EltTy.bits .f32 = 32 ∨ (Rect.block (s := S64x128) S64x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x128.size a ≤ S40000x128.size a
  hwx3_11 : ∀ i : grid3.Coords, EltTy.bits .f32 = 32 ∨ (Rect.block (s := S40000x128) S2000x128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S64x128.size a ≤ S1280x128.size a
  hwx3_12 : ∀ i : grid3.Coords, EltTy.bits .f32 = 32 ∨ (Rect.block (s := S1280x128) S64x128.size (cc3_transform_12 i) (hinb3_12 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x128.size a ≤ S64x128.size a
  hwx4_7 : ∀ i : grid4.Coords, EltTy.bits .f32 = 32 ∨ (Rect.block (s := S64x128) S64x128.size (cc4_transform_7 i) (hinb4_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S64x5120_S64x128_S5120x128_0_0_1_1_n_n : DotDims S64x5120 S64x128 S5120x128 where
  lhsContracting := [0]
  rhsContracting := [0]
  lhsNonContracting := [1]
  rhsNonContracting := [1]
  lhsBatch := []
  rhsBatch := []
  wf := dot_S64x5120_S64x128_S5120x128_0_0_1_1_n_n_wf
def dot_S64x5120_S5120x128_S64x128_1_0_0_1_n_n : DotDims S64x5120 S5120x128 S64x128 where
  lhsContracting := [1]
  rhsContracting := [0]
  lhsNonContracting := [0]
  rhsNonContracting := [1]
  lhsBatch := []
  rhsBatch := []
  wf := dot_S64x5120_S5120x128_S64x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S64x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6_0) S64x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6_1) S64x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v6_2) S64x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S5120x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5120x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6_0) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x5120.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v24_0) S5120x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v24_1) S64x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v33) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v6_1) S64x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v34) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg17) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v35) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg19) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v36) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v37_0) S2000x128.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v37_1) S64x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v26) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v39) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v6_2) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg25) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg23) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v41) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v42) S64x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S640000x128 : Shape := ⟨2, ![640000, 128]⟩
abbrev S40000x128 : Shape := ⟨2, ![40000, 128]⟩
abbrev S64x128 : Shape := ⟨2, ![64, 128]⟩
abbrev S640000 : Shape := ⟨1, ![640000]⟩
abbrev S40000 : Shape := ⟨1, ![40000]⟩
abbrev S128x128 : Shape := ⟨2, ![128, 128]⟩
abbrev S128 : Shape := ⟨1, ![128]⟩
abbrev S1x128 : Shape := ⟨2, ![1, 128]⟩
abbrev S_ : Shape := ⟨0, ![]⟩
abbrev S640000x1 : Shape := ⟨2, ![640000, 1]⟩
abbrev S40000x1 : Shape := ⟨2, ![40000, 1]⟩

abbrev nBuf : Space → Nat
  | .hbm => 139
  | .vmem => 0
  | .smem => 0
  | _ => 0

abbrev hbmTy0_0 (i : Nat) : BufTy := match i % 128 with
  | 0 => ⟨S640000x128, .f32⟩
  | 1 => ⟨S40000x128, .f32⟩
  | 2 => ⟨S64x128, .f32⟩
  | 3 => ⟨S640000, .i32⟩
  | 4 => ⟨S640000, .i32⟩
  | 5 => ⟨S640000, .i32⟩
  | 6 => ⟨S40000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x128, .f32⟩
  | 28 => ⟨S128, .f32⟩
  | 29 => ⟨S640000x128, .f32⟩
  | 30 => ⟨S1x128, .f32⟩
  | 31 => ⟨S640000x128, .f32⟩
  | 32 => ⟨S640000x128, .f32⟩
  | 33 => ⟨S40000x128, .f32⟩
  | 34 => ⟨S1x128, .f32⟩
  | 35 => ⟨S40000x128, .f32⟩
  | 36 => ⟨S40000x128, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S640000x128, .f32⟩
  | 47 => ⟨S40000x128, .f32⟩
  | 48 => ⟨S1x128, .f32⟩
  | 49 => ⟨S40000x128, .f32⟩
  | 50 => ⟨S40000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S64x128, .f32⟩
  | 62 => ⟨S1x128, .f32⟩
  | 63 => ⟨S64x128, .f32⟩
  | 64 => ⟨S64x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x128, .f32⟩
  | 74 => ⟨S640000x128, .f32⟩
  | 75 => ⟨S_, .f32⟩
  | 76 => ⟨S640000x128, .f32⟩
  | 77 => ⟨S640000x128, .f32⟩
  | 78 => ⟨S40000x128, .f32⟩
  | 79 => ⟨S1x128, .f32⟩
  | 80 => ⟨S40000x128, .f32⟩
  | 81 => ⟨S40000x128, .f32⟩
  | 82 => ⟨S_, .f32⟩
  | 83 => ⟨S40000x128, .f32⟩
  | 84 => ⟨S640000x1, .i32⟩
  | 85 => ⟨S40000x128, .f32⟩
  | 86 => ⟨S40000x128, .f32⟩
  | 87 => ⟨S40000x128, .f32⟩
  | 88 => ⟨S1x128, .f32⟩
  | 89 => ⟨S40000x128, .f32⟩
  | 90 => ⟨S40000x128, .f32⟩
  | 91 => ⟨S_, .f32⟩
  | 92 => ⟨S40000x128, .f32⟩
  | 93 => ⟨S640000x1, .i32⟩
  | 94 => ⟨S40000x128, .f32⟩
  | 95 => ⟨S40000x128, .f32⟩
  | 96 => ⟨S40000x128, .f32⟩
  | 97 => ⟨S1x128, .f32⟩
  | 98 => ⟨S40000x128, .f32⟩
  | 99 => ⟨S40000x128, .f32⟩
  | 100 => ⟨S64x128, .f32⟩
  | 101 => ⟨S1x128, .f32⟩
  | 102 => ⟨S64x128, .f32⟩
  | 103 => ⟨S64x128, .f32⟩
  | 104 => ⟨S_, .i32⟩
  | 105 => ⟨S40000, .i32⟩
  | 106 => ⟨S40000, .i1⟩
  | 107 => ⟨S_, .i32⟩
  | 108 => ⟨S40000, .i32⟩
  | 109 => ⟨S40000, .i32⟩
  | 110 => ⟨S40000, .i32⟩
  | 111 => ⟨S40000x1, .i32⟩
  | 112 => ⟨S40000x128, .f32⟩
  | 113 => ⟨S40000x128, .f32⟩
  | 114 => ⟨S_, .f32⟩
  | 115 => ⟨S40000x128, .f32⟩
  | 116 => ⟨S40000x128, .f32⟩
  | 117 => ⟨S_, .f32⟩
  | 118 => ⟨S64x128, .f32⟩
  | 119 => ⟨S640000x1, .i32⟩
  | 120 => ⟨S64x128, .f32⟩
  | 121 => ⟨S64x128, .f32⟩
  | 122 => ⟨S1x128, .f32⟩
  | 123 => ⟨S64x128, .f32⟩
  | 124 => ⟨S64x128, .f32⟩
  | 125 => ⟨S_, .f32⟩
  | 126 => ⟨S64x128, .f32⟩
  | 127 => ⟨S40000x1, .i32⟩
  | _ => ⟨S640000x128, .f32⟩

abbrev hbmTy0_1 (i : Nat) : BufTy := match i % 128 with
  | 0 => ⟨S64x128, .f32⟩
  | 1 => ⟨S64x128, .f32⟩
  | 2 => ⟨S64x128, .f32⟩
  | 3 => ⟨S1x128, .f32⟩
  | 4 => ⟨S64x128, .f32⟩
  | 5 => ⟨S64x128, .f32⟩
  | 6 => ⟨S64x128, .f32⟩
  | 7 => ⟨S64x128, .f32⟩
  | 8 => ⟨S1x128, .f32⟩
  | 9 => ⟨S64x128, .f32⟩
  | 10 => ⟨S64x128, .f32⟩
  | _ => ⟨S640000x128, .f32⟩

abbrev hbmTy (i : Nat) : BufTy := match i / 128 with
  | 0 => hbmTy0_0 i
  | 1 => hbmTy0_1 i
  | _ => ⟨S640000x128, .f32⟩

abbrev bufTy : (tb : Table) → Fin (tcTables nBuf tb) → BufTy
  | .hbm, ⟨i, _⟩ => hbmTy i
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_v9 : Ref sig .tc := ⟨.hbm, 39, rfl⟩
abbrev main_c_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_1 : Ref sig .tc := ⟨.hbm, 51, rfl⟩
abbrev main_v20 : Ref sig .tc := ⟨.hbm, 52, rfl⟩
abbrev main_v21 : Ref sig .tc := ⟨.hbm, 53, rfl⟩
abbrev main_c_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_3 : Ref sig .tc := ⟨.hbm, 65, rfl⟩
abbrev main_v32 : Ref sig .tc := ⟨.hbm, 66, rfl⟩
abbrev main_v33 : Ref sig .tc := ⟨.hbm, 67, rfl⟩
abbrev main_c_4 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call0_cst : Ref sig .tc := ⟨.hbm, 75, rfl⟩
abbrev main_call0_v0 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_5 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_6 : Ref sig .tc := ⟨.hbm, 104, rfl⟩
abbrev main_v65 : Ref sig .tc := ⟨.hbm, 105, rfl⟩
abbrev main_v66 : Ref sig .tc := ⟨.hbm, 106, rfl⟩
abbrev main_c_7 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call1_cst : Ref sig .tc := ⟨.hbm, 114, rfl⟩
abbrev main_call1_v0 : Ref sig .tc := ⟨.hbm, 115, rfl⟩
abbrev main_v73 : Ref sig .tc := ⟨.hbm, 116, rfl⟩
abbrev main_cst_8 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_9 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S1x128_S64x128_0_1 : S1x128.BroadcastsInDim S64x128 (![0, 1] : Fin 2 → Fin S64x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S64x128 : S_.BroadcastsInDim S64x128 (![] : Fin 0 → Fin S64x128.rank)
  dot_S640000x128_S128x128_S640000x128_1_0_0_1_n_n_wf : DotDims.WF S640000x128 S128x128 S640000x128 [1] [0] [0] [1] [] []
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  dot_S64x128_S128x128_S64x128_1_0_0_1_n_n_wf : DotDims.WF S64x128 S128x128 S64x128 [1] [0] [0] [1] [] []
  gather_S64x128_S640000x1_S640000x128_1_0_n_n_0_1_1128_wf : GatherDims.WF S64x128 S640000x1 S640000x128 [1] [0] [] [0] [] 1 ![1, 128]
  scatter_S40000x128_S640000x1_S640000x128_1_0_0_1_wf : ScatterDims.WF S40000x128 S640000x1 S640000x128 [1] [0] [0] 1
  gather_S64x128_S40000x1_S40000x128_1_0_n_n_0_1_1128_wf : GatherDims.WF S64x128 S40000x1 S40000x128 [1] [0] [] [0] [] 1 ![1, 128]
  scatter_S64x128_S640000x1_S640000x128_1_0_0_1_wf : ScatterDims.WF S64x128 S640000x1 S640000x128 [1] [0] [0] 1
  scatter_S64x128_S40000x1_S40000x128_1_0_0_1_wf : ScatterDims.WF S64x128 S40000x1 S40000x128 [1] [0] [0] 1

variable [Facts₀]

def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S64x128_S640000x1_S640000x128_1_0_n_n_0_1_1128 : GatherDims S64x128 S640000x1 S640000x128 where
  offsetDims := [1]
  collapsedSliceDims := [0]
  operandBatchingDims := []
  startIndicesBatchingDims := []
  startIndexMap := [0]
  indexVectorDim := 1
  sliceSizes := ![1, 128]
  wf := gather_S64x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def gather_S64x128_S40000x1_S40000x128_1_0_n_n_0_1_1128 : GatherDims S64x128 S40000x1 S40000x128 where
  offsetDims := [1]
  collapsedSliceDims := [0]
  operandBatchingDims := []
  startIndicesBatchingDims := []
  startIndexMap := [0]
  indexVectorDim := 1
  sliceSizes := ![1, 128]
  wf := gather_S64x128_S40000x1_S40000x128_1_0_n_n_0_1_1128_wf
def scatter_S64x128_S640000x1_S640000x128_1_0_0_1 : ScatterDims S64x128 S640000x1 S640000x128 where
  updateWindowDims := [1]
  insertedWindowDims := [0]
  scatterDimsToOperandDims := [0]
  indexVectorDim := 1
  wf := scatter_S64x128_S640000x1_S640000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf

class Facts : Prop extends Facts₀ where

variable [Facts]
-- ==== Proof.Walk.lean ====
/-
  The contents of the kernel program's buffers at the boundaries between its ten segments (five stretches of host
  operations alternating with the five pallas_calls), walked back towards the launch memory.  A stretch of host
  operations keeps every buffer it does not write; a pallas_call keeps every buffer that is not one of its output
  arrays (an input array is read through its window and left as it was).
-/
import proofs.«409440_j63694365000381_3_alg».proof.Proof.Gen.KernelIdeal.Frame

set_option maxRecDepth 16384

noncomputable section

namespace Cert.KernelIdeal.Walk

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-! ## A pallas_call keeps what it does not write back -/

theorem keep2 (b : Ref sig .tc) (h : ∀ w : Fin cfg0.W, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b (fun w e => hb ⟨w, e⟩)

theorem keep4 (b : Ref sig .tc) (h : ∀ w : Fin cfg1.W, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w (h w rfl) _).trans (A_eq1 (V3 m ρ) c w))
  · exact W4_of_ne m ρ c b (fun w e => hb ⟨w, e⟩)

theorem keep6 (b : Ref sig .tc) (h : ∀ w : Fin cfg2.W, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w (h w rfl) _).trans (A_eq2 (V5 m ρ) c w))
  · exact W6_of_ne m ρ c b (fun w e => hb ⟨w, e⟩)

theorem keep8 (b : Ref sig .tc) (h : ∀ w : Fin cfg3.W, Pipeline.arrRef spec3 w = b → (cfg3.win w).isOut = false) :
    W8 m ρ c (Proc.devRef .tc b) = W7 m ρ c (Proc.devRef .tc b) := by
  by_cases hb : ∃ w, Pipeline.arrRef spec3 w = b
  · obtain ⟨w, rfl⟩ := hb
    exact (W8_arr m ρ c w).trans (((dat3 (V7 m ρ) c).arrAt_in w (h w rfl) _).trans (A_eq3 (V7 m ρ) c w))
  · exact W8_of_ne m ρ c b (fun w e => hb ⟨w, e⟩)

theorem keep10 (b : Ref sig .tc) (h : ∀ w : Fin cfg4.W, Pipeline.arrRef spec4 w = b → (cfg4.win w).isOut = false) :
    W10 m ρ c (Proc.devRef .tc b) = W9 m ρ c (Proc.devRef .tc b) := by
  by_cases hb : ∃ w, Pipeline.arrRef spec4 w = b
  · obtain ⟨w, rfl⟩ := hb
    exact (W10_arr m ρ c w).trans (((dat4 (V9 m ρ) c).arrAt_in w (h w rfl) _).trans (A_eq4 (V9 m ρ) c w))
  · exact W10_of_ne m ρ c b (fun w e => hb ⟨w, e⟩)

/-! ## A stretch of host operations keeps what it does not write -/

theorem keep1 (b : Ref sig .tc) (hb : b ∉ [main_v0, main_v1]) :
    W1 m ρ c (Proc.devRef .tc b) = W0 m ρ c (Proc.devRef .tc b) :=
  StableHlo.after_of_writes_sub hostOps0 (W0 m ρ c) (by
    simp only [hostOps0, List.Forall, StableHlo.reshape_writes]
    decide) hb

theorem keep3 (b : Ref sig .tc) (hb : b ∉ [main_v3, main_v4, main_v5]) :
    W3 m ρ c (Proc.devRef .tc b) = W2 m ρ c (Proc.devRef .tc b) :=
  StableHlo.after_of_writes_sub hostOps1 (W2 m ρ c) (by
    simp only [hostOps1, List.Forall, StableHlo.reshape_writes]
    decide) hb

theorem keep5 (b : Ref sig .tc) (hb : b ∉ [main_c, main_v7, main_v8, main_c_0, main_v9, main_v10, main_v11, main_v12, main_v13,
      main_c_1, main_v14, main_v15, main_c_2, main_v16, main_v17, main_v18, main_v19, main_v20, main_v21, main_v22, main_v23]) :
    W5 m ρ c (Proc.devRef .tc b) = W4 m ρ c (Proc.devRef .tc b) :=
  StableHlo.after_of_writes_sub hostOps2 (W4 m ρ c) (by
    simp only [hostOps2, List.Forall, StableHlo.nullary_writes, StableHlo.unary_writes, StableHlo.binary_writes,
      StableHlo.ternary_writes, StableHlo.reshape_writes]
    decide) hb

theorem keep7 (b : Ref sig .tc) (hb : b ∉ [main_v25, main_cst, main_v26, main_cst_3, main_v27, main_v28, main_v29, main_cst_4,
      main_v30, main_v31, main_v32, main_v33, main_v34, main_v35, main_v36]) :
    W7 m ρ c (Proc.devRef .tc b) = W6 m ρ c (Proc.devRef .tc b) :=
  StableHlo.after_of_writes_sub hostOps3 (W6 m ρ c) (by
    simp only [hostOps3, List.Forall, StableHlo.nullary_writes, StableHlo.unary_writes, StableHlo.binary_writes,
      StableHlo.ternary_writes, StableHlo.reshape_writes]
    decide) hb

theorem keep9 (b : Ref sig .tc) (hb : b ∉ [main_v38, main_cst_5, main_v39, main_v40, main_v41]) :
    W9 m ρ c (Proc.devRef .tc b) = W8 m ρ c (Proc.devRef .tc b) :=
  StableHlo.after_of_writes_sub hostOps4 (W8 m ρ c) (by
    simp only [hostOps4, List.Forall, StableHlo.nullary_writes, StableHlo.binary_writes, StableHlo.reshape_writes]
    decide) hb

/-! ## An argument no segment writes is as launched at every boundary -/

/-- Region K writes back nothing into `b`: whichever of its windows names `b`, that window is an input. -/
abbrev In0 (b : Ref sig .tc) : Prop := ∀ w : Fin cfg0.W, Pipeline.arrRef spec0 w = b → (cfg0.win w).isOut = false
abbrev In1 (b : Ref sig .tc) : Prop := ∀ w : Fin cfg1.W, Pipeline.arrRef spec1 w = b → (cfg1.win w).isOut = false
abbrev In2 (b : Ref sig .tc) : Prop := ∀ w : Fin cfg2.W, Pipeline.arrRef spec2 w = b → (cfg2.win w).isOut = false
abbrev In3 (b : Ref sig .tc) : Prop := ∀ w : Fin cfg3.W, Pipeline.arrRef spec3 w = b → (cfg3.win w).isOut = false
abbrev In4 (b : Ref sig .tc) : Prop := ∀ w : Fin cfg4.W, Pipeline.arrRef spec4 w = b → (cfg4.win w).isOut = false
/-- What each stretch of host operations writes. -/
abbrev wr0 : List (Ref sig .tc) := [main_v0, main_v1]
abbrev wr1 : List (Ref sig .tc) := [main_v3, main_v4, main_v5]
abbrev wr2 : List (Ref sig .tc) := [main_c, main_v7, main_v8, main_c_0, main_v9, main_v10, main_v11, main_v12, main_v13,
  main_c_1, main_v14, main_v15, main_c_2, main_v16, main_v17, main_v18, main_v19, main_v20, main_v21, main_v22, main_v23]
abbrev wr3 : List (Ref sig .tc) := [main_v25, main_cst, main_v26, main_cst_3, main_v27, main_v28, main_v29, main_cst_4,
  main_v30, main_v31, main_v32, main_v33, main_v34, main_v35, main_v36]
abbrev wr4 : List (Ref sig .tc) := [main_v38, main_cst_5, main_v39, main_v40, main_v41]

theorem at1 (b : Ref sig .tc) (h1 : b ∉ wr0) : W1 m ρ c (Proc.devRef .tc b) = m ((c : Thread nD τ).loc b) :=
  (keep1 m ρ c b h1).trans rfl
theorem at2 (b : Ref sig .tc) (h2 : In0 b) (h1 : b ∉ wr0) : W2 m ρ c (Proc.devRef .tc b) = m ((c : Thread nD τ).loc b) :=
  (keep2 m ρ c b h2).trans (at1 m ρ c b h1)
theorem at3 (b : Ref sig .tc) (h3 : b ∉ wr1) (h2 : In0 b) (h1 : b ∉ wr0) : W3 m ρ c (Proc.devRef .tc b) = m ((c : Thread nD τ).loc b) :=
  (keep3 m ρ c b h3).trans (at2 m ρ c b h2 h1)
theorem at4 (b : Ref sig .tc) (h4 : In1 b) (h3 : b ∉ wr1) (h2 : In0 b) (h1 : b ∉ wr0) :
    W4 m ρ c (Proc.devRef .tc b) = m ((c : Thread nD τ).loc b) :=
  (keep4 m ρ c b h4).trans (at3 m ρ c b h3 h2 h1)
theorem at5 (b : Ref sig .tc) (h5 : b ∉ wr2) (h4 : In1 b) (h3 : b ∉ wr1) (h2 : In0 b) (h1 : b ∉ wr0) :
    W5 m ρ c (Proc.devRef .tc b) = m ((c : Thread nD τ).loc b) :=
  (keep5 m ρ c b h5).trans (at4 m ρ c b h4 h3 h2 h1)
theorem at6 (b : Ref sig .tc) (h6 : In2 b) (h5 : b ∉ wr2) (h4 : In1 b) (h3 : b ∉ wr1) (h2 : In0 b) (h1 : b ∉ wr0) :
    W6 m ρ c (Proc.devRef .tc b) = m ((c : Thread nD τ).loc b) :=
  (keep6 m ρ c b h6).trans (at5 m ρ c b h5 h4 h3 h2 h1)
theorem at7 (b : Ref sig .tc) (h7 : b ∉ wr3) (h6 : In2 b) (h5 : b ∉ wr2) (h4 : In1 b) (h3 : b ∉ wr1) (h2 : In0 b) (h1 : b ∉ wr0) :
    W7 m ρ c (Proc.devRef .tc b) = m ((c : Thread nD τ).loc b) :=
  (keep7 m ρ c b h7).trans (at6 m ρ c b h6 h5 h4 h3 h2 h1)
theorem at8 (b : Ref sig .tc) (h8 : In3 b) (h7 : b ∉ wr3) (h6 : In2 b) (h5 : b ∉ wr2) (h4 : In1 b) (h3 : b ∉ wr1) (h2 : In0 b)
    (h1 : b ∉ wr0) : W8 m ρ c (Proc.devRef .tc b) = m ((c : Thread nD τ).loc b) :=
  (keep8 m ρ c b h8).trans (at7 m ρ c b h7 h6 h5 h4 h3 h2 h1)
theorem at9 (b : Ref sig .tc) (h9 : b ∉ wr4) (h8 : In3 b) (h7 : b ∉ wr3) (h6 : In2 b) (h5 : b ∉ wr2) (h4 : In1 b) (h3 : b ∉ wr1)
    (h2 : In0 b) (h1 : b ∉ wr0) : W9 m ρ c (Proc.devRef .tc b) = m ((c : Thread nD τ).loc b) :=
  (keep9 m ρ c b h9).trans (at8 m ρ c b h8 h7 h6 h5 h4 h3 h2 h1)

/-! ## What each stretch of host operations computes, over the contents at the boundary before it -/

theorem w1_v0 : W1 m ρ c (Proc.devRef .tc main_v0) = shapeCast S1x128 (W0 m ρ c (Proc.devRef .tc main_arg10)) shapeCasts_S128_S1x128 := by
  show StableHlo.after hostOps0 (W0 m ρ c) (Proc.devRef .tc main_v0) = _
  after_results
  all_goals rfl
theorem w1_v1 : W1 m ρ c (Proc.devRef .tc main_v1) = shapeCast S1x128 (W0 m ρ c (Proc.devRef .tc main_arg12)) shapeCasts_S128_S1x128 := by
  show StableHlo.after hostOps0 (W0 m ρ c) (Proc.devRef .tc main_v1) = _
  after_results
  all_goals rfl

theorem w3_v3 : W3 m ρ c (Proc.devRef .tc main_v3) = shapeCast S1x128 (W2 m ρ c (Proc.devRef .tc main_arg14)) shapeCasts_S128_S1x128 := by
  show StableHlo.after hostOps1 (W2 m ρ c) (Proc.devRef .tc main_v3) = _
  after_results
  all_goals rfl
theorem w3_v4 : W3 m ρ c (Proc.devRef .tc main_v4) = shapeCast S1x128 (W2 m ρ c (Proc.devRef .tc main_arg22)) shapeCasts_S128_S1x128 := by
  show StableHlo.after hostOps1 (W2 m ρ c) (Proc.devRef .tc main_v4) = _
  after_results
  all_goals rfl
theorem w3_v5 : W3 m ρ c (Proc.devRef .tc main_v5) = shapeCast S1x128 (W2 m ρ c (Proc.devRef .tc main_arg28)) shapeCasts_S128_S1x128 := by
  show StableHlo.after hostOps1 (W2 m ρ c) (Proc.devRef .tc main_v5) = _
  after_results
  all_goals rfl

theorem w5_v22 : W5 m ρ c (Proc.devRef .tc main_v22) = shapeCast S1x640000 (W4 m ρ c (Proc.devRef .tc main_arg5)) shapeCasts_S640000_S1x640000 := by
  show StableHlo.after hostOps2 (W4 m ρ c) (Proc.devRef .tc main_v22) = _
  after_results
  all_goals rfl
theorem w5_v23 : W5 m ρ c (Proc.devRef .tc main_v23) = shapeCast S1x128 (W4 m ρ c (Proc.devRef .tc main_arg8)) shapeCasts_S128_S1x128 := by
  show StableHlo.after hostOps2 (W4 m ρ c) (Proc.devRef .tc main_v23) = _
  after_results
  all_goals rfl
/-- The two node terms gathered onto the edges and added. -/
theorem w5_v21 : W5 m ρ c (Proc.devRef .tc main_v21)
    = addf
      (Host.gather gather_S40000x128_S640000x1_S640000x128_1_0_n_n_0_1_1128 (W4 m ρ c (Proc.devRef .tc main_v2_0))
        (broadcastInDim S640000x1 ![0] bcast_S640000_S640000x1_0
          (select (cmpi .slt (W4 m ρ c (Proc.devRef .tc main_arg3)) (broadcastInDim S640000 ![] bcast_S_S640000 (constantI S_ 32 0#32)))
            (addi (W4 m ρ c (Proc.devRef .tc main_arg3)) (broadcastInDim S640000 ![] bcast_S_S640000 (constantI S_ 32 40000#32)))
            (W4 m ρ c (Proc.devRef .tc main_arg3)))))
      (Host.gather gather_S40000x128_S640000x1_S640000x128_1_0_n_n_0_1_1128 (W4 m ρ c (Proc.devRef .tc main_v2_1))
        (broadcastInDim S640000x1 ![0] bcast_S640000_S640000x1_0
          (select (cmpi .slt (W4 m ρ c (Proc.devRef .tc main_arg4)) (broadcastInDim S640000 ![] bcast_S_S640000 (constantI S_ 32 0#32)))
            (addi (W4 m ρ c (Proc.devRef .tc main_arg4)) (broadcastInDim S640000 ![] bcast_S_S640000 (constantI S_ 32 40000#32)))
            (W4 m ρ c (Proc.devRef .tc main_arg4))))) := by
  show StableHlo.after hostOps2 (W4 m ρ c) (Proc.devRef .tc main_v21) = _
  after_results_simp
  all_goals rfl

theorem w7_v33 : W7 m ρ c (Proc.devRef .tc main_v33) = shapeCast S40000x1 (W6 m ρ c (Proc.devRef .tc main_arg6)) shapeCasts_S40000_S40000x1 := by
  show StableHlo.after hostOps3 (W6 m ρ c) (Proc.devRef .tc main_v33) = _
  after_results
  all_goals rfl
theorem w7_v34 : W7 m ρ c (Proc.devRef .tc main_v34) = shapeCast S1x128 (W6 m ρ c (Proc.devRef .tc main_arg16)) shapeCasts_S128_S1x128 := by
  show StableHlo.after hostOps3 (W6 m ρ c) (Proc.devRef .tc main_v34) = _
  after_results
  all_goals rfl
theorem w7_v35 : W7 m ρ c (Proc.devRef .tc main_v35) = shapeCast S1x128 (W6 m ρ c (Proc.devRef .tc main_arg18)) shapeCasts_S128_S1x128 := by
  show StableHlo.after hostOps3 (W6 m ρ c) (Proc.devRef .tc main_v35) = _
  after_results
  all_goals rfl
theorem w7_v36 : W7 m ρ c (Proc.devRef .tc main_v36) = shapeCast S1x128 (W6 m ρ c (Proc.devRef .tc main_arg20)) shapeCasts_S128_S1x128 := by
  show StableHlo.after hostOps3 (W6 m ρ c) (Proc.devRef .tc main_v36) = _
  after_results
  all_goals rfl
/-- The edge kernel's per-tile sums, re-laid as tiles and added over the tiles. -/
theorem w7_v26 : W7 m ρ c (Proc.devRef .tc main_v26)
    = Host.reduceAdd (shapeCast S125x64x128 (W6 m ρ c (Proc.devRef .tc main_v24_1)) shapeCasts_S8000x128_S125x64x128)
        (constant S_ .f32 0x00000000#32) reducesTo_S125x64x128_S64x128_d0 h_S_ := by
  show StableHlo.after hostOps3 (W6 m ρ c) (Proc.devRef .tc main_v26) = _
  after_results
  all_goals rfl
/-- The new edges summed by receiver. -/
theorem w7_v29 : W7 m ρ c (Proc.devRef .tc main_v29)
    = Host.scatterAdd scatter_S40000x128_S640000x1_S640000x128_1_0_0_1
        (broadcastInDim S40000x128 ![] bcast_S_S40000x128 (constant S_ .f32 0x00000000#32))
        (broadcastInDim S640000x1 ![0] bcast_S640000_S640000x1_0 (W6 m ρ c (Proc.devRef .tc main_arg4)))
        (W6 m ρ c (Proc.devRef .tc main_v24_0)) := by
  show StableHlo.after hostOps3 (W6 m ρ c) (Proc.devRef .tc main_v29) = _
  after_results
  all_goals rfl
/-- The new edges summed by sender. -/
theorem w7_v32 : W7 m ρ c (Proc.devRef .tc main_v32)
    = Host.scatterAdd scatter_S40000x128_S640000x1_S640000x128_1_0_0_1
        (broadcastInDim S40000x128 ![] bcast_S_S40000x128 (constant S_ .f32 0x00000000#32))
        (broadcastInDim S640000x1 ![0] bcast_S640000_S640000x1_0 (W6 m ρ c (Proc.devRef .tc main_arg3)))
        (W6 m ρ c (Proc.devRef .tc main_v24_0)) := by
  show StableHlo.after hostOps3 (W6 m ρ c) (Proc.devRef .tc main_v32) = _
  after_results
  all_goals rfl

theorem w9_v40 : W9 m ρ c (Proc.devRef .tc main_v40) = shapeCast S1x128 (W8 m ρ c (Proc.devRef .tc main_arg26)) shapeCasts_S128_S1x128 := by
  show StableHlo.after hostOps4 (W8 m ρ c) (Proc.devRef .tc main_v40) = _
  after_results
  all_goals rfl
theorem w9_v41 : W9 m ρ c (Proc.devRef .tc main_v41) = shapeCast S1x128 (W8 m ρ c (Proc.devRef .tc main_arg24)) shapeCasts_S128_S1x128 := by
  show StableHlo.after hostOps4 (W8 m ρ c) (Proc.devRef .tc main_v41) = _
  after_results
  all_goals rfl
/-- The node kernel's per-tile sums, re-laid as tiles and added over the tiles. -/
theorem w9_v39 : W9 m ρ c (Proc.devRef .tc main_v39)
    = Host.reduceAdd (shapeCast S20x64x128 (W8 m ρ c (Proc.devRef .tc main_v37_1)) shapeCasts_S1280x128_S20x64x128)
        (constant S_ .f32 0x00000000#32) reducesTo_S20x64x128_S64x128_d0 h_S_ := by
  show StableHlo.after hostOps4 (W8 m ρ c) (Proc.devRef .tc main_v39) = _
  after_results
  all_goals rfl

/-! ## A pallas_call's outputs, carried to where they are read -/

theorem w4_v2_0 : W4 m ρ c (Proc.devRef .tc main_v2_0) = (dat0 (V1 m ρ) c).arrAt 5 cfg0.N :=
  (keep4 m ρ c main_v2_0 (by decide)).trans ((keep3 m ρ c main_v2_0 (by decide)).trans (W2_arr m ρ c 5))
theorem w4_v2_1 : W4 m ρ c (Proc.devRef .tc main_v2_1) = (dat0 (V1 m ρ) c).arrAt 6 cfg0.N :=
  (keep4 m ρ c main_v2_1 (by decide)).trans ((keep3 m ρ c main_v2_1 (by decide)).trans (W2_arr m ρ c 6))
theorem w5_v6_0 : W5 m ρ c (Proc.devRef .tc main_v6_0) = (dat1 (V3 m ρ) c).arrAt 7 cfg1.N :=
  (keep5 m ρ c main_v6_0 (by decide)).trans (W4_arr m ρ c 7)
theorem w7_v6_1 : W7 m ρ c (Proc.devRef .tc main_v6_1) = (dat1 (V3 m ρ) c).arrAt 8 cfg1.N :=
  (keep7 m ρ c main_v6_1 (by decide)).trans ((keep6 m ρ c main_v6_1 (by decide)).trans
    ((keep5 m ρ c main_v6_1 (by decide)).trans (W4_arr m ρ c 8)))
theorem w9_v6_2 : W9 m ρ c (Proc.devRef .tc main_v6_2) = (dat1 (V3 m ρ) c).arrAt 9 cfg1.N :=
  (keep9 m ρ c main_v6_2 (by decide)).trans ((keep8 m ρ c main_v6_2 (by decide)).trans
    ((keep7 m ρ c main_v6_2 (by decide)).trans ((keep6 m ρ c main_v6_2 (by decide)).trans
      ((keep5 m ρ c main_v6_2 (by decide)).trans (W4_arr m ρ c 9)))))
theorem w6_v24_0 : W6 m ρ c (Proc.devRef .tc main_v24_0) = (dat2 (V5 m ρ) c).arrAt 6 cfg2.N := W6_arr m ρ c 6
theorem w6_v24_1 : W6 m ρ c (Proc.devRef .tc main_v24_1) = (dat2 (V5 m ρ) c).arrAt 7 cfg2.N := W6_arr m ρ c 7
theorem w8_v37_1 : W8 m ρ c (Proc.devRef .tc main_v37_1) = (dat3 (V7 m ρ) c).arrAt 12 cfg3.N := W8_arr m ρ c 12
theorem w9_v26 : W9 m ρ c (Proc.devRef .tc main_v26) = W7 m ρ c (Proc.devRef .tc main_v26) :=
  (keep9 m ρ c main_v26 (by decide)).trans (keep8 m ρ c main_v26 (by decide))

/-! ## The three results at the last boundary -/

theorem w10_v24_0 : W10 m ρ c (Proc.devRef .tc main_v24_0) = (dat2 (V5 m ρ) c).arrAt 6 cfg2.N :=
  (keep10 m ρ c main_v24_0 (by decide)).trans ((keep9 m ρ c main_v24_0 (by decide)).trans
    ((keep8 m ρ c main_v24_0 (by decide)).trans ((keep7 m ρ c main_v24_0 (by decide)).trans (W6_arr m ρ c 6))))
theorem w10_v37_0 : W10 m ρ c (Proc.devRef .tc main_v37_0) = (dat3 (V7 m ρ) c).arrAt 11 cfg3.N :=
  (keep10 m ρ c main_v37_0 (by decide)).trans ((keep9 m ρ c main_v37_0 (by decide)).trans (W8_arr m ρ c 11))
theorem w10_v42 : W10 m ρ c (Proc.devRef .tc main_v42) = (dat4 (V9 m ρ) c).arrAt 7 cfg4.N := W10_arr m ρ c 7

end Cert.KernelIdeal.Walk

end
-- ==== Proof.Spec.lean ====
/-
  The mathematics of one full graph-network block, stated once over the extended reals and over no program.

  A graph has E edges, N nodes and G graphs; every feature vector has D entries.  Three updates:
  * an edge's new features are relu of  e·We + be + (n·Ws + bs)[sender] + (n·Wr + br)[receiver] + (u·Wue + bue)[graph of the edge];
  * a node's new features are relu of  n·Wn + bn + (sum of the new edges it receives)·Wi + bi
      + (sum of the new edges it sends)·Wo + bo + (u·Wun + bun)[graph of the node];
  * a graph's new features are  (sum of its new edges)·Whe + bhe + (sum of its new nodes)·Whn + bhn + u·Whu + bhu.
  "row [i]" of a table reads the row an index word names: a negative word counts from the end, and the result is
  clamped into the table.  A "sum of the rows with index i" keeps a row only when its index word, read signed, is i.

  The definitions below are the pieces both programs are read as: a matrix product, a linear layer with its bias
  kept as a [1, C] row (the form the kernels are handed) or as a [C] vector (the form the reference adds), the row
  read, the sum by index, relu, and the one-hot weight by which a kernel selects and sums rows of a small table.
-/
import Idealize.ShloMosaic.PureOps.Ideal
import Idealize.ShloMosaic.Lib.ValueIdx
import Idealize.ShloMosaic.Lib.StableHlo.Predicate

open scoped BigOperators

noncomputable section

namespace GN

open Idealize.ShloMosaic Idealize.ShloMosaic.ValueIdx Idealize.ShloMosaic.StableHlo.Predicate

/-- An R × C array of extended reals. -/
abbrev Mat (R C : Nat) : Type := (⟨2, ![R, C]⟩ : Shape).Idx → EReal
/-- A vector of C extended reals. -/
abbrev Vec1 (C : Nat) : Type := (⟨1, ![C]⟩ : Shape).Idx → EReal
/-- n index words. -/
abbrev Ids (n : Nat) : Type := (⟨1, ![n]⟩ : Shape).Idx → BitVec 32
/-- n index words kept as a column. -/
abbrev IdsCol (n : Nat) : Type := (⟨2, ![n, 1]⟩ : Shape).Idx → BitVec 32
/-- n index words kept as a row. -/
abbrev IdsRow (n : Nat) : Type := (⟨2, ![1, n]⟩ : Shape).Idx → BitVec 32

/-- The matrix product: entry (p, q) is the sum over k of x(p, k) · W(k, q). -/
def mm {R K C : Nat} (x : Mat R K) (W : Mat K C) : Mat R C :=
  fun i => ∑ k : Fin K, x (ix2 (i 0 : Fin R) k) * W (ix2 k (i 1 : Fin C))

/-- A vector as a one-row matrix. -/
def asRow {C : Nat} (b : Vec1 C) : Mat 1 C := fun i => b (ix1 (i 1 : Fin C))

/-- A linear layer whose bias is a one-row matrix: x·W + b, the bias added to every row. -/
def linRow {R K C : Nat} (x : Mat R K) (W : Mat K C) (b : Mat 1 C) : Mat R C :=
  fun i => mm x W i + b (ix2 (0 : Fin 1) (i 1 : Fin C))

/-- A linear layer whose bias is a vector. -/
def lin {R K C : Nat} (x : Mat R K) (W : Mat K C) (b : Vec1 C) : Mat R C := linRow x W (asRow b)

/-- Entrywise sum. -/
def add {R C : Nat} (x y : Mat R C) : Mat R C := fun i => x i + y i

/-- relu, entrywise: the larger of the entry and zero. -/
def relu {R C : Nat} (x : Mat R C) : Mat R C := fun i => max (x i) 0

/-- The index word as jnp's indexing normalises it: a negative word counts from the end of a table of N rows. -/
def wrapWord (N : Nat) (w : BitVec 32) : BitVec 32 := if w.toInt < 0 then w + BitVec.ofNat 32 N else w

/-- The row a normalised word names, clamped into a table of N rows. -/
def clampRow (N : Nat) (w : BitVec 32) : Nat := min w.toInt.toNat (N - 1)

theorem clampRow_lt {N : Nat} (hN : 0 < N) (w : BitVec 32) : clampRow N w < N := by
  unfold clampRow; omega

/-- Row reads: row e of the result is the table's row named by word e (normalised, clamped). -/
def take {N C n : Nat} (hN : 0 < N) (T : Mat N C) (idx : Ids n) : Mat n C :=
  fun i => T (ix2 ⟨clampRow N (wrapWord N (idx (ix1 (i 0 : Fin n)))), clampRow_lt hN _⟩ (i 1 : Fin C))

/-- Sums by index: row r of the result is the sum of the rows e of upd whose index word, read signed, is r. -/
def segsum {n C : Nat} (N : Nat) (upd : Mat n C) (idx : Ids n) : Mat N C :=
  fun i => ∑ e ∈ Finset.univ.filter (fun e : Fin n => (idx (ix1 e)).toInt = (((i 0 : Fin N).val : Nat) : Int)),
    upd (ix2 e (i 1 : Fin C))

/-- The one-hot weight a kernel builds from an index word w and a row number g: 1 when w is g, else 0. -/
def hot (w : BitVec 32) (g : Nat) : EReal := (((((if w = BitVec.ofNat 32 g then 1#1 else 0#1 : BitVec 1).setWidth 32).toInt : ℝ)) : EReal)

/-! ## The reference, as it associates its sums -/

section Reference
variable {E N G D : Nat} (hN : 0 < N) (hG : 0 < G)
variable (ef : Mat E D) (nf : Mat N D) (gf : Mat G D) (snd rcv egid : Ids E) (ngid : Ids N)
variable (We Ws Wr Wue Wn Wi Wo Wun Whn Whe Whu : Mat D D) (be bs br bue bn bi bo bun bhn bhe bhu : Vec1 D)

/-- The new edges. -/
def refEdges : Mat E D :=
  relu (add (add (add (lin ef We be) (take hN (lin nf Ws bs) snd)) (take hN (lin nf Wr br) rcv)) (take hG (lin gf Wue bue) egid))

/-- A matrix with a vector added to every row. -/
def addVec {R C : Nat} (x : Mat R C) (b : Vec1 C) : Mat R C := fun i => x i + b (ix1 (i 1 : Fin C))

/-- The new nodes, from the new edges. -/
def refNodes (edges : Mat E D) : Mat N D :=
  relu (add (addVec (add (addVec (add (lin nf Wn bn) (mm (segsum N edges rcv) Wi)) bi) (mm (segsum N edges snd) Wo)) bo)
    (take hG (lin gf Wun bun) ngid))

/-- The new graph features, from the new edges and the new nodes. -/
def refGlobals (edges : Mat E D) (nodes : Mat N D) : Mat G D :=
  addVec (add (addVec (add (lin (segsum G edges egid) Whe bhe) (mm (segsum G nodes ngid) Whn)) bhn) (mm gf Whu)) bhu

end Reference

/-! ## The five pallas_calls, each as a function of what it is handed -/

/-- The edge update on what the kernel is handed: the edge features, the two node terms already summed (pre), the bias
    as a row, the per-graph table and the edges' graph words as a row.  The graph term is the one-hot-weighted sum of
    the table's rows. -/
def edgeK {E G D : Nat} (ef pre : Mat E D) (We : Mat D D) (be : Mat 1 D) (fue : Mat G D) (gid : IdsRow E) : Mat E D :=
  fun i => max (((linRow ef We be i) + pre i)
    + ∑ g : Fin G, hot (gid (ix2 (0 : Fin 1) (i 0 : Fin E))) g.val * fue (ix2 g (i 1 : Fin D))) 0

/-- Row j of tile number (r / G), for a row r of an array of nT tiles of G rows: an index below nT · T. -/
def tileRow {nT T G : Nat} (r : Fin (nT * G)) (j : Fin T) : Fin (nT * T) :=
  ⟨(r.val / G) * T + j.val, by
    have h := r.isLt
    have hG : 0 < G := Nat.pos_of_ne_zero (by rintro rfl; simp at h)
    have hq : r.val / G < nT := (Nat.div_lt_iff_lt_mul hG).2 h
    have hj := j.isLt
    calc (r.val / G) * T + j.val < (r.val / G) * T + T := by omega
      _ = (r.val / G + 1) * T := by ring
      _ ≤ nT * T := Nat.mul_le_mul_right T hq⟩

/-- A kernel's per-tile sums by graph: the rows come in nT tiles of T; for tile t and graph number g, row t · G + g of
    the result is the one-hot-weighted sum of the tile's T rows of x.  `word e` is row e's graph word. -/
def partK {nT T G D : Nat} (x : Mat (nT * T) D) (word : Fin (nT * T) → BitVec 32) : Mat (nT * G) D :=
  fun i => ∑ j : Fin T, hot (word (tileRow (G := G) (i 0 : Fin (nT * G)) j)) ((i 0 : Fin (nT * G)).val % G)
    * x (ix2 (tileRow (G := G) (i 0 : Fin (nT * G)) j) (i 1 : Fin D))

/-- The edge kernel's second output: the per-tile sums of the new edges, the graph words handed as a row. -/
def edgePartK {nT T G D : Nat} (edges : Mat (nT * T) D) (gid : IdsRow (nT * T)) : Mat (nT * G) D :=
  partK (G := G) edges (fun e => gid (ix2 (0 : Fin 1) e))

/-- The node update on what the kernel is handed: the node features, the two sums of edges by node, the nodes' graph
    words as a column, the per-graph table, and three weight matrices with their biases as rows. -/
def nodeK {N G D : Nat} (nf segr segs : Mat N D) (gid : IdsCol N) (tbl : Mat G D)
    (Wn : Mat D D) (bn : Mat 1 D) (Wi : Mat D D) (bi : Mat 1 D) (Wo : Mat D D) (bo : Mat 1 D) : Mat N D :=
  fun i => max ((((linRow nf Wn bn i) + (linRow segr Wi bi i)) + (linRow segs Wo bo i))
    + ∑ g : Fin G, hot (gid (ixP (i 0 : Fin N))) g.val * tbl (ix2 g (i 1 : Fin D))) 0

/-- The node kernel's second output: the per-tile sums of the new nodes, the graph words handed as a column. -/
def nodePartK {nT T G D : Nat} (nodes : Mat (nT * T) D) (gid : IdsCol (nT * T)) : Mat (nT * G) D :=
  partK (G := G) nodes (fun e => gid (ixP e))

/-- The graph update on what the kernel is handed. -/
def globK {G D : Nat} (se sn fwhu : Mat G D) (Whe : Mat D D) (bhe : Mat 1 D) (Whn : Mat D D) (bhn : Mat 1 D) : Mat G D :=
  fun i => ((linRow se Whe bhe i) + (linRow sn Whn bhn i)) + fwhu i

/-- The tiles' partial sums added up: row g of the result is the sum over the nT tiles of row t · G + g. -/
def sumTiles {nT G D : Nat} (p : Mat (nT * G) D) : Mat G D :=
  fun i => ∑ t : Fin nT, p (ix2 (⟨t.val * G + (i 0 : Fin G).val, by
      have h0 : (i 0 : Fin G).val < G := (i 0 : Fin G).isLt
      have ht := t.isLt
      calc t.val * G + (i 0 : Fin G).val < t.val * G + G := by omega
        _ = (t.val + 1) * G := by ring
        _ ≤ nT * G := Nat.mul_le_mul_right G ht⟩ : Fin (nT * G)) (i 1 : Fin D))

/-- Index words as a row. -/
def idsRow {n : Nat} (idx : Ids n) : IdsRow n := fun i => idx (ix1 (i 1 : Fin n))
/-- Index words as a column. -/
def idsCol {n : Nat} (idx : Ids n) : IdsCol n := fun i => idx (ix1 (i 0 : Fin n))

/-! ## The kernel's program: the five pallas_calls and the host operations between them -/

section KernelProgram
variable {nTe Te nTn Tn G D : Nat} (hN : 0 < nTn * Tn)
variable (ef : Mat (nTe * Te) D) (nf : Mat (nTn * Tn) D) (gf : Mat G D) (snd rcv egid : Ids (nTe * Te)) (ngid : Ids (nTn * Tn))
variable (We Ws Wr Wue Wn Wi Wo Wun Whn Whe Whu : Mat D D) (be bs br bue bn bi bo bun bhn bhe bhu : Vec1 D)

/-- The new edges as the kernel computes them. -/
def kEdges : Mat (nTe * Te) D :=
  edgeK ef (add (take hN (lin nf Ws bs) snd) (take hN (lin nf Wr br) rcv)) We (asRow be) (lin gf Wue bue) (idsRow egid)

/-- The new nodes as the kernel computes them, from its new edges. -/
def kNodes (edges : Mat (nTe * Te) D) : Mat (nTn * Tn) D :=
  nodeK nf (segsum (nTn * Tn) edges rcv) (segsum (nTn * Tn) edges snd) (idsCol ngid) (lin gf Wun bun)
    Wn (asRow bn) Wi (asRow bi) Wo (asRow bo)

/-- The new graph features as the kernel computes them, from its new edges and nodes. -/
def kGlobals (edges : Mat (nTe * Te) D) (nodes : Mat (nTn * Tn) D) : Mat G D :=
  globK (sumTiles (edgePartK (G := G) edges (idsRow egid))) (sumTiles (nodePartK (G := G) nodes (idsCol ngid)))
    (lin gf Whu bhu) Whe (asRow bhe) Whn (asRow bhn)

end KernelProgram

end GN

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Reg0.lean ====
/-
  The first pallas_call of the graph-network block: the two node-side linear layers.

  The call walks the 40000 node rows in 8 blocks of 5000.  At each block it multiplies the block of node features by a
  128 x 128 weight matrix into a zero accumulator and adds a bias row to every row, once for the senders' layer and
  once for the receivers' layer.  Over the extended reals the narrowing of the operands before the product is the
  identity, so each output array is the linear layer  x . W + b  of the whole node-feature array, index by index.

  Steps: the value a block's store carries at an index (p, q); what a grid point writes back, as the block of the
  linear layer it covers; every row of the array lies in the block of the point  row / 5000; hence the whole array.
-/
import proofs.«409440_j63694365000381_3_alg».proof.Proof.Gen.KernelIdeal.Frame
import proofs.«409440_j63694365000381_3_alg».proof.Proof.Spec
import proofs.«409440_j63694365000381_3_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg0

open Idealize.ShloMosaic Idealize.ShloMosaic.TcCoe Idealize.ShloMosaic.ValueIdx Cert.KernelIdeal Cert.KernelIdeal.Gen

/-! ## The value a block's store carries, at an index -/

/-- The senders' layer on one block: entry (p, q) is the sum over k of x(p, k) * W(k, q), plus the bias row at q. -/
theorem pay2_apply (x : Vec Ideal S5000x128 .f32) (W : Vec Ideal S128x128 .f32) (b : Vec Ideal S1x128 .f32)
    (p : Fin 5000) (q : Fin 128) :
    k0_pay2 (F := Ideal) x W b (ix2 p q) = (∑ k : Fin 128, x (ix2 p k) * W (ix2 k q)) + b (ix2 (0 : Fin 1) q) := by
  unfold k0_pay2 k0_pay1
  rw [addf_apply, shapeCast_self, broadcastTo_1b_ab_apply]
  congr 1
  refine (Ideal.matmul_constant_zero_apply dot_S5000x128_S128x128_S5000x128_1_0_0_1_n_n none _ _ (ix2 p q)).trans ?_
  exact PlainDot.sum_eq dot_S5000x128_S128x128_S5000x128_1_0_0_1_n_n rfl rfl rfl rfl rfl rfl _ _ p q

/-- The receivers' layer on one block, likewise. -/
theorem pay3_apply (x : Vec Ideal S5000x128 .f32) (W : Vec Ideal S128x128 .f32) (b : Vec Ideal S1x128 .f32)
    (p : Fin 5000) (q : Fin 128) :
    k0_pay3 (F := Ideal) x W b (ix2 p q) = (∑ k : Fin 128, x (ix2 p k) * W (ix2 k q)) + b (ix2 (0 : Fin 1) q) := by
  unfold k0_pay3 k0_pay1
  rw [addf_apply, shapeCast_self, broadcastTo_1b_ab_apply]
  congr 1
  refine (Ideal.matmul_constant_zero_apply dot_S5000x128_S128x128_S5000x128_1_0_0_1_n_n none _ _ (ix2 p q)).trans ?_
  exact PlainDot.sum_eq dot_S5000x128_S128x128_S5000x128_1_0_0_1_n_n rfl rfl rfl rfl rfl rfl _ _ p q

/-! ## A block's row of a linear layer -/

/-- If row p of a block is row (i 0) of the array, the weight and the bias row are read where the index's column
    says, then the block's value at (p, q) is the linear layer of the whole array at the index i. -/
theorem lin_block {A : GN.Mat 40000 128} {W : GN.Mat 128 128} {b : GN.Mat 1 128}
    {x : GN.Mat 5000 128} {W' : GN.Mat 128 128} {b' : GN.Mat 1 128}
    {i : (⟨2, ![40000, 128]⟩ : Shape).Idx} {p : Fin 5000} {q : Fin 128}
    (hx : ∀ k : Fin 128, x (ix2 p k) = A (ix2 (i 0 : Fin 40000) k))
    (hW : ∀ k : Fin 128, W' (ix2 k q) = W (ix2 k (i 1 : Fin 128)))
    (hb : b' (ix2 (0 : Fin 1) q) = b (ix2 (0 : Fin 1) (i 1 : Fin 128))) :
    (∑ k : Fin 128, x (ix2 p k) * W' (ix2 k q)) + b' (ix2 (0 : Fin 1) q) = GN.linRow A W b i := by
  unfold GN.linRow GN.mm
  rw [hb]
  exact congrArg (· + b (ix2 (0 : Fin 1) (i 1 : Fin 128))) (Finset.sum_congr rfl fun k _ => by rw [hx k, hW k])

/-! ## The grid: where each window's block sits at each point -/

variable (V : (c : Dev nD) → (b : Ref sig .tc) → Buf (Elt Ideal) ((c : Thread nD τ).loc b))

/-- The body's one store starts at the origin of the block. -/
theorem hz : (![0, 0] : Fin 2 → Nat) = fun _ => 0 := funext fun a => by fin_cases a <;> rfl

/-- The index maps, decided over the 8 points: the node block and both output blocks are block t along the rows;
    the weights and the bias rows are the one block of their arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Every one of the 8 row blocks is some point's, for both outputs. -/
theorem idx_onto : ∀ r : Fin 8, ∃ t : Fin cfg0.N,
    win0_5.index t (0 : Fin 2) = r.val ∧ win0_6.index t (0 : Fin 2) = r.val :=
  (by decide +kernel : ∀ r : Fin 8, ∃ t : Fin grid0.N, _)

/-! ## Output window 5: the senders' layer of the node features -/

/-- What grid point t writes back is block t of the linear layer of the whole arrays: the node block is rows
    5000 t .. 5000 t + 4999 of the node features, the weight and the bias row are read whole at every point. -/
theorem flushed5_eq (c : Dev nD) (t : Fin cfg0.N) :
    (dat0 (F := Ideal) V c).flushed 5 t
      = ((cfg0.win 5).blk t).view.read (Elt Ideal) (GN.linRow (V c main_arg1) (V c main_arg9) (V c main_v0)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 5000) (q : Fin 128), j = ix2 p q := ⟨j 0, j 1, eq_ix2 j⟩
  show k0_pay2 (F := Ideal) (iblk0 V c 0 t) (iblk0 V c 1 t) (iblk0 V c 2 t) (ix2 p q)
      = GN.linRow (V c main_arg1) (V c main_arg9) (V c main_v0) (((cfg0.win 5).blk t).view.emb (ix2 p q))
  refine (pay2_apply _ _ _ p q).trans ?_
  refine lin_block (A := V c main_arg1) (W := V c main_arg9) (b := V c main_v0)
    (x := iblk0 V c 0 t) (W' := iblk0 V c 1 t) (b' := iblk0 V c 2 t)
    (i := ((cfg0.win 5).blk t).view.emb (ix2 p q)) (fun k => ?_) (fun k => ?_) ?_
  · show V c main_arg1 (((cfg0.win 0).blk t).view.emb (ix2 p k)) = V c main_arg1 (ix2 _ k)
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_arg9 (((cfg0.win 1).blk t).view.emb (ix2 k q)) = V c main_arg9 (ix2 k _)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_5.index t (1 : Fin 2) * 128 + 1 * q.val; omega
  · show V c main_v0 (((cfg0.win 2).blk t).view.emb (ix2 (0 : Fin 1) q)) = V c main_v0 (ix2 (0 : Fin 1) _)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_5.index t (1 : Fin 2) * 128 + 1 * q.val; omega

/-- An index of the array is in point t's block iff each coordinate is in the block's range on its axis. -/
theorem mem_blk5 (t : Fin cfg0.N) (i : S40000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2_0).slice (win0_5.rect t)).set ↔ _
  rw [View.set_slice_whole, Rect.mem_set_unit]
  exact Iff.rfl

/-- Every index of the array lies in some point's block: row r in the block of point r / 5000. -/
theorem cover5 (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  obtain ⟨t, ht5, ht6⟩ := idx_onto ⟨(i 0).val / 5000, by omega⟩
  obtain ⟨e00, e01, e10, e11, e20, e21, e30, e31, e40, e41, e50, e51, e60, e61⟩ := idx_facts t
  have hq : win0_5.index t (0 : Fin 2) = (i 0).val / 5000 := ht5
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The whole array after the call: the senders' layer of the node features. -/
theorem arr0_5 (c : Dev nD) :
    (dat0 (F := Ideal) V c).arrAt 5 cfg0.N = GN.linRow (V c main_arg1) (V c main_arg9) (V c main_v0) :=
  (dat0 (F := Ideal) V c).arrAt_eq_of_cover 5 (GN.linRow (V c main_arg1) (V c main_arg9) (V c main_v0))
    (fun t _ => flushed5_eq V c t) cover5

/-! ## Output window 6: the receivers' layer of the node features -/

/-- What grid point t writes back is block t of the linear layer of the whole arrays: the node block is rows
    5000 t .. 5000 t + 4999 of the node features, the weight and the bias row are read whole at every point. -/
theorem flushed6_eq (c : Dev nD) (t : Fin cfg0.N) :
    (dat0 (F := Ideal) V c).flushed 6 t
      = ((cfg0.win 6).blk t).view.read (Elt Ideal) (GN.linRow (V c main_arg1) (V c main_arg11) (V c main_v1)) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 5000) (q : Fin 128), j = ix2 p q := ⟨j 0, j 1, eq_ix2 j⟩
  show k0_pay3 (F := Ideal) (iblk0 V c 0 t) (iblk0 V c 3 t) (iblk0 V c 4 t) (ix2 p q)
      = GN.linRow (V c main_arg1) (V c main_arg11) (V c main_v1) (((cfg0.win 6).blk t).view.emb (ix2 p q))
  refine (pay3_apply _ _ _ p q).trans ?_
  refine lin_block (A := V c main_arg1) (W := V c main_arg11) (b := V c main_v1)
    (x := iblk0 V c 0 t) (W' := iblk0 V c 3 t) (b' := iblk0 V c 4 t)
    (i := ((cfg0.win 6).blk t).view.emb (ix2 p q)) (fun k => ?_) (fun k => ?_) ?_
  · show V c main_arg1 (((cfg0.win 0).blk t).view.emb (ix2 p k)) = V c main_arg1 (ix2 _ k)
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · show V c main_arg11 (((cfg0.win 3).blk t).view.emb (ix2 k q)) = V c main_arg11 (ix2 k _)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  · show V c main_v1 (((cfg0.win 4).blk t).view.emb (ix2 (0 : Fin 1) q)) = V c main_v1 (ix2 (0 : Fin 1) _)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega

/-- An index of the array is in point t's block iff each coordinate is in the block's range on its axis. -/
theorem mem_blk6 (t : Fin cfg0.N) (i : S40000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v2_1).slice (win0_6.rect t)).set ↔ _
  rw [View.set_slice_whole, Rect.mem_set_unit]
  exact Iff.rfl

/-- Every index of the array lies in some point's block: row r in the block of point r / 5000. -/
theorem cover6 (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  obtain ⟨t, ht5, ht6⟩ := idx_onto ⟨(i 0).val / 5000, by omega⟩
  obtain ⟨e00, e01, e10, e11, e20, e21, e30, e31, e40, e41, e50, e51, e60, e61⟩ := idx_facts t
  have hq : win0_6.index t (0 : Fin 2) = (i 0).val / 5000 := ht6
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The whole array after the call: the receivers' layer of the node features. -/
theorem arr0_6 (c : Dev nD) :
    (dat0 (F := Ideal) V c).arrAt 6 cfg0.N = GN.linRow (V c main_arg1) (V c main_arg11) (V c main_v1) :=
  (dat0 (F := Ideal) V c).arrAt_eq_of_cover 6 (GN.linRow (V c main_arg1) (V c main_arg11) (V c main_v1))
    (fun t _ => flushed6_eq V c t) cover6

end Cert.KernelIdeal.Reg0

end
-- ==== Proof.Reg1.lean ====
/-
  The per-graph linear layers: three products of the 64 × 128 global feature array with a 128 × 128 weight matrix, each
  with its bias row added to every row of the product.

  The call runs at one grid point and every window is its whole array, so each output array is the value the body
  stores: entry (p, q) is the sum over k < 128 of u(p, k) · W(k, q), plus b(0, q).  Over the extended reals the
  narrowing of the operands before the product is the identity, and the product accumulates into zero.
-/
import proofs.«409440_j63694365000381_3_alg».proof.Proof.Gen.KernelIdeal.Frame
import proofs.«409440_j63694365000381_3_alg».proof.Proof.Spec
import proofs.«409440_j63694365000381_3_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Cert.KernelIdeal Cert.KernelIdeal.Gen
open scoped BigOperators

namespace Cert.KernelIdeal.Reg1

variable (V : (c : Dev nD) → (b : Ref sig .tc) → Buf (Elt Ideal) ((c : Thread nD τ).loc b))

/-! ## The stored value at an index -/

/-- The bias row, cast to its own shape and repeated over the 64 rows, reads the row's entry q at (p, q). -/
theorem bias_apply (b : Vec Ideal S1x128 .f32) (p : Fin 64) (q : Fin 128) :
    broadcastTo S64x128 (shapeCast S1x128 b shapeCasts_S1x128_S1x128) broadcasts_S1x128_S64x128 (ix2 p q)
      = b (ix2 (0 : Fin 1) q) := by
  rw [shapeCast_self]
  refine broadcastTo_apply b _ (ix2 p q) (ix2 (0 : Fin 1) q) (fun a => ?_)
  match a with
  | ⟨0, _⟩ => rfl
  | ⟨1, _⟩ => rfl

/-- The product into the zero accumulator at (p, q) is the sum over k < 128 of x(p, k) · W(k, q). -/
theorem prod_apply (x : Vec Ideal S64x128 .f32) (W : Vec Ideal S128x128 .f32) (p : Fin 64) (q : Fin 128) :
    matmul dot_S64x128_S128x128_S64x128_1_0_0_1_n_n none (k1_pay1 (F := Ideal) x) (truncf .bf16 W bitsLt_bf16_f32)
        (constant S64x128 .f32 0x00000000#32) (ix2 p q)
      = GN.mm (x : GN.Mat 64 128) (W : GN.Mat 128 128) (ix2 p q) := by
  refine (Ideal.matmul_constant_zero_apply dot_S64x128_S128x128_S64x128_1_0_0_1_n_n none (k1_pay1 (F := Ideal) x)
    (truncf .bf16 W bitsLt_bf16_f32) (ix2 p q)).trans ?_
  exact PlainDot.sum_eq (R := 64) (K := 128) (C := 128) dot_S64x128_S128x128_S64x128_1_0_0_1_n_n rfl rfl rfl rfl rfl rfl
    (k1_pay1 (F := Ideal) x) (truncf .bf16 W bitsLt_bf16_f32) p q

/-- Product plus repeated bias row, at (p, q): the linear layer. -/
theorem lin_apply (x : Vec Ideal S64x128 .f32) (W : Vec Ideal S128x128 .f32) (b : Vec Ideal S1x128 .f32)
    (p : Fin 64) (q : Fin 128) :
    addf (matmul dot_S64x128_S128x128_S64x128_1_0_0_1_n_n none (k1_pay1 (F := Ideal) x) (truncf .bf16 W bitsLt_bf16_f32)
        (constant S64x128 .f32 0x00000000#32))
      (broadcastTo S64x128 (shapeCast S1x128 b shapeCasts_S1x128_S1x128) broadcasts_S1x128_S64x128) (ix2 p q)
      = GN.linRow (x : GN.Mat 64 128) (W : GN.Mat 128 128) (b : GN.Mat 1 128) (ix2 p q) := by
  refine (addf_apply _ _ _).trans ?_
  rw [prod_apply, bias_apply]
  rfl

/-- The first stored value is the linear layer of its three operands. -/
theorem pay2_apply (x : Vec Ideal S64x128 .f32) (W : Vec Ideal S128x128 .f32) (b : Vec Ideal S1x128 .f32)
    (p : Fin 64) (q : Fin 128) :
    k1_pay2 (F := Ideal) x W b (ix2 p q) = GN.linRow (x : GN.Mat 64 128) (W : GN.Mat 128 128) (b : GN.Mat 1 128) (ix2 p q) := by
  unfold k1_pay2
  exact lin_apply x W b p q

/-- The second stored value likewise. -/
theorem pay3_apply (x : Vec Ideal S64x128 .f32) (W : Vec Ideal S128x128 .f32) (b : Vec Ideal S1x128 .f32)
    (p : Fin 64) (q : Fin 128) :
    k1_pay3 (F := Ideal) x W b (ix2 p q) = GN.linRow (x : GN.Mat 64 128) (W : GN.Mat 128 128) (b : GN.Mat 1 128) (ix2 p q) := by
  unfold k1_pay3
  exact lin_apply x W b p q

/-- The third stored value likewise. -/
theorem pay4_apply (x : Vec Ideal S64x128 .f32) (W : Vec Ideal S128x128 .f32) (b : Vec Ideal S1x128 .f32)
    (p : Fin 64) (q : Fin 128) :
    k1_pay4 (F := Ideal) x W b (ix2 p q) = GN.linRow (x : GN.Mat 64 128) (W : GN.Mat 128 128) (b : GN.Mat 1 128) (ix2 p q) := by
  unfold k1_pay4
  exact lin_apply x W b p q

/-! ## Every block is its whole array -/

theorem hz : (![0, 0] : Fin 2 → Nat) = fun _ => 0 := funext fun a => by fin_cases a <;> rfl

/-- Every window's block index is zero on both axes, at every point of the one-point grid. -/
theorem idx_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The global features' block is the whole array. -/
theorem blk0 (c : Dev nD) (t : Fin cfg1.N) :
    (iblk1 (F := Ideal) V c 0 t : S64x128.Idx → Elt Ideal .f32) = V c main_arg2 := by
  obtain ⟨e0, e1, -⟩ := idx_zero t
  funext y
  show V c main_arg2 (((cfg1.win 0).blk t).view.emb y) = V c main_arg2 y
  refine congrArg _ (funext fun a => Fin.ext ?_)
  match a with
  | ⟨0, _⟩ => show win1_0.index t (0 : Fin 2) * 64 + 1 * (y 0).val = (y 0).val; omega
  | ⟨1, _⟩ => show win1_0.index t (1 : Fin 2) * 128 + 1 * (y 1).val = (y 1).val; omega

/-- The first weight matrix' block is the whole array. -/
theorem blk1 (c : Dev nD) (t : Fin cfg1.N) :
    (iblk1 (F := Ideal) V c 1 t : S128x128.Idx → Elt Ideal .f32) = V c main_arg13 := by
  obtain ⟨-, -, e0, e1, -⟩ := idx_zero t
  funext y
  show V c main_arg13 (((cfg1.win 1).blk t).view.emb y) = V c main_arg13 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The first bias row's block is the whole row. -/
theorem blk2 (c : Dev nD) (t : Fin cfg1.N) :
    (iblk1 (F := Ideal) V c 2 t : S1x128.Idx → Elt Ideal .f32) = V c main_v3 := by
  obtain ⟨-, -, -, -, e0, e1, -⟩ := idx_zero t
  funext y
  show V c main_v3 (((cfg1.win 2).blk t).view.emb y) = V c main_v3 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second weight matrix' block is the whole array. -/
theorem blk3 (c : Dev nD) (t : Fin cfg1.N) :
    (iblk1 (F := Ideal) V c 3 t : S128x128.Idx → Elt Ideal .f32) = V c main_arg21 := by
  obtain ⟨-, -, -, -, -, -, e0, e1, -⟩ := idx_zero t
  funext y
  show V c main_arg21 (((cfg1.win 3).blk t).view.emb y) = V c main_arg21 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second bias row's block is the whole row. -/
theorem blk4 (c : Dev nD) (t : Fin cfg1.N) :
    (iblk1 (F := Ideal) V c 4 t : S1x128.Idx → Elt Ideal .f32) = V c main_v4 := by
  obtain ⟨-, -, -, -, -, -, -, -, e0, e1, -⟩ := idx_zero t
  funext y
  show V c main_v4 (((cfg1.win 4).blk t).view.emb y) = V c main_v4 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The third weight matrix' block is the whole array. -/
theorem blk5 (c : Dev nD) (t : Fin cfg1.N) :
    (iblk1 (F := Ideal) V c 5 t : S128x128.Idx → Elt Ideal .f32) = V c main_arg27 := by
  obtain ⟨-, -, -, -, -, -, -, -, -, -, e0, e1, -⟩ := idx_zero t
  funext y
  show V c main_arg27 (((cfg1.win 5).blk t).view.emb y) = V c main_arg27 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The third bias row's block is the whole row. -/
theorem blk6 (c : Dev nD) (t : Fin cfg1.N) :
    (iblk1 (F := Ideal) V c 6 t : S1x128.Idx → Elt Ideal .f32) = V c main_v5 := by
  obtain ⟨-, -, -, -, -, -, -, -, -, -, -, -, e0, e1, -⟩ := idx_zero t
  funext y
  show V c main_v5 (((cfg1.win 6).blk t).view.emb y) = V c main_v5 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The first output's block of any 64 × 128 array is that array. -/
theorem read7 (t : Fin cfg1.N) (G : S64x128.Idx → Elt Ideal .f32) :
    ((cfg1.win 7).blk t).view.read (Elt Ideal) G = G := by
  obtain ⟨-, -, -, -, -, -, -, -, -, -, -, -, -, -, e0, e1, -⟩ := idx_zero t
  funext y
  show G (((cfg1.win 7).blk t).view.emb y) = G y
  refine congrArg _ (funext fun a => Fin.ext ?_)
  match a with
  | ⟨0, _⟩ => show win1_7.index t (0 : Fin 2) * 64 + 1 * (y 0).val = (y 0).val; omega
  | ⟨1, _⟩ => show win1_7.index t (1 : Fin 2) * 128 + 1 * (y 1).val = (y 1).val; omega

/-- The second output's block of any 64 × 128 array is that array. -/
theorem read8 (t : Fin cfg1.N) (G : S64x128.Idx → Elt Ideal .f32) :
    ((cfg1.win 8).blk t).view.read (Elt Ideal) G = G := by
  obtain ⟨-, -, -, -, -, -, -, -, -, -, -, -, -, -, -, -, e0, e1, -⟩ := idx_zero t
  funext y
  show G (((cfg1.win 8).blk t).view.emb y) = G y
  refine congrArg _ (funext fun a => Fin.ext ?_)
  match a with
  | ⟨0, _⟩ => show win1_8.index t (0 : Fin 2) * 64 + 1 * (y 0).val = (y 0).val; omega
  | ⟨1, _⟩ => show win1_8.index t (1 : Fin 2) * 128 + 1 * (y 1).val = (y 1).val; omega

/-- The third output's block of any 64 × 128 array is that array. -/
theorem read9 (t : Fin cfg1.N) (G : S64x128.Idx → Elt Ideal .f32) :
    ((cfg1.win 9).blk t).view.read (Elt Ideal) G = G := by
  obtain ⟨-, -, -, -, -, -, -, -, -, -, -, -, -, -, -, -, -, -, e0, e1⟩ := idx_zero t
  funext y
  show G (((cfg1.win 9).blk t).view.emb y) = G y
  refine congrArg _ (funext fun a => Fin.ext ?_)
  match a with
  | ⟨0, _⟩ => show win1_9.index t (0 : Fin 2) * 64 + 1 * (y 0).val = (y 0).val; omega
  | ⟨1, _⟩ => show win1_9.index t (1 : Fin 2) * 128 + 1 * (y 1).val = (y 1).val; omega

/-! ## What the point writes back -/

/-- The first output's block at a point is that block of the linear layer with the first weights. -/
theorem flushed7_eq (c : Dev nD) (t : Fin cfg1.N) :
    (dat1 (F := Ideal) V c).flushed 7 t
      = ((cfg1.win 7).blk t).view.read (Elt Ideal) (GN.linRow (V c main_arg2) (V c main_arg13) (V c main_v3)) := by
  show (cfg1.win 7).cut (grid1.coords t) ((dat1 V c).after 7 t) = _
  rw [after1_7]
  unfold out1_7
  rw [View.canon_unit_zero hz]
  simp only [View.ld_unit_zero (S := S64x128) hz, View.ld_unit_zero (S := S128x128) hz, View.ld_unit_zero (S := S1x128) hz]
  rw [blk0 V c t, blk1 V c t, blk2 V c t, read7 t]
  funext j
  obtain ⟨p, q, rfl⟩ : ∃ (p : Fin 64) (q : Fin 128), j = ix2 p q := ⟨j 0, j 1, eq_ix2 j⟩
  exact pay2_apply _ _ _ p q

/-- The second output's block at a point is that block of the linear layer with the second weights. -/
theorem flushed8_eq (c : Dev nD) (t : Fin cfg1.N) :
    (dat1 (F := Ideal) V c).flushed 8 t
      = ((cfg1.win 8).blk t).view.read (Elt Ideal) (GN.linRow (V c main_arg2) (V c main_arg21) (V c main_v4)) := by
  show (cfg1.win 8).cut (grid1.coords t) ((dat1 V c).after 8 t) = _
  rw [after1_8]
  unfold out1_8
  rw [View.canon_unit_zero hz]
  simp only [View.ld_unit_zero (S := S64x128) hz, View.ld_unit_zero (S := S128x128) hz, View.ld_unit_zero (S := S1x128) hz]
  rw [blk0 V c t, blk3 V c t, blk4 V c t, read8 t]
  funext j
  obtain ⟨p, q, rfl⟩ : ∃ (p : Fin 64) (q : Fin 128), j = ix2 p q := ⟨j 0, j 1, eq_ix2 j⟩
  exact pay3_apply _ _ _ p q

/-- The third output's block at a point is that block of the linear layer with the third weights. -/
theorem flushed9_eq (c : Dev nD) (t : Fin cfg1.N) :
    (dat1 (F := Ideal) V c).flushed 9 t
      = ((cfg1.win 9).blk t).view.read (Elt Ideal) (GN.linRow (V c main_arg2) (V c main_arg27) (V c main_v5)) := by
  show (cfg1.win 9).cut (grid1.coords t) ((dat1 V c).after 9 t) = _
  rw [after1_9]
  unfold out1_9
  rw [View.canon_unit_zero hz]
  simp only [View.ld_unit_zero (S := S64x128) hz, View.ld_unit_zero (S := S128x128) hz, View.ld_unit_zero (S := S1x128) hz]
  rw [blk0 V c t, blk5 V c t, blk6 V c t, read9 t]
  funext j
  obtain ⟨p, q, rfl⟩ : ∃ (p : Fin 64) (q : Fin 128), j = ix2 p q := ⟨j 0, j 1, eq_ix2 j⟩
  exact pay4_apply _ _ _ p q

/-! ## The one block covers the array -/

theorem mem_blk7 (t : Fin cfg1.N) (i : S64x128.Idx) :
    i ∈ ((cfg1.win 7).blk t).view.set ↔ ∀ a : Fin 2, win1_7.index t a * S64x128.size a ≤ (i a).val ∧ (i a).val < win1_7.index t a * S64x128.size a + S64x128.size a := by
  show i ∈ ((View.whole main_v6_0).slice (win1_7.rect t)).set ↔ _
  rw [View.set_slice_whole, Rect.mem_set_unit]
  exact Iff.rfl

theorem mem_blk8 (t : Fin cfg1.N) (i : S64x128.Idx) :
    i ∈ ((cfg1.win 8).blk t).view.set ↔ ∀ a : Fin 2, win1_8.index t a * S64x128.size a ≤ (i a).val ∧ (i a).val < win1_8.index t a * S64x128.size a + S64x128.size a := by
  show i ∈ ((View.whole main_v6_1).slice (win1_8.rect t)).set ↔ _
  rw [View.set_slice_whole, Rect.mem_set_unit]
  exact Iff.rfl

theorem mem_blk9 (t : Fin cfg1.N) (i : S64x128.Idx) :
    i ∈ ((cfg1.win 9).blk t).view.set ↔ ∀ a : Fin 2, win1_9.index t a * S64x128.size a ≤ (i a).val ∧ (i a).val < win1_9.index t a * S64x128.size a + S64x128.size a := by
  show i ∈ ((View.whole main_v6_2).slice (win1_9.rect t)).set ↔ _
  rw [View.set_slice_whole, Rect.mem_set_unit]
  exact Iff.rfl

/-- Every index of the first output array is in the one point's block. -/
theorem cover7 (i : S64x128.Idx) : ∃ t : Fin cfg1.N, (cfg1.win 7).flush t = true ∧ i ∈ ((cfg1.win 7).blk t).view.set := by
  refine ⟨⟨0, by decide⟩, flush1_7 _, ?_⟩
  obtain ⟨-, -, -, -, -, -, -, -, -, -, -, -, -, -, e0, e1, -⟩ := idx_zero ⟨0, by decide⟩
  rw [mem_blk7]
  intro a
  have h0 : (i 0).val < 64 := (i 0).isLt
  have h1 : (i 1).val < 128 := (i 1).isLt
  match a with
  | ⟨0, _⟩ => show win1_7.index ⟨0, _⟩ (0 : Fin 2) * 64 ≤ (i 0).val ∧ (i 0).val < win1_7.index ⟨0, _⟩ (0 : Fin 2) * 64 + 64; omega
  | ⟨1, _⟩ => show win1_7.index ⟨0, _⟩ (1 : Fin 2) * 128 ≤ (i 1).val ∧ (i 1).val < win1_7.index ⟨0, _⟩ (1 : Fin 2) * 128 + 128; omega

/-- Every index of the second output array is in the one point's block. -/
theorem cover8 (i : S64x128.Idx) : ∃ t : Fin cfg1.N, (cfg1.win 8).flush t = true ∧ i ∈ ((cfg1.win 8).blk t).view.set := by
  refine ⟨⟨0, by decide⟩, flush1_8 _, ?_⟩
  obtain ⟨-, -, -, -, -, -, -, -, -, -, -, -, -, -, -, -, e0, e1, -⟩ := idx_zero ⟨0, by decide⟩
  rw [mem_blk8]
  intro a
  have h0 : (i 0).val < 64 := (i 0).isLt
  have h1 : (i 1).val < 128 := (i 1).isLt
  match a with
  | ⟨0, _⟩ => show win1_8.index ⟨0, _⟩ (0 : Fin 2) * 64 ≤ (i 0).val ∧ (i 0).val < win1_8.index ⟨0, _⟩ (0 : Fin 2) * 64 + 64; omega
  | ⟨1, _⟩ => show win1_8.index ⟨0, _⟩ (1 : Fin 2) * 128 ≤ (i 1).val ∧ (i 1).val < win1_8.index ⟨0, _⟩ (1 : Fin 2) * 128 + 128; omega

/-- Every index of the third output array is in the one point's block. -/
theorem cover9 (i : S64x128.Idx) : ∃ t : Fin cfg1.N, (cfg1.win 9).flush t = true ∧ i ∈ ((cfg1.win 9).blk t).view.set := by
  refine ⟨⟨0, by decide⟩, flush1_9 _, ?_⟩
  obtain ⟨-, -, -, -, -, -, -, -, -, -, -, -, -, -, -, -, -, -, e0, e1⟩ := idx_zero ⟨0, by decide⟩
  rw [mem_blk9]
  intro a
  have h0 : (i 0).val < 64 := (i 0).isLt
  have h1 : (i 1).val < 128 := (i 1).isLt
  match a with
  | ⟨0, _⟩ => show win1_9.index ⟨0, _⟩ (0 : Fin 2) * 64 ≤ (i 0).val ∧ (i 0).val < win1_9.index ⟨0, _⟩ (0 : Fin 2) * 64 + 64; omega
  | ⟨1, _⟩ => show win1_9.index ⟨0, _⟩ (1 : Fin 2) * 128 ≤ (i 1).val ∧ (i 1).val < win1_9.index ⟨0, _⟩ (1 : Fin 2) * 128 + 128; omega

/-! ## The three output arrays -/

/-- The first output array is the linear layer of the global features with the first weights and bias row. -/
theorem arr1_7 (c : Dev nD) :
    (dat1 (F := Ideal) V c).arrAt 7 cfg1.N = GN.linRow (V c main_arg2) (V c main_arg13) (V c main_v3) :=
  (dat1 (F := Ideal) V c).arrAt_eq_of_cover 7 (GN.linRow (V c main_arg2) (V c main_arg13) (V c main_v3))
    (fun t _ => flushed7_eq V c t) cover7

/-- The second output array is the linear layer with the second weights and bias row. -/
theorem arr1_8 (c : Dev nD) :
    (dat1 (F := Ideal) V c).arrAt 8 cfg1.N = GN.linRow (V c main_arg2) (V c main_arg21) (V c main_v4) :=
  (dat1 (F := Ideal) V c).arrAt_eq_of_cover 8 (GN.linRow (V c main_arg2) (V c main_arg21) (V c main_v4))
    (fun t _ => flushed8_eq V c t) cover8

/-- The third output array is the linear layer with the third weights and bias row. -/
theorem arr1_9 (c : Dev nD) :
    (dat1 (F := Ideal) V c).arrAt 9 cfg1.N = GN.linRow (V c main_arg2) (V c main_arg27) (V c main_v5) :=
  (dat1 (F := Ideal) V c).arrAt_eq_of_cover 9 (GN.linRow (V c main_arg2) (V c main_arg27) (V c main_v5))
    (fun t _ => flushed9_eq V c t) cover9

end Cert.KernelIdeal.Reg1

end
-- ==== Proof.Reg2.lean ====
/-
  The edge-update region of the graph-network block, read as mathematics.

  Each of the region's 125 grid points takes a block of 5120 edges: it multiplies the block's features by the edge
  weights, adds the bias row and the block of pre-summed node terms, adds the per-graph table's rows selected by a
  one-hot matrix built from the block's graph words, and applies relu.  It writes the block of new edges, and the
  one-hot matrix times the new edges: the block's sums by graph, one tile of 64 rows per point.  Here both output arrays
  are identified after the region, as functions of the arrays the region finds: the new edges are the edge update of
  the whole arrays, and the tiles are the per-tile one-hot-weighted sums of the new edges.
-/
import proofs.«409440_j63694365000381_3_alg».proof.Proof.Gen.KernelIdeal.Frame
import proofs.«409440_j63694365000381_3_alg».proof.Proof.Spec
import proofs.«409440_j63694365000381_3_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx Cert.KernelIdeal Cert.KernelIdeal.Gen
open scoped BigOperators

/-! ## The one-hot matrix -/

/-- The one-hot matrix the kernel builds from a row of index words: entry (g, j) is 1 when word j is g, else 0.
    The comparison of the broadcast words with the row numbers gives one bit per entry; widened to a word and read
    signed as a real number it is the one-hot weight. -/
theorem onehot_apply (v5 : Vec Ideal S1x5120 .i32) (g : Fin 64) (j : Fin 5120) :
    k2_pay1 (F := Ideal) v5 (ix2 g j) = GN.hot (v5 (ix2 (0 : Fin 1) j)) g.val := by
  unfold k2_pay1
  simp only [shapeCast_self]
  rw [sitofp_apply, extui_apply]
  unfold cmpi
  rw [broadcastTo_1b_ab_apply, iota_single_apply]
  unfold GN.hot
  show (((((IntOp.cmpi .eq (v5 (ix2 (0 : Fin 1) j)) (BitVec.ofNat 32 g.val)).setWidth 32).toInt : ℝ)) : EReal) = _
  unfold IntOp.cmpi
  by_cases h : v5 (ix2 (0 : Fin 1) j) = BitVec.ofNat 32 g.val
  · rw [if_pos h, h]; simp
  · rw [if_neg h]
    have : (v5 (ix2 (0 : Fin 1) j) == BitVec.ofNat 32 g.val) = false := by simpa using h
    simp [this]

/-! ## A product that contracts the first axis of both operands

  For a [K, R] array and a [K, C] array contracted along their first axes (no batch axis), the result is [R, C]: its
  entry (p, q) sums l(k, p) * r(k, q) over k < K.  The left operand's axis 0 and the right operand's axis 0 are the
  contracting axes and read the contraction index's one coordinate; the left operand's axis 1 is its only
  non-contracting axis and reads the result index at position 0; the right operand's axis 1 reads the result index at
  position 1, after the left operand's one non-contracting axis. -/

section FirstAxes
variable {R K C : Nat}

/-- A coordinate of an index depends only on the axis' number. -/
theorem coord_val_of_eq {s : Shape} (j : s.Idx) (a b : Nat) (ha : a < s.rank) (hb : b < s.rank) (h : a = b) :
    (j ⟨a, ha⟩).val = (j ⟨b, hb⟩).val := by
  subst h; rfl

theorem first_lhs_val_0 (d : DotDims ⟨2, ![K, R]⟩ ⟨2, ![K, C]⟩ ⟨2, ![R, C]⟩)
    (hlc : d.lhsContracting = [0]) (hr : d.contr.rank = 1)
    (j : (⟨2, ![R, C]⟩ : Shape).Idx) (k : d.contr.Idx) :
    (d.lhsIdx j k (0 : Fin 2)).val = (k ⟨0, by omega⟩).val :=
  d.lhsIdx_val_of_single hlc j k

theorem first_lhs_val_1 (d : DotDims ⟨2, ![K, R]⟩ ⟨2, ![K, C]⟩ ⟨2, ![R, C]⟩)
    (hlb : d.lhsBatch = []) (hln : d.lhsNonContracting = [1])
    (j : (⟨2, ![R, C]⟩ : Shape).Idx) (k : d.contr.Idx) :
    (d.lhsIdx j k (1 : Fin 2)).val = (j (0 : Fin 2)).val := by
  have hb : ¬ (1 : Fin 2) ∈ d.lhsBatch := by rw [hlb]; exact List.not_mem_nil
  have hn : (1 : Fin 2) ∈ d.lhsNonContracting := by rw [hln]; exact List.mem_singleton.mpr rfl
  unfold DotDims.lhsIdx
  rw [dif_neg hb, dif_pos hn]
  simp only [Fin.val_cast]
  exact coord_val_of_eq j _ _ _ _ (by simp [hlb, hln])

theorem first_rhs_val_0 (d : DotDims ⟨2, ![K, R]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

theorem first_rhs_val_1 (d : DotDims ⟨2, ![K, R]⟩ ⟨2, ![K, C]⟩ ⟨2, ![R, C]⟩)
    (hrb : d.rhsBatch = []) (hrn : d.rhsNonContracting = [1])
    (hlb : d.lhsBatch = []) (hln : d.lhsNonContracting = [1])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_of_eq j _ _ _ _ (by simp [hlb, hln, hrn])

/-- The contraction sum at (p, q) is the sum over k < K of l(k, p) * r(k, q). -/
theorem first_sum_eq {M : Type} [AddCommMonoid M] [Mul M] (d : DotDims ⟨2, ![K, R]⟩ ⟨2, ![K, C]⟩ ⟨2, ![R, C]⟩)
    (hlb : d.lhsBatch = []) (hln : d.lhsNonContracting = [1]) (hlc : d.lhsContracting = [0])
    (hrb : d.rhsBatch = []) (hrn : d.rhsNonContracting = [1]) (hrc : d.rhsContracting = [0])
    (l : (⟨2, ![K, R]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 k p) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  have el : d.lhsIdx (ix2 p q) ((contrEquiv1 d K hr hs).symm k) = ix2 k p := by
    funext a
    apply Fin.ext
    match a with
    | ⟨0, _⟩ => exact (first_lhs_val_0 d hlc hr (ix2 p q) _).trans (contrEquiv1_symm_val d K hr hs k)
    | ⟨1, _⟩ => exact first_lhs_val_1 d hlb hln (ix2 p q) _
  have er : d.rhsIdx (ix2 p q) ((contrEquiv1 d K hr hs).symm k) = ix2 k q := by
    funext a
    apply Fin.ext
    match a with
    | ⟨0, _⟩ => exact (first_rhs_val_0 d hrc hr (ix2 p q) _).trans (contrEquiv1_symm_val d K hr hs k)
    | ⟨1, _⟩ => exact first_rhs_val_1 d hrb hrn hlb hln (ix2 p q) _
  rw [el, er]

end FirstAxes

/-! ## The two payloads at an index -/

/-- The block's new edges at (p, q): relu of the features' product with the weights plus the bias row, plus the
    pre-summed node terms, plus the one-hot-weighted sum of the table's rows. -/
theorem edges_apply (v0 : Vec Ideal S5120x128 .f32) (v2 : Vec Ideal S128x128 .f32) (v5 : Vec Ideal S1x5120 .i32)
    (v13 : Vec Ideal S64x128 .f32) (v16 : Vec Ideal S1x128 .f32) (v20 : Vec Ideal S5120x128 .f32) (p : Fin 5120) (q : Fin 128) :
    k2_pay2 (F := Ideal) v0 v2 v5 v13 v16 v20 (ix2 p q)
      = max ((((∑ k : Fin 128, v0 (ix2 p k) * v2 (ix2 k q)) + v16 (ix2 (0 : Fin 1) q)) + v20 (ix2 p q))
          + ∑ g : Fin 64, GN.hot (v5 (ix2 (0 : Fin 1) p)) g.val * v13 (ix2 g q)) 0 := by
  unfold k2_pay2
  simp only [shapeCast_self]
  rw [maximumf_apply, addf_apply, addf_apply, addf_apply, broadcast_apply, broadcastTo_1b_ab_apply]
  simp only [matmul]
  rw [Ideal.matmul_constant_zero_apply, Ideal.matmul_constant_zero_apply]
  simp only [truncf_apply]
  have e1 : (∑ k : dot_S5120x128_S128x128_S5120x128_1_0_0_1_n_n.contr.Idx,
        v0 (dot_S5120x128_S128x128_S5120x128_1_0_0_1_n_n.lhsIdx (ix2 p q) k)
          * v2 (dot_S5120x128_S128x128_S5120x128_1_0_0_1_n_n.rhsIdx (ix2 p q) k))
      = ∑ k : Fin 128, v0 (ix2 p k) * v2 (ix2 k q) :=
    PlainDot.sum_eq (M := EReal) (R := 5120) (K := 128) (C := 128) dot_S5120x128_S128x128_S5120x128_1_0_0_1_n_n
      rfl rfl rfl rfl rfl rfl v0 v2 p q
  have e2 : (∑ k : dot_S64x5120_S64x128_S5120x128_0_0_1_1_n_n.contr.Idx,
        k2_pay1 (F := Ideal) v5 (dot_S64x5120_S64x128_S5120x128_0_0_1_1_n_n.lhsIdx (ix2 p q) k)
          * v13 (dot_S64x5120_S64x128_S5120x128_0_0_1_1_n_n.rhsIdx (ix2 p q) k))
      = ∑ g : Fin 64, k2_pay1 (F := Ideal) v5 (ix2 g p) * v13 (ix2 g q) :=
    first_sum_eq (M := EReal) (R := 5120) (K := 64) (C := 128) dot_S64x5120_S64x128_S5120x128_0_0_1_1_n_n
      rfl rfl rfl rfl rfl rfl (k2_pay1 (F := Ideal) v5) v13 p q
  rw [e1, e2]
  simp only [onehot_apply]
  show max _ (Ideal.ofBits .f32 0x00000000#32) = _
  rw [Ideal.ofBits_zero_f32]

/-- The block's sums by graph at (g, q): the one-hot-weighted sum of the block's new edges. -/
theorem part_apply (v0 : Vec Ideal S5120x128 .f32) (v2 : Vec Ideal S128x128 .f32) (v5 : Vec Ideal S1x5120 .i32)
    (v13 : Vec Ideal S64x128 .f32) (v16 : Vec Ideal S1x128 .f32) (v20 : Vec Ideal S5120x128 .f32) (g : Fin 64) (q : Fin 128) :
    k2_pay3 (F := Ideal) v0 v2 v5 v13 v16 v20 (ix2 g q)
      = ∑ j : Fin 5120, GN.hot (v5 (ix2 (0 : Fin 1) j)) g.val * k2_pay2 (F := Ideal) v0 v2 v5 v13 v16 v20 (ix2 j q) := by
  unfold k2_pay3
  simp only [matmul]
  rw [Ideal.matmul_constant_zero_apply]
  have e1 : (∑ k : dot_S64x5120_S5120x128_S64x128_1_0_0_1_n_n.contr.Idx,
        k2_pay1 (F := Ideal) v5 (dot_S64x5120_S5120x128_S64x128_1_0_0_1_n_n.lhsIdx (ix2 g q) k)
          * k2_pay2 (F := Ideal) v0 v2 v5 v13 v16 v20 (dot_S64x5120_S5120x128_S64x128_1_0_0_1_n_n.rhsIdx (ix2 g q) k))
      = ∑ j : Fin 5120, k2_pay1 (F := Ideal) v5 (ix2 g j) * k2_pay2 (F := Ideal) v0 v2 v5 v13 v16 v20 (ix2 j q) :=
    PlainDot.sum_eq (M := EReal) (R := 64) (K := 5120) (C := 128) dot_S64x5120_S5120x128_S64x128_1_0_0_1_n_n
      rfl rfl rfl rfl rfl rfl (k2_pay1 (F := Ideal) v5) (k2_pay2 (F := Ideal) v0 v2 v5 v13 v16 v20) g q
  rw [e1]
  simp only [onehot_apply]

/-! ## From the blocks to the arrays -/

theorem hz : (![0, 0] : Fin 2 → Nat) = fun _ => 0 := funext fun a => by fin_cases a <;> rfl

/-- Two functions of a two-coordinate index agree when they agree at every pair of coordinates. -/
theorem funext_ix2 {α : Type} {a b : Nat} (f g : (⟨2, ![a, b]⟩ : Shape).Idx → α)
    (h : ∀ (p : Fin a) (q : Fin b), f (ix2 p q) = g (ix2 p q)) : f = g :=
  funext fun j => by rw [eq_ix2 j]; exact h _ _

/-- The printed index maps, decided over the grid: the row-blocked windows sit at block (t, 0), the whole windows at
    block (0, 0), and the words' window at block (0, t). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = t.val
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem point_lt (t : Fin cfg2.N) : t.val < 125 := by
  have h : cfg2.N = 125 := N_2
  have := t.isLt
  omega

/-- Row p of point t's block of 5120 rows is row 5120 t + p of the array. -/
def blockRow (t : Fin cfg2.N) (p : Fin 5120) : Fin 640000 :=
  ⟨t.val * 5120 + p.val, by have := point_lt t; have := p.isLt; omega⟩

variable (V : (c : Dev nD) → (b : Ref sig .tc) → Buf (Elt Ideal) ((c : Thread nD τ).loc b))

theorem blk0_apply (c : Dev nD) (t : Fin cfg2.N) (p : Fin 5120) (q : Fin 128) :
    (iblk2 (F := Ideal) V c 0 t : Vec Ideal S5120x128 .f32) (ix2 p q)
      = (V c main_arg0 : GN.Mat 640000 128) (ix2 (blockRow t p) q) := by
  obtain ⟨e0, e1, -⟩ := idx_facts t
  show V c main_arg0 (((cfg2.win 0).blk t).view.emb (ix2 p q)) = _
  congr 1
  funext a
  apply Fin.ext
  match a with
  | ⟨0, _⟩ => show win2_0.index t (0 : Fin 2) * 5120 + 1 * p.val = t.val * 5120 + p.val; rw [e0]; omega
  | ⟨1, _⟩ => show win2_0.index t (1 : Fin 2) * 128 + 1 * q.val = q.val; rw [e1]; omega

theorem blk1_apply (c : Dev nD) (t : Fin cfg2.N) (p : Fin 5120) (q : Fin 128) :
    (iblk2 (F := Ideal) V c 1 t : Vec Ideal S5120x128 .f32) (ix2 p q)
      = (V c main_v21 : GN.Mat 640000 128) (ix2 (blockRow t p) q) := by
  obtain ⟨-, -, e0, e1, -⟩ := idx_facts t
  show V c main_v21 (((cfg2.win 1).blk t).view.emb (ix2 p q)) = _
  congr 1
  funext a
  apply Fin.ext
  match a with
  | ⟨0, _⟩ => show win2_1.index t (0 : Fin 2) * 5120 + 1 * p.val = t.val * 5120 + p.val; rw [e0]; omega
  | ⟨1, _⟩ => show win2_1.index t (1 : Fin 2) * 128 + 1 * q.val = q.val; rw [e1]; omega

theorem blk2_apply (c : Dev nD) (t : Fin cfg2.N) (k : Fin 128) (q : Fin 128) :
    (iblk2 (F := Ideal) V c 2 t : Vec Ideal S128x128 .f32) (ix2 k q) = (V c main_arg7 : GN.Mat 128 128) (ix2 k q) := by
  obtain ⟨-, -, -, -, e0, e1, -⟩ := idx_facts t
  show V c main_arg7 (((cfg2.win 2).blk t).view.emb (ix2 k q)) = _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

theorem blk3_apply (c : Dev nD) (t : Fin cfg2.N) (q : Fin 128) :
    (iblk2 (F := Ideal) V c 3 t : Vec Ideal S1x128 .f32) (ix2 (0 : Fin 1) q) = (V c main_v23 : GN.Mat 1 128) (ix2 (0 : Fin 1) q) := by
  obtain ⟨-, -, -, -, -, -, e0, e1, -⟩ := idx_facts t
  show V c main_v23 (((cfg2.win 3).blk t).view.emb (ix2 (0 : Fin 1) q)) = _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

theorem blk4_apply (c : Dev nD) (t : Fin cfg2.N) (g : Fin 64) (q : Fin 128) :
    (iblk2 (F := Ideal) V c 4 t : Vec Ideal S64x128 .f32) (ix2 g q) = (V c main_v6_0 : GN.Mat 64 128) (ix2 g q) := by
  obtain ⟨-, -, -, -, -, -, -, -, e0, e1, -⟩ := idx_facts t
  show V c main_v6_0 (((cfg2.win 4).blk t).view.emb (ix2 g q)) = _
  congr 1
  funext a
  apply Fin.ext
  match a with
  | ⟨0, _⟩ => show win2_4.index t (0 : Fin 2) * 64 + 1 * g.val = g.val; rw [e0]; omega
  | ⟨1, _⟩ => show win2_4.index t (1 : Fin 2) * 128 + 1 * q.val = q.val; rw [e1]; omega

theorem blk5_apply (c : Dev nD) (t : Fin cfg2.N) (p : Fin 5120) :
    (iblk2 (F := Ideal) V c 5 t : Vec Ideal S1x5120 .i32) (ix2 (0 : Fin 1) p)
      = (V c main_v22 : GN.IdsRow 640000) (ix2 (0 : Fin 1) (blockRow t p)) := by
  obtain ⟨-, -, -, -, -, -, -, -, -, -, e0, e1, -⟩ := idx_facts t
  show V c main_v22 (((cfg2.win 5).blk t).view.emb (ix2 (0 : Fin 1) p)) = _
  congr 1
  funext a
  apply Fin.ext
  match a with
  | ⟨0, _⟩ => show win2_5.index t (0 : Fin 2) * 1 + 1 * 0 = 0; rw [e0]
  | ⟨1, _⟩ => show win2_5.index t (1 : Fin 2) * 5120 + 1 * p.val = t.val * 5120 + p.val; rw [e1]; omega

/-- The edge update of the whole arrays. -/
abbrev edgeArr (c : Dev nD) : GN.Mat 640000 128 :=
  GN.edgeK (V c main_arg0) (V c main_v21) (V c main_arg7) (V c main_v23) (V c main_v6_0) (V c main_v22)

/-- The payload of point t's blocks at (p, q) is the edge update of the whole arrays at row 5120 t + p. -/
theorem edges_block (c : Dev nD) (t : Fin cfg2.N) (p : Fin 5120) (q : Fin 128) :
    k2_pay2 (F := Ideal) (iblk2 V c 0 t) (iblk2 V c 2 t) (iblk2 V c 5 t) (iblk2 V c 4 t) (iblk2 V c 3 t) (iblk2 V c 1 t) (ix2 p q)
      = edgeArr V c (ix2 (blockRow t p) q) := by
  rw [edges_apply]
  simp only [blk0_apply, blk1_apply, blk2_apply, blk3_apply, blk4_apply, blk5_apply]
  rfl

/-- What point t writes back to the new edges' array is block t of the edge update of the whole arrays. -/
theorem flushed6_eq (c : Dev nD) (t : Fin cfg2.N) :
    (dat2 (F := Ideal) V c).flushed 6 t = ((cfg2.win 6).blk t).view.read (Elt Ideal) (edgeArr V c) := by
  show (cfg2.win 6).cut (grid2.coords t) ((dat2 (F := Ideal) V c).after 6 t) = _
  rw [after2_6]
  unfold out2_6
  rw [View.canon_unit_zero hz]
  simp only [View.ld_unit_zero (S := S5120x128) hz, View.ld_unit_zero (S := S128x128) hz,
    View.ld_unit_zero (S := S1x5120) hz, View.ld_unit_zero (S := S64x128) hz, View.ld_unit_zero (S := S1x128) hz]
  refine funext_ix2 (a := 5120) (b := 128) _ _ fun p q => ?_
  refine (edges_block V c t p q).trans ?_
  obtain ⟨-, -, -, -, -, -, -, -, -, -, -, -, e0, e1, -⟩ := idx_facts t
  show edgeArr V c _ = edgeArr V c (((cfg2.win 6).blk t).view.emb (ix2 p q))
  congr 1
  funext a
  apply Fin.ext
  match a with
  | ⟨0, _⟩ => show t.val * 5120 + p.val = win2_6.index t (0 : Fin 2) * 5120 + 1 * p.val; rw [e0]; omega
  | ⟨1, _⟩ => show q.val = win2_6.index t (1 : Fin 2) * 128 + 1 * q.val; rw [e1]; omega

/-- An index of the new edges' array is in point t's block iff each coordinate is in the block's range on its axis. -/
theorem mem_blk6 (t : Fin cfg2.N) (i : S640000x128.Idx) :
    i ∈ ((cfg2.win 6).blk t).view.set ↔ ∀ a : Fin 2, win2_6.index t a * S5120x128.size a ≤ (i a).val
      ∧ (i a).val < win2_6.index t a * S5120x128.size a + S5120x128.size a := by
  show i ∈ ((View.whole main_v24_0).slice (win2_6.rect t)).set ↔ _
  rw [View.set_slice_whole, Rect.mem_set_unit]
  exact Iff.rfl

/-- Every row r of the new edges' array is in the block of point r / 5120. -/
theorem cover6 (i : S640000x128.Idx) :
    ∃ t : Fin cfg2.N, (cfg2.win 6).flush t = true ∧ i ∈ ((cfg2.win 6).blk t).view.set := by
  have hi0 : (i 0).val < 640000 := (i 0).isLt
  have hi1 : (i 1).val < 128 := (i 1).isLt
  have hN : cfg2.N = 125 := N_2
  have ht : (i 0).val / 5120 < cfg2.N := by omega
  obtain ⟨-, -, -, -, -, -, -, -, -, -, -, -, e0, e1, -⟩ := idx_facts ⟨(i 0).val / 5120, ht⟩
  refine ⟨⟨(i 0).val / 5120, ht⟩, flush2_6 _, ?_⟩
  rw [mem_blk6]
  intro a
  match a with
  | ⟨0, _⟩ =>
    show win2_6.index ⟨(i 0).val / 5120, ht⟩ (0 : Fin 2) * 5120 ≤ (i 0).val
      ∧ (i 0).val < win2_6.index ⟨(i 0).val / 5120, ht⟩ (0 : Fin 2) * 5120 + 5120
    rw [e0]
    show (i 0).val / 5120 * 5120 ≤ (i 0).val ∧ (i 0).val < (i 0).val / 5120 * 5120 + 5120
    omega
  | ⟨1, _⟩ =>
    show win2_6.index ⟨(i 0).val / 5120, ht⟩ (1 : Fin 2) * 128 ≤ (i 1).val
      ∧ (i 1).val < win2_6.index ⟨(i 0).val / 5120, ht⟩ (1 : Fin 2) * 128 + 128
    rw [e1]
    omega

/-- The new edges' array after the region: the edge update of the arrays the region finds. -/
theorem arr2_6 (c : Dev nD) : (dat2 (F := Ideal) V c).arrAt 6 cfg2.N
    = GN.edgeK (V c main_arg0) (V c main_v21) (V c main_arg7) (V c main_v23) (V c main_v6_0) (V c main_v22) :=
  (dat2 (F := Ideal) V c).arrAt_eq_of_cover 6 (edgeArr V c) (fun t _ => flushed6_eq V c t) cover6

/-! ## The sums by graph -/

/-- Row g of point t's tile of 64 rows is row 64 t + g of the tiles' array. -/
def tileOut (t : Fin cfg2.N) (g : Fin 64) : Fin (125 * 64) :=
  ⟨t.val * 64 + g.val, by have := point_lt t; have := g.isLt; omega⟩

/-- The per-tile sums at row 64 t + g: the one-hot-weighted sum, for graph number g, of the 5120 rows of block t. -/
theorem part_tile (edges : GN.Mat (125 * 5120) 128) (gid : GN.IdsRow (125 * 5120)) (t : Fin cfg2.N) (g : Fin 64) (q : Fin 128) :
    GN.edgePartK (nT := 125) (T := 5120) (G := 64) (D := 128) edges gid (ix2 (tileOut t g) q)
      = ∑ j : Fin 5120, GN.hot (gid (ix2 (0 : Fin 1) (blockRow t j))) g.val * edges (ix2 (blockRow t j) q) := by
  unfold GN.edgePartK GN.partK
  refine Finset.sum_congr rfl fun j _ => ?_
  have h1 : GN.tileRow (nT := 125) (T := 5120) (G := 64) (tileOut t g) j = blockRow t j :=
    Fin.ext (by
      show (t.val * 64 + g.val) / 64 * 5120 + j.val = t.val * 5120 + j.val
      have := g.isLt
      omega)
  have h2 : (tileOut t g).val % 64 = g.val := by
    show (t.val * 64 + g.val) % 64 = g.val
    have := g.isLt
    omega
  show GN.hot (gid (ix2 (0 : Fin 1) (GN.tileRow (nT := 125) (T := 5120) (G := 64) (tileOut t g) j))) ((tileOut t g).val % 64)
      * edges (ix2 (GN.tileRow (nT := 125) (T := 5120) (G := 64) (tileOut t g) j) q) = _
  rw [h1, h2]

/-- The per-tile sums of the edge update of the whole arrays, by the graph words the region finds. -/
abbrev partArr (c : Dev nD) : GN.Mat (125 * 64) 128 :=
  GN.edgePartK (nT := 125) (T := 5120) (G := 64) (D := 128) (edgeArr V c) (V c main_v22)

/-- The second payload of point t's blocks at (g, q) is the per-tile sum at row 64 t + g. -/
theorem part_block (c : Dev nD) (t : Fin cfg2.N) (g : Fin 64) (q : Fin 128) :
    k2_pay3 (F := Ideal) (iblk2 V c 0 t) (iblk2 V c 2 t) (iblk2 V c 5 t) (iblk2 V c 4 t) (iblk2 V c 3 t) (iblk2 V c 1 t) (ix2 g q)
      = partArr V c (ix2 (tileOut t g) q) := by
  rw [part_apply]
  simp only [edges_block, blk5_apply]
  exact (part_tile (edgeArr V c) (V c main_v22) t g q).symm

/-- What point t writes back to the tiles' array is tile t of the per-tile sums. -/
theorem flushed7_eq (c : Dev nD) (t : Fin cfg2.N) :
    (dat2 (F := Ideal) V c).flushed 7 t = ((cfg2.win 7).blk t).view.read (Elt Ideal) (partArr V c) := by
  show (cfg2.win 7).cut (grid2.coords t) ((dat2 (F := Ideal) V c).after 7 t) = _
  rw [after2_7]
  unfold out2_7
  rw [View.canon_unit_zero hz]
  simp only [View.ld_unit_zero (S := S5120x128) hz, View.ld_unit_zero (S := S128x128) hz,
    View.ld_unit_zero (S := S1x5120) hz, View.ld_unit_zero (S := S64x128) hz, View.ld_unit_zero (S := S1x128) hz]
  refine funext_ix2 (a := 64) (b := 128) _ _ fun g q => ?_
  refine (part_block V c t g q).trans ?_
  obtain ⟨-, -, -, -, -, -, -, -, -, -, -, -, -, -, e0, e1⟩ := idx_facts t
  show partArr V c _ = partArr V c (((cfg2.win 7).blk t).view.emb (ix2 g q))
  congr 1
  funext a
  apply Fin.ext
  match a with
  | ⟨0, _⟩ => show t.val * 64 + g.val = win2_7.index t (0 : Fin 2) * 64 + 1 * g.val; rw [e0]; omega
  | ⟨1, _⟩ => show q.val = win2_7.index t (1 : Fin 2) * 128 + 1 * q.val; rw [e1]; omega

/-- An index of the tiles' array is in point t's tile iff each coordinate is in the tile's range on its axis. -/
theorem mem_blk7 (t : Fin cfg2.N) (i : S8000x128.Idx) :
    i ∈ ((cfg2.win 7).blk t).view.set ↔ ∀ a : Fin 2, win2_7.index t a * S64x128.size a ≤ (i a).val
      ∧ (i a).val < win2_7.index t a * S64x128.size a + S64x128.size a := by
  show i ∈ ((View.whole main_v24_1).slice (win2_7.rect t)).set ↔ _
  rw [View.set_slice_whole, Rect.mem_set_unit]
  exact Iff.rfl

/-- Every row r of the tiles' array is in the tile of point r / 64. -/
theorem cover7 (i : S8000x128.Idx) :
    ∃ t : Fin cfg2.N, (cfg2.win 7).flush t = true ∧ i ∈ ((cfg2.win 7).blk t).view.set := by
  have hi0 : (i 0).val < 8000 := (i 0).isLt
  have hi1 : (i 1).val < 128 := (i 1).isLt
  have hN : cfg2.N = 125 := N_2
  have ht : (i 0).val / 64 < cfg2.N := by omega
  obtain ⟨-, -, -, -, -, -, -, -, -, -, -, -, -, -, e0, e1⟩ := idx_facts ⟨(i 0).val / 64, ht⟩
  refine ⟨⟨(i 0).val / 64, ht⟩, flush2_7 _, ?_⟩
  rw [mem_blk7]
  intro a
  match a with
  | ⟨0, _⟩ =>
    show win2_7.index ⟨(i 0).val / 64, ht⟩ (0 : Fin 2) * 64 ≤ (i 0).val
      ∧ (i 0).val < win2_7.index ⟨(i 0).val / 64, ht⟩ (0 : Fin 2) * 64 + 64
    rw [e0]
    show (i 0).val / 64 * 64 ≤ (i 0).val ∧ (i 0).val < (i 0).val / 64 * 64 + 64
    omega
  | ⟨1, _⟩ =>
    show win2_7.index ⟨(i 0).val / 64, ht⟩ (1 : Fin 2) * 128 ≤ (i 1).val
      ∧ (i 1).val < win2_7.index ⟨(i 0).val / 64, ht⟩ (1 : Fin 2) * 128 + 128
    rw [e1]
    omega

/-- The tiles' array after the region: the per-tile sums by graph of the new edges. -/
theorem arr2_7 (c : Dev nD) : (dat2 (F := Ideal) V c).arrAt 7 cfg2.N
    = GN.edgePartK (nT := 125) (T := 5120) (G := 64) (D := 128)
        (GN.edgeK (V c main_arg0) (V c main_v21) (V c main_arg7) (V c main_v23) (V c main_v6_0) (V c main_v22)) (V c main_v22) :=
  (dat2 (F := Ideal) V c).arrAt_eq_of_cover 7 (partArr V c) (fun t _ => flushed7_eq V c t) cover7

end Cert.KernelIdeal.Reg2

end
-- ==== Proof.Reg3.lean ====
/-
  The node update (the third pallas_call) as a function of the arrays it is handed.

  The call runs over 20 grid points.  Point t is handed rows 2000 t .. 2000 t + 1999 of the node features, of the two
  sums of edges by node and of the column of graph words, and the per-graph table, the three weight matrices and the
  three bias rows whole.  Its body forms the three linear terms, the one-hot matrix of the block's graph words against
  the graph numbers 0 .. 63, adds the one-hot matrix times the table, takes relu: the block's new nodes, written to rows
  2000 t .. 2000 t + 1999 of the first output.  Then it multiplies the transposed one-hot matrix by the block's new
  nodes: for each graph number, the sum of the block's new nodes whose word is that number, written to rows
  64 t .. 64 t + 63 of the second output.

  Below: a product contracting the rows of both operands, re-indexed; each payload of the body read at an index; each
  window's block as rows of its array; what a point writes back; and the two output arrays after the run, every index
  of which lies in exactly the block of the point its row number names.
-/
import proofs.«409440_j63694365000381_3_alg».proof.Proof.Gen.KernelIdeal.Frame
import proofs.«409440_j63694365000381_3_alg».proof.Proof.Spec
import proofs.«409440_j63694365000381_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx Cert.KernelIdeal Cert.KernelIdeal.Gen
open scoped BigOperators

namespace Cert.KernelIdeal.Reg3

/-! ## A product that contracts the rows of both operands

For a contraction of a [K, R] array with a [K, C] array along axis 0 of both (no batch axis), the sum over the
contraction's own index type of the operands' products at the result index (p, q) is the plain sum over k < K of
l(k, p) * r(k, q).  The left operand's axis 0 is its contracting axis and reads the contraction index's one
coordinate; its axis 1 is its only non-contracting axis and, with no batch axis before it, reads the result index at
position 0.  The right operand's axis 0 is contracting likewise; its axis 1 reads the result index at position 1,
after the left operand's one non-contracting axis. -/

section ColumnDot
variable {K R C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 1, its only non-contracting axis, reads the result index's coordinate 0. -/
theorem col_lhs_val_1 (d : DotDims ⟨2, ![K, R]⟩ ⟨2, ![K, C]⟩ ⟨2, ![R, C]⟩)
    (hlb : d.lhsBatch = []) (hln : d.lhsNonContracting = [1])
    (j : (⟨2, ![R, C]⟩ : Shape).Idx) (k : d.contr.Idx) :
    (d.lhsIdx j k (1 : Fin 2)).val = (j (0 : Fin 2)).val := by
  have hb : ¬ (1 : Fin 2) ∈ d.lhsBatch := by rw [hlb]; exact List.not_mem_nil
  have hn : (1 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 0, the only contracting axis, reads the contraction index's one coordinate. -/
theorem col_lhs_val_0 (d : DotDims ⟨2, ![K, R]⟩ ⟨2, ![K, C]⟩ ⟨2, ![R, C]⟩)
    (hlc : d.lhsContracting = [0]) (hr : d.contr.rank = 1)
    (j : (⟨2, ![R, C]⟩ : Shape).Idx) (k : d.contr.Idx) :
    (d.lhsIdx j k (0 : Fin 2)).val = (k ⟨0, by omega⟩).val :=
  d.lhsIdx_val_of_single hlc j k

/-- The right operand's axis 0, the only contracting axis, reads the contraction index's one coordinate. -/
theorem col_rhs_val_0 (d : DotDims ⟨2, ![K, R]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1. -/
theorem col_rhs_val_1 (d : DotDims ⟨2, ![K, R]⟩ ⟨2, ![K, C]⟩ ⟨2, ![R, C]⟩)
    (hrb : d.rhsBatch = []) (hrn : d.rhsNonContracting = [1])
    (hlb : d.lhsBatch = []) (hln : d.lhsNonContracting = [1])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction sum at (p, q) is the sum over k < K of l (k, p) * r (k, q). -/
theorem colDot_sum_eq {M : Type} [AddCommMonoid M] [Mul M] (d : DotDims ⟨2, ![K, R]⟩ ⟨2, ![K, C]⟩ ⟨2, ![R, C]⟩)
    (hlb : d.lhsBatch = []) (hln : d.lhsNonContracting = [1]) (hlc : d.lhsContracting = [0])
    (hrb : d.rhsBatch = []) (hrn : d.rhsNonContracting = [1]) (hrc : d.rhsContracting = [0])
    (l : (⟨2, ![K, R]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 k p) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  have hl : d.lhsIdx (ix2 p q) ((contrEquiv1 d K hr hs).symm k) = ix2 k p := by
    funext a
    apply Fin.ext
    match a with
    | ⟨0, _⟩ => exact (col_lhs_val_0 d hlc hr (ix2 p q) _).trans (contrEquiv1_symm_val d K hr hs k)
    | ⟨1, _⟩ => exact col_lhs_val_1 d hlb hln (ix2 p q) _
  have hrr : d.rhsIdx (ix2 p q) ((contrEquiv1 d K hr hs).symm k) = ix2 k q := by
    funext a
    apply Fin.ext
    match a with
    | ⟨0, _⟩ => exact (col_rhs_val_0 d hrc hr (ix2 p q) _).trans (contrEquiv1_symm_val d K hr hs k)
    | ⟨1, _⟩ => exact col_rhs_val_1 d hrb hrn hlb hln (ix2 p q) _
  rw [hl, hrr]

end ColumnDot

/-! ## The payloads at an index -/

/-- A linear term of the body: the block's rows times the weight matrix, plus the bias row, entry by entry. -/
theorem lin_apply (x : Vec Ideal S2000x128 .f32) (W : Vec Ideal S128x128 .f32) (b : Vec Ideal S1x128 .f32)
    (p : Fin 2000) (q : Fin 128) :
    Gen.k3_pay3 (F := Ideal) x W b (ix2 p q) = GN.linRow (R := 2000) (K := 128) (C := 128) x W b (ix2 p q) := by
  unfold Gen.k3_pay3
  refine congrArg₂ (· + ·) ?_ ?_
  · refine (Ideal.matmul_constant_zero_apply dot_S2000x128_S128x128_S2000x128_1_0_0_1_n_n none _ _ (ix2 p q)).trans ?_
    exact PlainDot.sum_eq dot_S2000x128_S128x128_S2000x128_1_0_0_1_n_n rfl rfl rfl rfl rfl rfl _ _ p q
  · refine (broadcastTo_1b_ab_apply _ broadcasts_S1x128_S2000x128 p q).trans ?_
    exact congrFun (shapeCast_self b shapeCasts_S1x128_S1x128) _

/-- The second and third linear terms are the first one's expression (a cast to the same shape is the identity). -/
theorem pay4_eq (x : Vec Ideal S2000x128 .f32) (W : Vec Ideal S128x128 .f32) (b : Vec Ideal S1x128 .f32) :
    Gen.k3_pay4 (F := Ideal) x W b = Gen.k3_pay3 (F := Ideal) x W b := by
  unfold Gen.k3_pay4 Gen.k3_pay3
  rw [shapeCast_self x shapeCasts_S2000x128_S2000x128]

theorem pay5_eq (x : Vec Ideal S2000x128 .f32) (W : Vec Ideal S128x128 .f32) (b : Vec Ideal S1x128 .f32) :
    Gen.k3_pay5 (F := Ideal) x W b = Gen.k3_pay3 (F := Ideal) x W b := by
  unfold Gen.k3_pay5 Gen.k3_pay3
  rw [shapeCast_self x shapeCasts_S2000x128_S2000x128]

/-- A linear term read at (p, q) of a block whose row p is row r of an array. -/
theorem lin_congr (x : GN.Mat 2000 128) (A : GN.Mat 40000 128) (W W' : GN.Mat 128 128) (b b' : GN.Mat 1 128)
    (r : Fin 40000) (p : Fin 2000) (q : Fin 128)
    (hx : ∀ k : Fin 128, x (ix2 p k) = A (ix2 r k)) (hW : ∀ k : Fin 128, W (ix2 k q) = W' (ix2 k q))
    (hb : b (ix2 (0 : Fin 1) q) = b' (ix2 (0 : Fin 1) q)) :
    GN.linRow x W b (ix2 p q) = GN.linRow A W' b' (ix2 r q) := by
  show (∑ k : Fin 128, x (ix2 p k) * W (ix2 k q)) + b (ix2 (0 : Fin 1) q)
    = (∑ k : Fin 128, A (ix2 r k) * W' (ix2 k q)) + b' (ix2 (0 : Fin 1) q)
  rw [hb]
  exact congrArg (· + b' (ix2 (0 : Fin 1) q)) (Finset.sum_congr rfl fun k _ => by rw [hx k, hW k])

/-- The node update at an entry (r, q), spelt out. -/
theorem nodeK_apply {N G D : Nat} (nf segr segs : GN.Mat N D) (gid : GN.IdsCol N) (tbl : GN.Mat G D)
    (Wn : GN.Mat D D) (bn : GN.Mat 1 D) (Wi : GN.Mat D D) (bi : GN.Mat 1 D) (Wo : GN.Mat D D) (bo : GN.Mat 1 D)
    (r : Fin N) (q : Fin D) :
    GN.nodeK nf segr segs gid tbl Wn bn Wi bi Wo bo (ix2 r q)
      = max ((((GN.linRow nf Wn bn (ix2 r q)) + (GN.linRow segr Wi bi (ix2 r q))) + (GN.linRow segs Wo bo (ix2 r q)))
        + ∑ g : Fin G, GN.hot (gid (StableHlo.Predicate.ixP r)) g.val * tbl (ix2 g q)) 0 := rfl

/-- An equality test of two words as a one-bit word: 1 when they are equal, else 0. -/
theorem cmpi_eq_ite (x y : BitVec 32) : IntOp.cmpi .eq x y = if x = y then 1#1 else 0#1 := by
  show BitVec.ofBool (x == y) = _
  by_cases h : x = y
  · rw [if_pos h, beq_iff_eq.mpr h]; rfl
  · rw [if_neg h, beq_eq_false_iff_ne.mpr h]; rfl

/-- The one-hot matrix of the block: entry (r, g) is 1 when row r's word is g, else 0. -/
theorem hot_apply (v : Vec Ideal S2000x1 .i32) (r : Fin 2000) (g : Fin 64) :
    Gen.k3_pay6 (F := Ideal) v (ix2 r g) = GN.hot (v (StableHlo.Predicate.ixP r)) g.val := by
  unfold Gen.k3_pay6
  show ((((IntOp.cmpi .eq (broadcastTo S2000x64 (shapeCast S2000x1 v shapeCasts_S2000x1_S2000x1) broadcasts_S2000x1_S2000x64 (ix2 r g))
      (iota .tc S2000x64 32 [1] iota_S2000x64_d1_w32 (ix2 r g))).setWidth 32).toInt : ℝ) : EReal) = _
  rw [iota_single_apply, broadcastTo_apply _ broadcasts_S2000x1_S2000x64 (ix2 r g) (StableHlo.Predicate.ixP r) (fun a => by
    match a with
    | ⟨0, _⟩ => rfl
    | ⟨1, _⟩ => rfl), shapeCast_self, cmpi_eq_ite]
  rfl

/-- The new nodes of the block, entry by entry: relu of the three linear terms plus the one-hot-weighted sum of the
    table's rows. -/
theorem node_apply (a b c : FVec Ideal S2000x128 .f32) (h : FVec Ideal S2000x64 .f32) (T : Vec Ideal S64x128 .f32)
    (p : Fin 2000) (q : Fin 128) :
    Gen.k3_pay1 (F := Ideal) a b c h T (ix2 p q)
      = max (((a (ix2 p q) + b (ix2 p q)) + c (ix2 p q)) + ∑ g : Fin 64, h (ix2 p g) * T (ix2 g q)) 0 := by
  unfold Gen.k3_pay1
  refine congrArg₂ max (congrArg₂ (· + ·) rfl ?_) ?_
  · refine (Ideal.matmul_constant_zero_apply dot_S2000x64_S64x128_S2000x128_1_0_0_1_n_n (some .fp32) _ _ (ix2 p q)).trans ?_
    refine (PlainDot.sum_eq dot_S2000x64_S64x128_S2000x128_1_0_0_1_n_n rfl rfl rfl rfl rfl rfl _ _ p q).trans ?_
    rw [shapeCast_self]
  · exact Ideal.ofBits_zero_f32

/-- The tile's partial sums, entry by entry: the one-hot-weighted sum of the block's new nodes. -/
theorem part_apply (a b c : FVec Ideal S2000x128 .f32) (h : FVec Ideal S2000x64 .f32) (T : Vec Ideal S64x128 .f32)
    (g : Fin 64) (q : Fin 128) :
    Gen.k3_pay2 (F := Ideal) a b c h T (ix2 g q)
      = ∑ r : Fin 2000, h (ix2 r g) * Gen.k3_pay1 (F := Ideal) a b c h T (ix2 r q) := by
  unfold Gen.k3_pay2
  refine (Ideal.matmul_constant_zero_apply dot_S2000x64_S2000x128_S64x128_0_0_1_1_n_n (some .fp32) _ _ (ix2 g q)).trans ?_
  exact colDot_sum_eq dot_S2000x64_S2000x128_S64x128_0_0_1_1_n_n rfl rfl rfl rfl rfl rfl _ _ g q

/-! ## The blocks of the windows -/

variable (V : (c : Dev nD) → (b : Ref sig .tc) → Buf (Elt Ideal) ((c : Thread nD τ).loc b))

theorem hz : (![0, 0] : Fin 2 → Nat) = fun _ => 0 := funext fun a => by fin_cases a <;> rfl

/-- The grid has 20 points. -/
theorem point_lt (t : Fin cfg3.N) : t.val < 20 := lt_of_lt_of_eq t.isLt N_3

/-- Row p of block t is row 2000 t + p of the array, below 40000. -/
theorem row_lt (t : Fin cfg3.N) (p : Fin 2000) : t.val * 2000 + p.val < 40000 := by
  have := point_lt t; have := p.isLt; omega

/-- Row g of tile t is row 64 t + g of the array of partial sums, below 1280. -/
theorem tile_lt (t : Fin cfg3.N) (g : Fin 64) : t.val * 64 + g.val < 1280 := by
  have := point_lt t; have := g.isLt; omega

/-- The printed index maps, decided over the grid: the row-blocked windows are at block (t, 0), the others at (0, 0). -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = t.val ∧ win3_11.index t (1 : Fin 2) = 0 :=
  (by decide +kernel : ∀ t : Fin grid3.N, _)
theorem idx3_12 : ∀ t : Fin cfg3.N, win3_12.index t (0 : Fin 2) = t.val ∧ win3_12.index t (1 : Fin 2) = 0 :=
  (by decide +kernel : ∀ t : Fin grid3.N, _)

/-- Block t of the node features: its entry (p, k) is the array's entry (2000 t + p, k). -/
theorem blk0 (c : Dev nD) (t : Fin cfg3.N) (p : Fin 2000) (k : Fin 128) :
    Gen.iblk3 (F := Ideal) V c 0 t (ix2 p k) = V c main_arg1 (ix2 (⟨t.val * 2000 + p.val, row_lt t p⟩ : Fin 40000) k) := by
  show V c main_arg1 (((cfg3.win 0).blk t).view.emb (ix2 p k)) = _
  refine congrArg (V c main_arg1) ?_
  obtain ⟨e0, e1⟩ := idx3_0 t
  funext a; apply Fin.ext
  match a with
  | ⟨0, _⟩ => show win3_0.index t (0 : Fin 2) * 2000 + 1 * p.val = t.val * 2000 + p.val; omega
  | ⟨1, _⟩ => show win3_0.index t (1 : Fin 2) * 128 + 1 * k.val = k.val; omega

/-- Block t of the sums of received edges likewise. -/
theorem blk1 (c : Dev nD) (t : Fin cfg3.N) (p : Fin 2000) (k : Fin 128) :
    Gen.iblk3 (F := Ideal) V c 1 t (ix2 p k) = V c main_v29 (ix2 (⟨t.val * 2000 + p.val, row_lt t p⟩ : Fin 40000) k) := by
  show V c main_v29 (((cfg3.win 1).blk t).view.emb (ix2 p k)) = _
  refine congrArg (V c main_v29) ?_
  obtain ⟨e0, e1⟩ := idx3_1 t
  funext a; apply Fin.ext
  match a with
  | ⟨0, _⟩ => show win3_1.index t (0 : Fin 2) * 2000 + 1 * p.val = t.val * 2000 + p.val; omega
  | ⟨1, _⟩ => show win3_1.index t (1 : Fin 2) * 128 + 1 * k.val = k.val; omega

/-- Block t of the sums of sent edges likewise. -/
theorem blk2 (c : Dev nD) (t : Fin cfg3.N) (p : Fin 2000) (k : Fin 128) :
    Gen.iblk3 (F := Ideal) V c 2 t (ix2 p k) = V c main_v32 (ix2 (⟨t.val * 2000 + p.val, row_lt t p⟩ : Fin 40000) k) := by
  show V c main_v32 (((cfg3.win 2).blk t).view.emb (ix2 p k)) = _
  refine congrArg (V c main_v32) ?_
  obtain ⟨e0, e1⟩ := idx3_2 t
  funext a; apply Fin.ext
  match a with
  | ⟨0, _⟩ => show win3_2.index t (0 : Fin 2) * 2000 + 1 * p.val = t.val * 2000 + p.val; omega
  | ⟨1, _⟩ => show win3_2.index t (1 : Fin 2) * 128 + 1 * k.val = k.val; omega

/-- Block t of the column of graph words: its word p is the array's word 2000 t + p. -/
theorem blk3 (c : Dev nD) (t : Fin cfg3.N) (p : Fin 2000) :
    Gen.iblk3 (F := Ideal) V c 3 t (StableHlo.Predicate.ixP p)
      = V c main_v33 (StableHlo.Predicate.ixP (⟨t.val * 2000 + p.val, row_lt t p⟩ : Fin 40000)) := by
  show V c main_v33 (((cfg3.win 3).blk t).view.emb (StableHlo.Predicate.ixP p)) = _
  refine congrArg (V c main_v33) ?_
  obtain ⟨e0, e1⟩ := idx3_3 t
  funext a; apply Fin.ext
  match a with
  | ⟨0, _⟩ => show win3_3.index t (0 : Fin 2) * 2000 + 1 * p.val = t.val * 2000 + p.val; omega
  | ⟨1, _⟩ => show win3_3.index t (1 : Fin 2) * 1 + 1 * 0 = 0; omega

/-- The per-graph table is handed whole at every point. -/
theorem blk4 (c : Dev nD) (t : Fin cfg3.N) (p : Fin 64) (k : Fin 128) :
    Gen.iblk3 (F := Ideal) V c 4 t (ix2 p k) = V c main_v6_1 (ix2 p k) := by
  show V c main_v6_1 (((cfg3.win 4).blk t).view.emb (ix2 p k)) = _
  refine congrArg (V c main_v6_1) ?_
  obtain ⟨e0, e1⟩ := idx3_4 t
  funext a; apply Fin.ext
  match a with
  | ⟨0, _⟩ => show win3_4.index t (0 : Fin 2) * 64 + 1 * p.val = p.val; omega
  | ⟨1, _⟩ => show win3_4.index t (1 : Fin 2) * 128 + 1 * k.val = k.val; omega

/-- The first weight matrix is handed whole at every point. -/
theorem blk5 (c : Dev nD) (t : Fin cfg3.N) (p : Fin 128) (k : Fin 128) :
    Gen.iblk3 (F := Ideal) V c 5 t (ix2 p k) = V c main_arg15 (ix2 p k) := by
  show V c main_arg15 (((cfg3.win 5).blk t).view.emb (ix2 p k)) = _
  refine congrArg (V c main_arg15) ?_
  obtain ⟨e0, e1⟩ := idx3_5 t
  funext a; apply Fin.ext
  match a with
  | ⟨0, _⟩ => show win3_5.index t (0 : Fin 2) * 128 + 1 * p.val = p.val; omega
  | ⟨1, _⟩ => show win3_5.index t (1 : Fin 2) * 128 + 1 * k.val = k.val; omega

/-- The first bias row is handed whole at every point. -/
theorem blk6 (c : Dev nD) (t : Fin cfg3.N) (p : Fin 1) (k : Fin 128) :
    Gen.iblk3 (F := Ideal) V c 6 t (ix2 p k) = V c main_v34 (ix2 p k) := by
  show V c main_v34 (((cfg3.win 6).blk t).view.emb (ix2 p k)) = _
  refine congrArg (V c main_v34) ?_
  obtain ⟨e0, e1⟩ := idx3_6 t
  funext a; apply Fin.ext
  match a with
  | ⟨0, _⟩ => show win3_6.index t (0 : Fin 2) * 1 + 1 * p.val = p.val; omega
  | ⟨1, _⟩ => show win3_6.index t (1 : Fin 2) * 128 + 1 * k.val = k.val; omega

/-- The second weight matrix is handed whole at every point. -/
theorem blk7 (c : Dev nD) (t : Fin cfg3.N) (p : Fin 128) (k : Fin 128) :
    Gen.iblk3 (F := Ideal) V c 7 t (ix2 p k) = V c main_arg17 (ix2 p k) := by
  show V c main_arg17 (((cfg3.win 7).blk t).view.emb (ix2 p k)) = _
  refine congrArg (V c main_arg17) ?_
  obtain ⟨e0, e1⟩ := idx3_7 t
  funext a; apply Fin.ext
  match a with
  | ⟨0, _⟩ => show win3_7.index t (0 : Fin 2) * 128 + 1 * p.val = p.val; omega
  | ⟨1, _⟩ => show win3_7.index t (1 : Fin 2) * 128 + 1 * k.val = k.val; omega

/-- The second bias row is handed whole at every point. -/
theorem blk8 (c : Dev nD) (t : Fin cfg3.N) (p : Fin 1) (k : Fin 128) :
    Gen.iblk3 (F := Ideal) V c 8 t (ix2 p k) = V c main_v35 (ix2 p k) := by
  show V c main_v35 (((cfg3.win 8).blk t).view.emb (ix2 p k)) = _
  refine congrArg (V c main_v35) ?_
  obtain ⟨e0, e1⟩ := idx3_8 t
  funext a; apply Fin.ext
  match a with
  | ⟨0, _⟩ => show win3_8.index t (0 : Fin 2) * 1 + 1 * p.val = p.val; omega
  | ⟨1, _⟩ => show win3_8.index t (1 : Fin 2) * 128 + 1 * k.val = k.val; omega

/-- The third weight matrix is handed whole at every point. -/
theorem blk9 (c : Dev nD) (t : Fin cfg3.N) (p : Fin 128) (k : Fin 128) :
    Gen.iblk3 (F := Ideal) V c 9 t (ix2 p k) = V c main_arg19 (ix2 p k) := by
  show V c main_arg19 (((cfg3.win 9).blk t).view.emb (ix2 p k)) = _
  refine congrArg (V c main_arg19) ?_
  obtain ⟨e0, e1⟩ := idx3_9 t
  funext a; apply Fin.ext
  match a with
  | ⟨0, _⟩ => show win3_9.index t (0 : Fin 2) * 128 + 1 * p.val = p.val; omega
  | ⟨1, _⟩ => show win3_9.index t (1 : Fin 2) * 128 + 1 * k.val = k.val; omega

/-- The third bias row is handed whole at every point. -/
theorem blk10 (c : Dev nD) (t : Fin cfg3.N) (p : Fin 1) (k : Fin 128) :
    Gen.iblk3 (F := Ideal) V c 10 t (ix2 p k) = V c main_v36 (ix2 p k) := by
  show V c main_v36 (((cfg3.win 10).blk t).view.emb (ix2 p k)) = _
  refine congrArg (V c main_v36) ?_
  obtain ⟨e0, e1⟩ := idx3_10 t
  funext a; apply Fin.ext
  match a with
  | ⟨0, _⟩ => show win3_10.index t (0 : Fin 2) * 1 + 1 * p.val = p.val; omega
  | ⟨1, _⟩ => show win3_10.index t (1 : Fin 2) * 128 + 1 * k.val = k.val; omega

/-! ## Window 11: the new nodes -/

/-- The new nodes, as the function of the arrays the region finds. -/
abbrev nodes (c : Dev nD) : GN.Mat 40000 128 :=
  GN.nodeK (V c main_arg1) (V c main_v29) (V c main_v32) (V c main_v33) (V c main_v6_1) (V c main_arg15) (V c main_v34)
    (V c main_arg17) (V c main_v35) (V c main_arg19) (V c main_v36)

/-- The body's node payload on the blocks of point t, at (p, q): the new nodes' entry (2000 t + p, q). -/
theorem node_blocks (c : Dev nD) (t : Fin cfg3.N) (p : Fin 2000) (q : Fin 128) :
    Gen.k3_pay1 (Gen.k3_pay3 (Gen.iblk3 (F := Ideal) V c 0 t) (Gen.iblk3 V c 5 t) (Gen.iblk3 V c 6 t))
      (Gen.k3_pay4 (Gen.iblk3 V c 1 t) (Gen.iblk3 V c 7 t) (Gen.iblk3 V c 8 t))
      (Gen.k3_pay5 (Gen.iblk3 V c 2 t) (Gen.iblk3 V c 9 t) (Gen.iblk3 V c 10 t))
      (Gen.k3_pay6 (Gen.iblk3 V c 3 t)) (Gen.iblk3 V c 4 t) (ix2 p q)
    = nodes V c (ix2 (⟨t.val * 2000 + p.val, row_lt t p⟩ : Fin 40000) q) := by
  refine ((node_apply _ _ _ _ _ p q).trans ?_).trans (nodeK_apply _ _ _ _ _ _ _ _ _ _ _ _ q).symm
  refine congrArg₂ max (congrArg₂ (· + ·) (congrArg₂ (· + ·) (congrArg₂ (· + ·) ?_ ?_) ?_) ?_) rfl
  · exact (lin_apply _ _ _ p q).trans (lin_congr _ _ _ _ _ _ _ p q (fun k => blk0 V c t p k) (fun k => blk5 V c t k q) (blk6 V c t 0 q))
  · rw [pay4_eq]
    exact (lin_apply _ _ _ p q).trans (lin_congr _ _ _ _ _ _ _ p q (fun k => blk1 V c t p k) (fun k => blk7 V c t k q) (blk8 V c t 0 q))
  · rw [pay5_eq]
    exact (lin_apply _ _ _ p q).trans (lin_congr _ _ _ _ _ _ _ p q (fun k => blk2 V c t p k) (fun k => blk9 V c t k q) (blk10 V c t 0 q))
  · exact Finset.sum_congr rfl fun g _ => congrArg₂ (· * ·)
      ((hot_apply _ p g).trans (congrArg (fun w => GN.hot w g.val) (blk3 V c t p))) (blk4 V c t g q)

/-- What point t writes back through window 11 is block t of the new nodes. -/
theorem flushed11_eq (c : Dev nD) (t : Fin cfg3.N) :
    (Gen.dat3 (F := Ideal) V c).flushed 11 t = ((cfg3.win 11).blk t).view.read (Elt Ideal) (nodes V c) := by
  show (cfg3.win 11).cut (grid3.coords t) ((Gen.dat3 (F := Ideal) V c).after 11 t) = _
  rw [Gen.after3_11]
  unfold Gen.out3_11
  rw [View.canon_unit_zero hz]
  simp only [View.ld_unit_zero (S := S2000x128) hz, View.ld_unit_zero (S := S128x128) hz, View.ld_unit_zero (S := S1x128) hz,
    View.ld_unit_zero (S := S2000x1) hz, View.ld_unit_zero (S := S64x128) hz]
  funext j
  obtain ⟨p, q, rfl⟩ : ∃ (p : Fin 2000) (q : Fin 128), j = ix2 p q := ⟨j 0, j 1, eq_ix2 j⟩
  refine (node_blocks V c t p q).trans ?_
  show nodes V c _ = nodes V c (((cfg3.win 11).blk t).view.emb (ix2 p q))
  refine congrArg (nodes V c) ?_
  obtain ⟨e0, e1⟩ := idx3_11 t
  funext a; apply Fin.ext
  match a with
  | ⟨0, _⟩ => show t.val * 2000 + p.val = win3_11.index t (0 : Fin 2) * 2000 + 1 * p.val; omega
  | ⟨1, _⟩ => show q.val = win3_11.index t (1 : Fin 2) * 128 + 1 * q.val; omega

/-- An index of the array is in point t's block iff each coordinate is in the block's range on its axis. -/
theorem mem_blk11 (t : Fin cfg3.N) (i : S40000x128.Idx) :
    i ∈ ((cfg3.win 11).blk t).view.set ↔ ∀ a : Fin 2, win3_11.index t a * S2000x128.size a ≤ (i a).val
      ∧ (i a).val < win3_11.index t a * S2000x128.size a + S2000x128.size a := by
  show i ∈ ((View.whole main_v37_0).slice (win3_11.rect t)).set ↔ _
  rw [View.set_slice_whole, Rect.mem_set_unit]
  exact Iff.rfl

/-- Every index of the array is in some point's block: row r is in block r / 2000. -/
theorem cover11 (i : S40000x128.Idx) :
    ∃ t : Fin cfg3.N, (cfg3.win 11).flush t = true ∧ i ∈ ((cfg3.win 11).blk t).view.set := by
  have hi0 : (i 0).val < 40000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 20) N_3.symm⟩, rfl⟩
  refine ⟨t, flush3_11 t, ?_⟩
  rw [mem_blk11]
  obtain ⟨e0, e1⟩ := idx3_11 t
  intro a
  match a with
  | ⟨0, _⟩ => show win3_11.index t (0 : Fin 2) * 2000 ≤ (i 0).val ∧ (i 0).val < win3_11.index t (0 : Fin 2) * 2000 + 2000; omega
  | ⟨1, _⟩ => show win3_11.index t (1 : Fin 2) * 128 ≤ (i 1).val ∧ (i 1).val < win3_11.index t (1 : Fin 2) * 128 + 128; omega

/-- The array of new nodes after the region. -/
theorem arr3_11 (c : Dev nD) : (Gen.dat3 (F := Ideal) V c).arrAt 11 cfg3.N
    = GN.nodeK (V c main_arg1) (V c main_v29) (V c main_v32) (V c main_v33) (V c main_v6_1) (V c main_arg15) (V c main_v34)
      (V c main_arg17) (V c main_v35) (V c main_arg19) (V c main_v36) :=
  (Gen.dat3 (F := Ideal) V c).arrAt_eq_of_cover 11 (nodes V c) (fun t _ => flushed11_eq V c t) cover11

/-! ## Window 12: the tiles' partial sums of the new nodes by graph -/

/-- The partial sums by graph of the new nodes, 20 tiles of 2000 rows against 64 graph numbers. -/
abbrev parts (c : Dev nD) : GN.Mat 1280 128 :=
  GN.nodePartK (nT := 20) (T := 2000) (G := 64) (D := 128) (nodes V c) (V c main_v33)

/-- The partial sums at an entry (s, q), spelt out. -/
theorem partK_apply (x : GN.Mat (20 * 2000) 128) (gid : GN.IdsCol (20 * 2000)) (s : Fin (20 * 64)) (q : Fin 128) :
    GN.nodePartK (nT := 20) (T := 2000) (G := 64) (D := 128) x gid (ix2 s q)
      = ∑ j : Fin 2000, GN.hot (gid (StableHlo.Predicate.ixP (GN.tileRow (nT := 20) (T := 2000) (G := 64) s j))) (s.val % 64)
          * x (ix2 (GN.tileRow (nT := 20) (T := 2000) (G := 64) s j) q) := rfl

/-- The body's second payload on the blocks of point t, at (g, q): the partial sums' entry (64 t + g, q). -/
theorem part_blocks (c : Dev nD) (t : Fin cfg3.N) (g : Fin 64) (q : Fin 128) :
    Gen.k3_pay2 (Gen.k3_pay3 (Gen.iblk3 (F := Ideal) V c 0 t) (Gen.iblk3 V c 5 t) (Gen.iblk3 V c 6 t))
      (Gen.k3_pay4 (Gen.iblk3 V c 1 t) (Gen.iblk3 V c 7 t) (Gen.iblk3 V c 8 t))
      (Gen.k3_pay5 (Gen.iblk3 V c 2 t) (Gen.iblk3 V c 9 t) (Gen.iblk3 V c 10 t))
      (Gen.k3_pay6 (Gen.iblk3 V c 3 t)) (Gen.iblk3 V c 4 t) (ix2 g q)
    = parts V c (ix2 (⟨t.val * 64 + g.val, tile_lt t g⟩ : Fin 1280) q) := by
  refine ((part_apply _ _ _ _ _ g q).trans ?_).trans (partK_apply _ _ _ q).symm
  refine Finset.sum_congr rfl fun j _ => ?_
  have hg := g.isLt
  -- row j of tile (64 t + g) / 64 = t is row 2000 t + j, and (64 t + g) mod 64 = g
  have e : (⟨t.val * 2000 + j.val, row_lt t j⟩ : Fin 40000)
      = GN.tileRow (nT := 20) (T := 2000) (G := 64) (⟨t.val * 64 + g.val, tile_lt t g⟩ : Fin 1280) j :=
    Fin.ext (by show t.val * 2000 + j.val = (t.val * 64 + g.val) / 64 * 2000 + j.val; omega)
  have hm : g.val = (t.val * 64 + g.val) % 64 := by omega
  refine congrArg₂ (· * ·) ((hot_apply _ j g).trans ?_) ((node_blocks V c t j q).trans ?_)
  · refine (congrArg (fun w => GN.hot w g.val) (blk3 V c t j)).trans ?_
    show GN.hot (V c main_v33 (StableHlo.Predicate.ixP (⟨t.val * 2000 + j.val, row_lt t j⟩ : Fin 40000))) g.val
      = GN.hot (V c main_v33 (StableHlo.Predicate.ixP (GN.tileRow (nT := 20) (T := 2000) (G := 64) (⟨t.val * 64 + g.val, tile_lt t g⟩ : Fin 1280) j)))
          ((t.val * 64 + g.val) % 64)
    rw [← e, ← hm]
  · show nodes V c (ix2 (⟨t.val * 2000 + j.val, row_lt t j⟩ : Fin 40000) q)
      = nodes V c (ix2 (GN.tileRow (nT := 20) (T := 2000) (G := 64) (⟨t.val * 64 + g.val, tile_lt t g⟩ : Fin 1280) j) q)
    rw [← e]

/-- What point t writes back through window 12 is block t of the partial sums. -/
theorem flushed12_eq (c : Dev nD) (t : Fin cfg3.N) :
    (Gen.dat3 (F := Ideal) V c).flushed 12 t = ((cfg3.win 12).blk t).view.read (Elt Ideal) (parts V c) := by
  show (cfg3.win 12).cut (grid3.coords t) ((Gen.dat3 (F := Ideal) V c).after 12 t) = _
  rw [Gen.after3_12]
  unfold Gen.out3_12
  rw [View.canon_unit_zero hz]
  simp only [View.ld_unit_zero (S := S2000x128) hz, View.ld_unit_zero (S := S128x128) hz, View.ld_unit_zero (S := S1x128) hz,
    View.ld_unit_zero (S := S2000x1) hz, View.ld_unit_zero (S := S64x128) hz]
  funext j
  obtain ⟨g, q, rfl⟩ : ∃ (g : Fin 64) (q : Fin 128), j = ix2 g q := ⟨j 0, j 1, eq_ix2 j⟩
  refine (part_blocks V c t g q).trans ?_
  show parts V c _ = parts V c (((cfg3.win 12).blk t).view.emb (ix2 g q))
  refine congrArg (parts V c) ?_
  obtain ⟨e0, e1⟩ := idx3_12 t
  funext a; apply Fin.ext
  match a with
  | ⟨0, _⟩ => show t.val * 64 + g.val = win3_12.index t (0 : Fin 2) * 64 + 1 * g.val; omega
  | ⟨1, _⟩ => show q.val = win3_12.index t (1 : Fin 2) * 128 + 1 * q.val; omega

/-- An index of the array is in point t's block iff each coordinate is in the block's range on its axis. -/
theorem mem_blk12 (t : Fin cfg3.N) (i : S1280x128.Idx) :
    i ∈ ((cfg3.win 12).blk t).view.set ↔ ∀ a : Fin 2, win3_12.index t a * S64x128.size a ≤ (i a).val
      ∧ (i a).val < win3_12.index t a * S64x128.size a + S64x128.size a := by
  show i ∈ ((View.whole main_v37_1).slice (win3_12.rect t)).set ↔ _
  rw [View.set_slice_whole, Rect.mem_set_unit]
  exact Iff.rfl

/-- Every index of the array is in some point's block: row r is in block r / 64. -/
theorem cover12 (i : S1280x128.Idx) :
    ∃ t : Fin cfg3.N, (cfg3.win 12).flush t = true ∧ i ∈ ((cfg3.win 12).blk t).view.set := by
  have hi0 : (i 0).val < 1280 := (i 0).isLt
  have hi1 : (i 1).val < 128 := (i 1).isLt
  obtain ⟨t, ht⟩ : ∃ t : Fin cfg3.N, t.val = (i 0).val / 64 :=
    ⟨⟨(i 0).val / 64, lt_of_lt_of_eq (by omega : (i 0).val / 64 < 20) N_3.symm⟩, rfl⟩
  refine ⟨t, flush3_12 t, ?_⟩
  rw [mem_blk12]
  obtain ⟨e0, e1⟩ := idx3_12 t
  intro a
  match a with
  | ⟨0, _⟩ => show win3_12.index t (0 : Fin 2) * 64 ≤ (i 0).val ∧ (i 0).val < win3_12.index t (0 : Fin 2) * 64 + 64; omega
  | ⟨1, _⟩ => show win3_12.index t (1 : Fin 2) * 128 ≤ (i 1).val ∧ (i 1).val < win3_12.index t (1 : Fin 2) * 128 + 128; omega

/-- The array of partial sums after the region. -/
theorem arr3_12 (c : Dev nD) : (Gen.dat3 (F := Ideal) V c).arrAt 12 cfg3.N
    = GN.nodePartK (nT := 20) (T := 2000) (G := 64) (D := 128)
        (GN.nodeK (V c main_arg1) (V c main_v29) (V c main_v32) (V c main_v33) (V c main_v6_1) (V c main_arg15) (V c main_v34)
          (V c main_arg17) (V c main_v35) (V c main_arg19) (V c main_v36)) (V c main_v33) :=
  (Gen.dat3 (F := Ideal) V c).arrAt_eq_of_cover 12 (parts V c) (fun t _ => flushed12_eq V c t) cover12

end Cert.KernelIdeal.Reg3

end
-- ==== Proof.Reg4.lean ====
/-
  The graph update: the sums of the new edges and of the new nodes by graph each go through a linear layer (a product
  with a 128 × 128 weight matrix plus a bias row added to every row), the two results are added, and the per-graph term
  computed earlier from the old global features is added last.

  The call runs at one grid point and every window is its whole array, so the output array is the value the body
  stores: entry (p, q) is  (∑ k, se(p, k) · Whe(k, q) + bhe(0, q)) + (∑ k, sn(p, k) · Whn(k, q) + bhn(0, q)) + f(p, q).
  Over the extended reals the narrowing of the operands before each product is the identity, and each product
  accumulates into zero.
-/
import proofs.«409440_j63694365000381_3_alg».proof.Proof.Gen.KernelIdeal.Frame
import proofs.«409440_j63694365000381_3_alg».proof.Proof.Spec
import proofs.«409440_j63694365000381_3_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Cert.KernelIdeal Cert.KernelIdeal.Gen
open scoped BigOperators

namespace Cert.KernelIdeal.Reg4

variable (V : (c : Dev nD) → (b : Ref sig .tc) → Buf (Elt Ideal) ((c : Thread nD τ).loc b))

/-! ## The stored value at an index -/

/-- A bias row, cast to its own shape and repeated over the 64 rows, reads the row's entry q at (p, q). -/
theorem bias_apply (b : Vec Ideal S1x128 .f32) (p : Fin 64) (q : Fin 128) :
    broadcastTo S64x128 (shapeCast S1x128 b shapeCasts_S1x128_S1x128) broadcasts_S1x128_S64x128 (ix2 p q)
      = b (ix2 (0 : Fin 1) q) := by
  rw [shapeCast_self]
  refine broadcastTo_apply b _ (ix2 p q) (ix2 (0 : Fin 1) q) (fun a => ?_)
  match a with
  | ⟨0, _⟩ => rfl
  | ⟨1, _⟩ => rfl

/-- A product into the zero accumulator at (p, q) is the sum over k < 128 of x(p, k) · W(k, q). -/
theorem prod_apply (x : Vec Ideal S64x128 .f32) (W : Vec Ideal S128x128 .f32) (p : Fin 64) (q : Fin 128) :
    matmul dot_S64x128_S128x128_S64x128_1_0_0_1_n_n none
        (truncf .bf16 x bitsLt_bf16_f32 : FVec Ideal S64x128 .bf16)
        (truncf .bf16 W bitsLt_bf16_f32 : FVec Ideal S128x128 .bf16)
        (constant S64x128 .f32 0x00000000#32) (ix2 p q)
      = GN.mm (x : GN.Mat 64 128) (W : GN.Mat 128 128) (ix2 p q) := by
  refine (Ideal.matmul_constant_zero_apply dot_S64x128_S128x128_S64x128_1_0_0_1_n_n none
    (truncf .bf16 x bitsLt_bf16_f32 : FVec Ideal S64x128 .bf16) (truncf .bf16 W bitsLt_bf16_f32 : FVec Ideal S128x128 .bf16)
    (ix2 p q)).trans ?_
  exact PlainDot.sum_eq (R := 64) (K := 128) (C := 128) dot_S64x128_S128x128_S64x128_1_0_0_1_n_n rfl rfl rfl rfl rfl rfl
    (truncf .bf16 x bitsLt_bf16_f32 : FVec Ideal S64x128 .bf16) (truncf .bf16 W bitsLt_bf16_f32 : FVec Ideal S128x128 .bf16) p q

/-- The stored value at (p, q): the two linear layers added, plus the per-graph term.  The three casts of a 64 × 128
    operand to its own shape are the identity. -/
theorem pay1_apply (se : Vec Ideal S64x128 .f32) (Whe : Vec Ideal S128x128 .f32) (sn : Vec Ideal S64x128 .f32)
    (Whn : Vec Ideal S128x128 .f32) (bhe bhn : Vec Ideal S1x128 .f32) (f : Vec Ideal S64x128 .f32)
    (p : Fin 64) (q : Fin 128) :
    k4_pay1 (F := Ideal) se Whe sn Whn bhe bhn f (ix2 p q)
      = GN.globK (se : GN.Mat 64 128) (sn : GN.Mat 64 128) (f : GN.Mat 64 128) (Whe : GN.Mat 128 128) (bhe : GN.Mat 1 128)
          (Whn : GN.Mat 128 128) (bhn : GN.Mat 1 128) (ix2 p q) := by
  unfold k4_pay1
  rw [shapeCast_self se, shapeCast_self sn, shapeCast_self f]
  simp only [addf_apply]
  rw [prod_apply se Whe p q, prod_apply sn Whn p q, bias_apply bhe p q, bias_apply bhn p q]
  rfl

/-! ## Every block is its whole array -/

theorem hz : (![0, 0] : Fin 2 → Nat) = fun _ => 0 := funext fun a => by fin_cases a <;> rfl

/-- Every window's block index is zero on both axes, at every point of the one-point grid. -/
theorem idx_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- The edge sums' block is the whole array. -/
theorem blk0 (c : Dev nD) (t : Fin cfg4.N) :
    (iblk4 (F := Ideal) V c 0 t : S64x128.Idx → Elt Ideal .f32) = V c main_v26 := by
  obtain ⟨e0, e1, -⟩ := idx_zero t
  funext y
  show V c main_v26 (((cfg4.win 0).blk t).view.emb y) = V c main_v26 y
  refine congrArg _ (funext fun a => Fin.ext ?_)
  match a with
  | ⟨0, _⟩ => show win4_0.index t (0 : Fin 2) * 64 + 1 * (y 0).val = (y 0).val; omega
  | ⟨1, _⟩ => show win4_0.index t (1 : Fin 2) * 128 + 1 * (y 1).val = (y 1).val; omega

/-- The node sums' block is the whole array. -/
theorem blk1 (c : Dev nD) (t : Fin cfg4.N) :
    (iblk4 (F := Ideal) V c 1 t : S64x128.Idx → Elt Ideal .f32) = V c main_v39 := by
  obtain ⟨-, -, e0, e1, -⟩ := idx_zero t
  funext y
  show V c main_v39 (((cfg4.win 1).blk t).view.emb y) = V c main_v39 y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 128 + 1 * (y 1).val = (y 1).val; omega

/-- The per-graph term's block is the whole array. -/
theorem blk2 (c : Dev nD) (t : Fin cfg4.N) :
    (iblk4 (F := Ideal) V c 2 t : S64x128.Idx → Elt Ideal .f32) = V c main_v6_2 := by
  obtain ⟨-, -, -, -, e0, e1, -⟩ := idx_zero t
  funext y
  show V c main_v6_2 (((cfg4.win 2).blk t).view.emb y) = V c main_v6_2 y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 128 + 1 * (y 1).val = (y 1).val; omega

/-- The edge-side weight matrix' block is the whole array. -/
theorem blk3 (c : Dev nD) (t : Fin cfg4.N) :
    (iblk4 (F := Ideal) V c 3 t : S128x128.Idx → Elt Ideal .f32) = V c main_arg25 := by
  obtain ⟨-, -, -, -, -, -, e0, e1, -⟩ := idx_zero t
  funext y
  show V c main_arg25 (((cfg4.win 3).blk t).view.emb y) = V c main_arg25 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The edge-side bias row's block is the whole row. -/
theorem blk4 (c : Dev nD) (t : Fin cfg4.N) :
    (iblk4 (F := Ideal) V c 4 t : S1x128.Idx → Elt Ideal .f32) = V c main_v40 := by
  obtain ⟨-, -, -, -, -, -, -, -, e0, e1, -⟩ := idx_zero t
  funext y
  show V c main_v40 (((cfg4.win 4).blk t).view.emb y) = V c main_v40 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- The node-side weight matrix' block is the whole array. -/
theorem blk5 (c : Dev nD) (t : Fin cfg4.N) :
    (iblk4 (F := Ideal) V c 5 t : S128x128.Idx → Elt Ideal .f32) = V c main_arg23 := by
  obtain ⟨-, -, -, -, -, -, -, -, -, -, e0, e1, -⟩ := idx_zero t
  funext y
  show V c main_arg23 (((cfg4.win 5).blk t).view.emb y) = V c main_arg23 y
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 128 + 1 * (y 1).val = (y 1).val; omega

/-- The node-side bias row's block is the whole row. -/
theorem blk6 (c : Dev nD) (t : Fin cfg4.N) :
    (iblk4 (F := Ideal) V c 6 t : S1x128.Idx → Elt Ideal .f32) = V c main_v41 := by
  obtain ⟨-, -, -, -, -, -, -, -, -, -, -, -, e0, e1, -⟩ := idx_zero t
  funext y
  show V c main_v41 (((cfg4.win 6).blk t).view.emb y) = V c main_v41 y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- The output's block of any 64 × 128 array is that array. -/
theorem read7 (t : Fin cfg4.N) (G : S64x128.Idx → Elt Ideal .f32) :
    ((cfg4.win 7).blk t).view.read (Elt Ideal) G = G := by
  obtain ⟨-, -, -, -, -, -, -, -, -, -, -, -, -, -, e0, e1⟩ := idx_zero t
  funext y
  show G (((cfg4.win 7).blk t).view.emb y) = G y
  refine congrArg _ (funext fun a => Fin.ext ?_)
  match a with
  | ⟨0, _⟩ => show win4_7.index t (0 : Fin 2) * 64 + 1 * (y 0).val = (y 0).val; omega
  | ⟨1, _⟩ => show win4_7.index t (1 : Fin 2) * 128 + 1 * (y 1).val = (y 1).val; omega

/-! ## What the point writes back -/

/-- The output's block at a point is that block of the graph update of the seven operand arrays. -/
theorem flushed7_eq (c : Dev nD) (t : Fin cfg4.N) :
    (dat4 (F := Ideal) V c).flushed 7 t
      = ((cfg4.win 7).blk t).view.read (Elt Ideal)
          (GN.globK (V c main_v26) (V c main_v39) (V c main_v6_2) (V c main_arg25) (V c main_v40) (V c main_arg23) (V c main_v41)) := by
  show (cfg4.win 7).cut (grid4.coords t) ((dat4 V c).after 7 t) = _
  rw [after4_7]
  unfold out4_7
  rw [View.canon_unit_zero hz]
  simp only [View.ld_unit_zero (S := S64x128) hz, View.ld_unit_zero (S := S128x128) hz, View.ld_unit_zero (S := S1x128) hz]
  rw [blk0 V c t, blk1 V c t, blk2 V c t, blk3 V c t, blk4 V c t, blk5 V c t, blk6 V c t, read7 t]
  funext j
  obtain ⟨p, q, rfl⟩ : ∃ (p : Fin 64) (q : Fin 128), j = ix2 p q := ⟨j 0, j 1, eq_ix2 j⟩
  exact pay1_apply _ _ _ _ _ _ _ p q

/-! ## The one block covers the array -/

theorem mem_blk7 (t : Fin cfg4.N) (i : S64x128.Idx) :
    i ∈ ((cfg4.win 7).blk t).view.set ↔ ∀ a : Fin 2, win4_7.index t a * S64x128.size a ≤ (i a).val ∧ (i a).val < win4_7.index t a * S64x128.size a + S64x128.size a := by
  show i ∈ ((View.whole main_v42).slice (win4_7.rect t)).set ↔ _
  rw [View.set_slice_whole, Rect.mem_set_unit]
  exact Iff.rfl

/-- Every index of the output array is in the one point's block. -/
theorem cover7 (i : S64x128.Idx) : ∃ t : Fin cfg4.N, (cfg4.win 7).flush t = true ∧ i ∈ ((cfg4.win 7).blk t).view.set := by
  refine ⟨⟨0, by decide⟩, flush4_7 _, ?_⟩
  obtain ⟨-, -, -, -, -, -, -, -, -, -, -, -, -, -, e0, e1⟩ := idx_zero ⟨0, by decide⟩
  rw [mem_blk7]
  intro a
  have h0 : (i 0).val < 64 := (i 0).isLt
  have h1 : (i 1).val < 128 := (i 1).isLt
  match a with
  | ⟨0, _⟩ => show win4_7.index ⟨0, _⟩ (0 : Fin 2) * 64 ≤ (i 0).val ∧ (i 0).val < win4_7.index ⟨0, _⟩ (0 : Fin 2) * 64 + 64; omega
  | ⟨1, _⟩ => show win4_7.index ⟨0, _⟩ (1 : Fin 2) * 128 ≤ (i 1).val ∧ (i 1).val < win4_7.index ⟨0, _⟩ (1 : Fin 2) * 128 + 128; omega

/-! ## The output array -/

/-- The output array is the graph update of the edge sums, the node sums and the per-graph term. -/
theorem arr4_7 (c : Dev nD) :
    (dat4 (F := Ideal) V c).arrAt 7 cfg4.N
      = GN.globK (V c main_v26) (V c main_v39) (V c main_v6_2) (V c main_arg25) (V c main_v40) (V c main_arg23) (V c main_v41) :=
  (dat4 (F := Ideal) V c).arrAt_eq_of_cover 7
    (GN.globK (V c main_v26) (V c main_v39) (V c main_v6_2) (V c main_arg25) (V c main_v40) (V c main_arg23) (V c main_v41))
    (fun t _ => flushed7_eq V c t) cover7

end Cert.KernelIdeal.Reg4

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.LibRowSum.lean ====
import proofs.«409440_j63694365000381_3_alg».proof.Proof.LibRowIndex
import Idealize.ShloMosaic.PureOps.Ideal
import Idealize.ShloMosaic.Lib.ValueIdx

/-!
# Row scatters summed, and rows of rank-3 tables

For a table of `N` rows indexed along its rows by a column of `n` index words:

* the updates of a row scatter that land on element `(r, col)` are exactly those in column `col` whose index word,
  read signed, is `r`; so a sum over the landing updates is a sum over those positions;
* the same for a table whose rows are `A × B` rectangles (the row axis inserted, both rectangle axes the window);
* a row gather from such a table reads, at `(e, a, b)`, row `idx[e]` (read signed, clamped into the table) at `(a, b)`.
-/

open scoped BigOperators

namespace Idealize.ShloMosaic.RowIndex

open Idealize.ShloMosaic Idealize.ShloMosaic.StableHlo.Predicate Idealize.ShloMosaic.ValueIdx

/-! ## The row scatter into an `[N, C]` table -/

/-- The column axis is the window: an update's window coordinate on it is its own column. -/
theorem scatter_rows_window1 {N C n : Nat} (d : ScatterDims ⟨2, ![N, C]⟩ ⟨2, ![n, 1]⟩ ⟨2, ![n, C]⟩)
    (hu : d.updateWindowDims = [1]) (hi : d.insertedWindowDims = [0]) (y : (⟨2, ![n, C]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 2, q = 1 → (y q).val = (y 1).val := fun q hq => by subst hq; rfl
  exact e _ (by rfl)

/-- The column axis is not named by the scatter index: the window starts at column `0`. -/
theorem scatter_rows_start1 {N C n w : Nat} (d : ScatterDims ⟨2, ![N, C]⟩ ⟨2, ![n, 1]⟩ ⟨2, ![n, C]⟩)
    (hs : d.scatterDimsToOperandDims = [0]) (idx : IVec ⟨2, ![n, 1]⟩ w) (y : (⟨2, ![n, C]⟩ : Shape).Idx) :
    d.start y idx 1 = 0 := by
  unfold ScatterDims.start
  rw [dif_neg (by rw [hs]; simp)]

/-- Update `j` lands on `i` exactly when its index word reads row `i 0` and its column is `i 1`. -/
theorem scatter_rows_iff {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (j : (⟨2, ![n, C]⟩ : Shape).Idx)
    (i : (⟨2, ![N, C]⟩ : Shape).Idx) :
    d.resultIdx? j idx = some i ↔
      (idx (ixP (n := n) (j 0))).toInt = ((i 0).val : Int) ∧ (j 1).val = (i 1).val := by
  have hst0 := scatter_rows_start d hu hs hv idx j
  have hw0 := scatter_rows_window0 d hi j
  have hst1 := scatter_rows_start1 d hs idx j
  have hw1 := scatter_rows_window1 d hu hi j
  have hiN : (i 0).val < N := (i 0).isLt
  have hjC : (j 1).val < C := (j 1).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      simp only [] at hi0 hi1
      constructor <;> omega
    · exact absurd h (by simp)
  · rintro ⟨h0, h1⟩
    have hall : ∀ a, 0 ≤ d.start j idx a + d.window j a ∧ d.start j idx a + d.window j a < (⟨2, ![N, C]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (C : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega

/-- A sum over the updates of a row scatter that land on `i = (r, col)` is the sum, over the positions whose index
    word reads `r`, of the update at `(position, col)`. -/
theorem scatter_rows_sum {M : Type} [AddCommMonoid M] {N C n w : Nat}
    (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (upd : (⟨2, ![n, C]⟩ : Shape).Idx → M)
    (i : (⟨2, ![N, C]⟩ : Shape).Idx) :
    ∑ j ∈ Finset.univ.filter (fun j => d.resultIdx? j idx = some i), upd j
      = ∑ e ∈ Finset.univ.filter (fun e : Fin n => (idx (ixP e)).toInt = ((i 0).val : Int)), upd (ij e (i 1)) := by
  have key := scatter_rows_iff d hu hi hs hv idx
  have back : ∀ j : (⟨2, ![n, C]⟩ : Shape).Idx, (j 1).val = (i 1).val → ij (n := n) (m := C) (j 0) (i 1) = j := by
    intro j h1
    funext b
    match b with
    | ⟨0, _⟩ => rfl
    | ⟨1, _⟩ => exact Fin.ext h1.symm
  refine Finset.sum_nbij' (fun j => (j 0 : Fin n)) (fun e => ij e (i 1)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ij e (i 1)) i).2 ⟨(Finset.mem_filter.mp he).2, rfl⟩⟩
  · intro j hj
    rw [Finset.mem_filter] at hj
    exact back j ((key j i).1 hj.2).2
  · intro e _
    rfl
  · intro j hj
    rw [Finset.mem_filter] at hj
    show upd j = upd (ij (j 0) (i 1))
    rw [back j ((key j i).1 hj.2).2]

/-! ## The row scatter into an `[N, A, B]` table -/

/-- The start of update `y`'s window on the row axis is its scatter index, read signed. -/
theorem scatter_rows3_start {N A B n w : Nat} (d : ScatterDims ⟨3, ![N, A, B]⟩ ⟨2, ![n, 1]⟩ ⟨3, ![n, A, B]⟩)
    (hu : d.updateWindowDims = [1, 2]) (hs : d.scatterDimsToOperandDims = [0]) (hv : d.indexVectorDim = 1)
    (idx : IVec ⟨2, ![n, 1]⟩ w) (y : (⟨3, ![n, A, B]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 3, q = 0 → (y q).val = (y 0).val := fun q hq => by subst hq; rfl
    exact e _ (by rfl)
  | ⟨1, _⟩ =>
    unfold ScatterDims.siIdx
    rw [dif_pos (by simp)]
    apply Fin.ext
    show List.idxOf (0 : Fin 3) [0] = 0
    simp

/-- The two rectangle axes are not named by the scatter index: the window starts at `0` on them. -/
theorem scatter_rows3_start_ne {N A B n w : Nat} (d : ScatterDims ⟨3, ![N, A, B]⟩ ⟨2, ![n, 1]⟩ ⟨3, ![n, A, B]⟩)
    (hs : d.scatterDimsToOperandDims = [0]) (idx : IVec ⟨2, ![n, 1]⟩ w) (y : (⟨3, ![n, A, B]⟩ : Shape).Idx)
    (a : Fin 3) (ha : a ≠ 0) : d.start y idx a = 0 := by
  unfold ScatterDims.start
  rw [dif_neg (by rw [hs]; simpa using ha)]

/-- The row axis is inserted: an update has no window coordinate on it. -/
theorem scatter_rows3_window0 {N A B n : Nat} (d : ScatterDims ⟨3, ![N, A, B]⟩ ⟨2, ![n, 1]⟩ ⟨3, ![n, A, B]⟩)
    (hi : d.insertedWindowDims = [0]) (y : (⟨3, ![n, A, B]⟩ : Shape).Idx) : d.window y 0 = 0 := by
  unfold ScatterDims.window
  rw [dif_neg (by rw [ScatterDims.sKept, hi]; simp [Shape.kept])]

/-- The first rectangle axis is a window axis: an update's window coordinate on it is its own. -/
theorem scatter_rows3_window1 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 3, q = 1 → (y q).val = (y 1).val := fun q hq => by subst hq; rfl
  exact e _ (by rfl)

/-- The second rectangle axis is a window axis: an update's window coordinate on it is its own. -/
theorem scatter_rows3_window2 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 2 = (y 2).val := by
  obtain ⟨uw, iw, sd, iv, wf⟩ := d
  dsimp only at hu hi
  subst hu hi
  unfold ScatterDims.window
  rw [dif_pos (by simp [ScatterDims.sKept, Shape.kept])]
  have e : ∀ q : Fin 3, q = 2 → (y q).val = (y 2).val := fun q hq => by subst hq; rfl
  exact e _ (by rfl)

/-- Update `j` lands on `i` exactly when its index word reads row `i 0` and its rectangle coordinates are `i`'s. -/
theorem scatter_rows3_iff {N A B n w : Nat} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (j : (⟨3, ![n, A, B]⟩ : Shape).Idx)
    (i : (⟨3, ![N, A, B]⟩ : Shape).Idx) :
    d.resultIdx? j idx = some i ↔
      (idx (ixP (n := n) (j 0))).toInt = ((i 0).val : Int) ∧ (j 1).val = (i 1).val ∧ (j 2).val = (i 2).val := by
  have hst0 := scatter_rows3_start d hu hs hv idx j
  have hw0 := scatter_rows3_window0 d hi j
  have hst1 := scatter_rows3_start_ne d hs idx j 1 (by decide)
  have hst2 := scatter_rows3_start_ne d hs idx j 2 (by decide)
  have hw1 := scatter_rows3_window1 d hu hi j
  have hw2 := scatter_rows3_window2 d hu hi j
  have hiN : (i 0).val < N := (i 0).isLt
  have hjA : (j 1).val < A := (j 1).isLt
  have hjB : (j 2).val < B := (j 2).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      have hi2 := congrArg Fin.val (congrFun (Option.some.inj h) 2)
      simp only [] at hi0 hi1 hi2
      refine ⟨?_, ?_, ?_⟩ <;> omega
    · exact absurd h (by simp)
  · rintro ⟨h0, h1, h2⟩
    have hall : ∀ a, 0 ≤ d.start j idx a + d.window j a ∧ d.start j idx a + d.window j a < (⟨3, ![N, A, B]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (A : Int)
        omega
      | ⟨2, _⟩ =>
        show 0 ≤ d.start j idx 2 + d.window j 2 ∧ d.start j idx 2 + d.window j 2 < (B : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega
    | ⟨2, _⟩ =>
      apply Fin.ext
      show (d.start j idx 2 + d.window j 2).toNat = (i 2).val
      omega

/-- The same for rows that are `A × B` rectangles. -/
theorem scatter_rows3_sum {M : Type} [AddCommMonoid M] {N A B n w : Nat}
    (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (upd : (⟨3, ![n, A, B]⟩ : Shape).Idx → M)
    (i : (⟨3, ![N, A, B]⟩ : Shape).Idx) :
    ∑ j ∈ Finset.univ.filter (fun j => d.resultIdx? j idx = some i), upd j
      = ∑ e ∈ Finset.univ.filter (fun e : Fin n => (idx (ixP e)).toInt = ((i 0).val : Int)), upd (ix3 e (i 1) (i 2)) := by
  have key := scatter_rows3_iff d hu hi hs hv idx
  have back : ∀ j : (⟨3, ![n, A, B]⟩ : Shape).Idx, (j 1).val = (i 1).val → (j 2).val = (i 2).val →
      ix3 (n0 := n) (n1 := A) (n2 := B) (j 0) (i 1) (i 2) = j := by
    intro j h1 h2
    funext b
    match b with
    | ⟨0, _⟩ => rfl
    | ⟨1, _⟩ => exact Fin.ext h1.symm
    | ⟨2, _⟩ => exact Fin.ext h2.symm
  refine Finset.sum_nbij' (fun j => (j 0 : Fin n)) (fun e => ix3 e (i 1) (i 2)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ix3 e (i 1) (i 2)) i).2 ⟨(Finset.mem_filter.mp he).2, rfl, rfl⟩⟩
  · intro j hj
    rw [Finset.mem_filter] at hj
    have hk := (key j i).1 hj.2
    exact back j hk.2.1 hk.2.2
  · intro e _
    rfl
  · intro j hj
    rw [Finset.mem_filter] at hj
    have hk := (key j i).1 hj.2
    show upd j = upd (ix3 (j 0) (i 1) (i 2))
    rw [back j hk.2.1 hk.2.2]

/-! ## The row gather from an `[N, A, B]` table -/

/-- The start of result `y`'s slice on the row axis is its start index, read signed and clamped into the table. -/
theorem gather_rows3_start {N A B n w : Nat} (d : GatherDims ⟨3, ![N, A, B]⟩ ⟨2, ![n, 1]⟩ ⟨3, ![n, A, B]⟩)
    (hoff : d.offsetDims = [1, 2]) (hcoll : d.collapsedSliceDims = [0])
    (hsim : d.startIndexMap = [0]) (hivd : d.indexVectorDim = 1)
    (idx : IVec ⟨2, ![n, 1]⟩ w) (y : (⟨3, ![n, A, B]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 3, q = 0 → (y q).val = (y 0).val := fun q hq => by subst hq; rfl
    exact e _ (by rfl)
  | ⟨1, _⟩ =>
    unfold GatherDims.siIdx
    rw [dif_pos (by simp)]
    apply Fin.ext
    show List.idxOf (0 : Fin 3) [0] = 0
    simp

/-- The first rectangle axis is kept: result `y`'s offset on it is its own coordinate. -/
theorem gather_rows3_off1 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 1 → (y q).val = (y 1).val := fun q hq => by subst hq; rfl
  exact e _ (by rfl)

/-- The second rectangle axis is kept: result `y`'s offset on it is its own coordinate. -/
theorem gather_rows3_off2 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 2 = (y 2).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 2 → (y q).val = (y 2).val := fun q hq => by subst hq; rfl
  exact e _ (by rfl)

/-- A row gather from a table of `A × B` rows read at `(e, a, b)`: row `idx[e]`, read signed and clamped into the
    table, at `(a, b)`. -/
theorem gather_rows3 {α : Type} {N A B n w : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (e : Fin n) (a : Fin A) (b : Fin B) (hN : 0 < N) :
    Host.gather d x idx (ix3 e a b) = x (ix3 ⟨min (idx (ixP e)).toInt.toNat (N - 1), by omega⟩ a b) := by
  unfold Host.gather
  congr 1
  funext c
  have hnb : ∀ c : Fin 3, c ∉ d.operandBatchingDims := fun c => by rw [hob]; exact List.not_mem_nil
  have hst0 : ∀ c : Fin 3, c ≠ 0 → d.start (ix3 e a b) idx c = 0 := fun c hc => by
    unfold GatherDims.start
    rw [dif_neg (by rw [hsim]; simpa using hc)]
  match c with
  | ⟨0, _⟩ =>
    apply Fin.ext
    have hb := d.batchCoord_eq_zero (ix3 e a b) 0 (hnb 0)
    have ho := d.offCoord_eq_zero (ix3 e a b) 0 (by rw [GatherDims.mem_sKept, hcoll]; simp)
    have hst : d.start (ix3 e a b) idx 0 = min (idx (ixP e)).toInt.toNat (N - 1) :=
      gather_rows3_start d hoff hcoll hsim hivd idx (ix3 e a b)
    show d.start (ix3 e a b) idx 0 + d.batchCoord (ix3 e a b) 0 + d.offCoord (ix3 e a b) 0 = min (idx (ixP e)).toInt.toNat (N - 1)
    omega
  | ⟨1, _⟩ =>
    apply Fin.ext
    have hb := d.batchCoord_eq_zero (ix3 e a b) 1 (hnb 1)
    have ho : d.offCoord (ix3 e a b) 1 = a.val := gather_rows3_off1 d hoff hcoll hob (ix3 e a b)
    have hst := hst0 1 (by decide)
    show d.start (ix3 e a b) idx 1 + d.batchCoord (ix3 e a b) 1 + d.offCoord (ix3 e a b) 1 = a.val
    omega
  | ⟨2, _⟩ =>
    apply Fin.ext
    have hb := d.batchCoord_eq_zero (ix3 e a b) 2 (hnb 2)
    have ho : d.offCoord (ix3 e a b) 2 = b.val := gather_rows3_off2 d hoff hcoll hob (ix3 e a b)
    have hst := hst0 2 (by decide)
    show d.start (ix3 e a b) idx 2 + d.batchCoord (ix3 e a b) 2 + d.offCoord (ix3 e a b) 2 = b.val
    omega

end Idealize.ShloMosaic.RowIndex
-- ==== Proof.HostAt.lean ====
/-
  The host operations that stand between the pallas_calls, each read as one whole-array equation.

  * A reshape of a vector to a one-row matrix, or of index words to a row or a column, keeps the row-major position:
    entry (0, q) of the row, and entry (p, 0) of the column, is the vector's entry q, p.
  * A [nT · G, D] array viewed as [nT, G, D] and summed over its leading axis from zero is, at (g, q), the sum over
    the nT tiles of row t · G + g at column q.
  * A row scatter with an add body into the zero table, indexed by the column of index words, puts at (r, q) the sum
    of the updates (e, q) over the positions e whose word reads r signed.
  * A row gather indexed by the column of the normalised words — a word that reads negative has the table's height
    added — reads, at (e, q), the row the clamped normalised word e names, at column q.
-/
import proofs.«409440_j63694365000381_3_alg».proof.Proof.Spec
import proofs.«409440_j63694365000381_3_alg».proof.Proof.LibRowIndex
import proofs.«409440_j63694365000381_3_alg».proof.Proof.LibRowSum
import Idealize.ShloMosaic.Lib.Pipeline.Value
import Idealize.ShloMosaic.PureOps.Ideal.Laws
import Idealize.ShloMosaic.Lib.ValueIdx

open scoped BigOperators

noncomputable section

namespace GN.HostAt

open Idealize.ShloMosaic Idealize.ShloMosaic.ValueIdx Idealize.ShloMosaic.StableHlo.Predicate

section
variable {N C n nT G D : Nat}

/-- A vector reshaped to one row: entry (0, q) is the vector's entry q. -/
theorem reshape_asRow (b : Vec1 C) (h : (⟨1, ![C]⟩ : Shape).ShapeCasts ⟨2, ![1, C]⟩) :
    shapeCast ⟨2, ![1, C]⟩ b h = asRow b := by
  funext j
  have h0 : (j 0).val = 0 := by have := idx2_lt0 j; omega
  refine (shapeCast_apply b h j (ix1 (j 1 : Fin C)) ?_).trans rfl
  rw [Shape.rowMajor_val_one, Shape.rowMajor_val_two]
  show (j 1).val = (j 0).val * C + (j 1).val
  rw [h0]; omega

/-- Index words reshaped to one row: entry (0, e) is word e. -/
theorem reshape_idsRow (idx : Ids n) (h : (⟨1, ![n]⟩ : Shape).ShapeCasts ⟨2, ![1, n]⟩) :
    shapeCast ⟨2, ![1, n]⟩ idx h = idsRow idx := by
  funext j
  have h0 : (j 0).val = 0 := by have := idx2_lt0 j; omega
  refine (shapeCast_apply idx h j (ix1 (j 1 : Fin n)) ?_).trans rfl
  rw [Shape.rowMajor_val_one, Shape.rowMajor_val_two]
  show (j 1).val = (j 0).val * n + (j 1).val
  rw [h0]; omega

/-- Index words reshaped to one column: entry (e, 0) is word e. -/
theorem reshape_idsCol (idx : Ids n) (h : (⟨1, ![n]⟩ : Shape).ShapeCasts ⟨2, ![n, 1]⟩) :
    shapeCast ⟨2, ![n, 1]⟩ idx h = idsCol idx := by
  funext j
  have h1 : (j 1).val = 0 := by have := idx2_lt1 j; omega
  refine (shapeCast_apply idx h j (ix1 (j 0 : Fin n)) ?_).trans rfl
  rw [Shape.rowMajor_val_one, Shape.rowMajor_val_two]
  show (j 0).val = (j 0).val * 1 + (j 1).val
  rw [h1]; omega

/-- The tiles' partial sums, viewed [nT, G, D] and summed over the tile axis from zero: at (g, q) the sum over the tiles
    t of row t · G + g at column q (the view keeps the row-major position (t · G + g) · D + q). -/
theorem reduce_tiles (p : Mat (nT * G) D) (hc : (⟨2, ![nT * G, D]⟩ : Shape).ShapeCasts ⟨3, ![nT, G, D]⟩)
    (hr : (⟨3, ![nT, G, D]⟩ : Shape).ReducesTo [0] ⟨2, ![G, D]⟩) (hu : 0 < (⟨0, ![]⟩ : Shape).numel) :
    Host.reduceAdd (F := Ideal) (φ := .f32) (shapeCast ⟨3, ![nT, G, D]⟩ p hc)
      (constant ⟨0, ![]⟩ .f32 0x00000000#32) hr hu = sumTiles p := by
  funext j
  have hR : (⟨3, ![nT, G, D]⟩ : Shape).Reduces [0] ⟨2, ![G, D]⟩ := ⟨hr.1, Nat.zero_lt_two, hr.2⟩
  show Ideal.hostReduceAdd hr (shapeCast ⟨3, ![nT, G, D]⟩ p hc) (Ideal.ofBits .f32 0x00000000#32) j = _
  rw [Ideal.hostReduceAdd_single hr hR, Ideal.ofBits_zero_f32, zero_add]
  show ∑ t : Fin nT, shapeCast ⟨3, ![nT, G, D]⟩ p hc (hR.lift j t) = _
  unfold sumTiles
  refine Finset.sum_congr rfl fun t _ => ?_
  refine shapeCast_apply p hc _ _ ?_
  rw [Shape.rowMajor_val_two, Shape.rowMajor_val_three]
  have e0 : (hR.lift j t 0).val = t.val := rfl
  have e1 : (hR.lift j t 1).val = (j 0).val := rfl
  have e2 : (hR.lift j t 2).val = (j 1).val := rfl
  show (t.val * G + (j 0).val) * D + (j 1).val
    = ((hR.lift j t 0).val * G + (hR.lift j t 1).val) * D + (hR.lift j t 2).val
  rw [e0, e1, e2]

/-- On 32-bit words, a select on "the word is negative when read signed" is the `if` on its signed value. -/
theorem select_slt_zero {α : Type} (w : BitVec 32) (a b : α) :
    Scalar.select (IntOp.cmpi .slt w 0#32) a b = if w.toInt < 0 then a else b := by
  unfold Scalar.select IntOp.cmpi
  have h0 : (0#32 : BitVec 32).toInt = 0 := by decide
  by_cases h : w.toInt < 0
  · have hs : w.slt 0#32 = true := by rw [BitVec.slt, h0]; exact decide_eq_true h
    rw [if_pos h]
    simp only [hs]
    rfl
  · have hs : w.slt 0#32 = false := by rw [BitVec.slt, h0]; exact decide_eq_false h
    rw [if_neg h]
    simp only [hs]
    rfl

/-- The column of index words read at row e is word e. -/
theorem column_apply {α : Type} (hb1 : (⟨1, ![n]⟩ : Shape).BroadcastsInDim ⟨2, ![n, 1]⟩ ![0])
    (x : (⟨1, ![n]⟩ : Shape).Idx → α) (e : Fin n) :
    broadcastInDim ⟨2, ![n, 1]⟩ ![0] hb1 x (ixP e) = x (ix1 e) := by
  refine broadcastInDim_apply _ hb1 x (ixP e) (ix1 e) fun a => ?_
  match a with
  | ⟨0, _⟩ =>
    show e.val = if n = 1 then 0 else e.val
    split
    · have := e.isLt; omega
    · rfl

/-- The accumulating row scatter into the zero table: at (r, q) zero plus the updates that land there, which are the
    updates (e, q) over the positions e whose index word reads r signed. -/
theorem scatter_segsum (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (hb0 : (⟨0, ![]⟩ : Shape).BroadcastsInDim ⟨2, ![N, C]⟩ ![])
    (hb1 : (⟨1, ![n]⟩ : Shape).BroadcastsInDim ⟨2, ![n, 1]⟩ ![0]) (idx : Ids n) (upd : Mat n C) :
    Host.scatterAdd (F := Ideal) (φ := .f32) d
      (broadcastInDim ⟨2, ![N, C]⟩ ![] hb0 (constant ⟨0, ![]⟩ .f32 0x00000000#32))
      (broadcastInDim ⟨2, ![n, 1]⟩ ![0] hb1 idx) upd = segsum N upd idx := by
  funext i
  show Ideal.hostScatterAdd d _ (broadcastInDim ⟨2, ![n, 1]⟩ ![0] hb1 idx) upd i = _
  unfold Ideal.hostScatterAdd
  have hz : broadcastInDim ⟨2, ![N, C]⟩ ![] hb0 (constant (F := Ideal) ⟨0, ![]⟩ .f32 0x00000000#32) i = 0 :=
    Ideal.ofBits_zero_f32
  rw [hz, zero_add, RowIndex.scatter_rows_sum d hu hi hs hv]
  unfold segsum
  simp only [column_apply hb1 idx]
  rfl

/-- The column of normalised index words read at row e: word e, with the table's height added when it reads negative. -/
theorem wrapped_column_apply (hbS : (⟨0, ![]⟩ : Shape).BroadcastsInDim ⟨1, ![n]⟩ ![])
    (hb1 : (⟨1, ![n]⟩ : Shape).BroadcastsInDim ⟨2, ![n, 1]⟩ ![0]) (idx : Ids n) (e : Fin n) :
    broadcastInDim ⟨2, ![n, 1]⟩ ![0] hb1
      (select (cmpi .slt idx (broadcastInDim ⟨1, ![n]⟩ ![] hbS (constantI ⟨0, ![]⟩ 32 0#32)))
        (addi idx (broadcastInDim ⟨1, ![n]⟩ ![] hbS (constantI ⟨0, ![]⟩ 32 (BitVec.ofNat 32 N)))) idx) (ixP e)
      = wrapWord N (idx (ix1 e)) :=
  (column_apply hb1 _ e).trans
    (select_slt_zero (idx (ix1 e)) (idx (ix1 e) + BitVec.ofNat 32 N) (idx (ix1 e)))

/-- The row gather at the column of normalised words: at (e, q) the table's row named by word e, normalised and
    clamped, at column q. -/
theorem gather_take (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (hbS : (⟨0, ![]⟩ : Shape).BroadcastsInDim ⟨1, ![n]⟩ ![])
    (hb1 : (⟨1, ![n]⟩ : Shape).BroadcastsInDim ⟨2, ![n, 1]⟩ ![0]) (T : Mat N C) (idx : Ids n) :
    Host.gather d T (broadcastInDim ⟨2, ![n, 1]⟩ ![0] hb1
      (select (cmpi .slt idx (broadcastInDim ⟨1, ![n]⟩ ![] hbS (constantI ⟨0, ![]⟩ 32 0#32)))
        (addi idx (broadcastInDim ⟨1, ![n]⟩ ![] hbS (constantI ⟨0, ![]⟩ 32 (BitVec.ofNat 32 N)))) idx))
      = take hN T idx := by
  funext i
  obtain ⟨e, j, rfl⟩ : ∃ (e : Fin n) (j : Fin C), i = ij e j := ⟨i 0, i 1, (ij_eta i).symm⟩
  rw [RowIndex.gather_rows d hoff hcoll hob hsim hivd T _ e j hN]
  unfold take
  refine congrArg T ?_
  funext a
  match a with
  | ⟨0, _⟩ =>
    apply Fin.ext
    exact congrArg (fun w : BitVec 32 => min w.toInt.toNat (N - 1)) (wrapped_column_apply (N := N) hbS hb1 idx e)
  | ⟨1, _⟩ => rfl

/-! ## The same equations at the program's literal extents -/

example (b : FVec Ideal ⟨1, ![128]⟩ .f32) (h : (⟨1, ![128]⟩ : Shape).ShapeCasts ⟨2, ![1, 128]⟩) :
    shapeCast ⟨2, ![1, 128]⟩ b h = asRow b := reshape_asRow b h

example (idx : IVec ⟨1, ![640000]⟩ 32) (h : (⟨1, ![640000]⟩ : Shape).ShapeCasts ⟨2, ![1, 640000]⟩) :
    shapeCast ⟨2, ![1, 640000]⟩ idx h = idsRow idx := reshape_idsRow idx h

example (idx : IVec ⟨1, ![40000]⟩ 32) (h : (⟨1, ![40000]⟩ : Shape).ShapeCasts ⟨2, ![40000, 1]⟩) :
    shapeCast ⟨2, ![40000, 1]⟩ idx h = idsCol idx := reshape_idsCol idx h

example (p : FVec Ideal ⟨2, ![8000, 128]⟩ .f32)
    (hc : (⟨2, ![8000, 128]⟩ : Shape).ShapeCasts ⟨3, ![125, 64, 128]⟩)
    (hr : (⟨3, ![125, 64, 128]⟩ : Shape).ReducesTo [0] ⟨2, ![64, 128]⟩) (hu : 0 < (⟨0, ![]⟩ : Shape).numel) :
    Host.reduceAdd (F := Ideal) (shapeCast ⟨3, ![125, 64, 128]⟩ p hc) (constant ⟨0, ![]⟩ .f32 0x00000000#32) hr hu
      = sumTiles (nT := 125) (G := 64) (D := 128) p :=
  reduce_tiles (nT := 125) (G := 64) (D := 128) p hc hr hu

example (p : FVec Ideal ⟨2, ![1280, 128]⟩ .f32)
    (hc : (⟨2, ![1280, 128]⟩ : Shape).ShapeCasts ⟨3, ![20, 64, 128]⟩)
    (hr : (⟨3, ![20, 64, 128]⟩ : Shape).ReducesTo [0] ⟨2, ![64, 128]⟩) (hu : 0 < (⟨0, ![]⟩ : Shape).numel) :
    Host.reduceAdd (F := Ideal) (shapeCast ⟨3, ![20, 64, 128]⟩ p hc) (constant ⟨0, ![]⟩ .f32 0x00000000#32) hr hu
      = sumTiles (nT := 20) (G := 64) (D := 128) p :=
  reduce_tiles (nT := 20) (G := 64) (D := 128) p hc hr hu

example (wf : ScatterDims.WF ⟨2, ![40000, 128]⟩ ⟨2, ![640000, 1]⟩ ⟨2, ![640000, 128]⟩ [1] [0] [0] 1)
    (hb0 : (⟨0, ![]⟩ : Shape).BroadcastsInDim ⟨2, ![40000, 128]⟩ (![] : Fin 0 → Fin (⟨2, ![40000, 128]⟩ : Shape).rank))
    (hb1 : (⟨1, ![640000]⟩ : Shape).BroadcastsInDim ⟨2, ![640000, 1]⟩ (![0] : Fin 1 → Fin (⟨2, ![640000, 1]⟩ : Shape).rank))
    (idx : IVec ⟨1, ![640000]⟩ 32) (upd : FVec Ideal ⟨2, ![640000, 128]⟩ .f32) :
    Host.scatterAdd (F := Ideal)
        ({ updateWindowDims := [1], insertedWindowDims := [0], scatterDimsToOperandDims := [0], indexVectorDim := 1, wf := wf } :
          ScatterDims ⟨2, ![40000, 128]⟩ ⟨2, ![640000, 1]⟩ ⟨2, ![640000, 128]⟩)
        (broadcastInDim ⟨2, ![40000, 128]⟩ ![] hb0 (constant ⟨0, ![]⟩ .f32 0x00000000#32))
        (broadcastInDim ⟨2, ![640000, 1]⟩ ![0] hb1 idx) upd
      = segsum 40000 upd idx :=
  scatter_segsum _ rfl rfl rfl rfl hb0 hb1 idx upd

example (wf : GatherDims.WF ⟨2, ![40000, 128]⟩ ⟨2, ![640000, 1]⟩ ⟨2, ![640000, 128]⟩ [1] [0] [] [0] [] 1 ![1, 128])
    (hbS : (⟨0, ![]⟩ : Shape).BroadcastsInDim ⟨1, ![640000]⟩ (![] : Fin 0 → Fin (⟨1, ![640000]⟩ : Shape).rank))
    (hb1 : (⟨1, ![640000]⟩ : Shape).BroadcastsInDim ⟨2, ![640000, 1]⟩ (![0] : Fin 1 → Fin (⟨2, ![640000, 1]⟩ : Shape).rank))
    (x : FVec Ideal ⟨2, ![40000, 128]⟩ .f32) (idx : IVec ⟨1, ![640000]⟩ 32) :
    Host.gather
        ({ offsetDims := [1], collapsedSliceDims := [0], operandBatchingDims := [], startIndicesBatchingDims := [],
           startIndexMap := [0], indexVectorDim := 1, sliceSizes := ![1, 128], wf := wf } :
          GatherDims ⟨2, ![40000, 128]⟩ ⟨2, ![640000, 1]⟩ ⟨2, ![640000, 128]⟩)
        x (broadcastInDim ⟨2, ![640000, 1]⟩ ![0] hb1
          (select (cmpi .slt idx (broadcastInDim ⟨1, ![640000]⟩ ![] hbS (constantI ⟨0, ![]⟩ 32 0#32)))
            (addi idx (broadcastInDim ⟨1, ![640000]⟩ ![] hbS (constantI ⟨0, ![]⟩ 32 40000#32))) idx))
      = take (N := 40000) (by decide) x idx :=
  gather_take (by decide) _ rfl rfl rfl rfl rfl hbS hb1 x idx

end

end GN.HostAt

end
-- ==== Proof.Chain.lean ====
/-
  What the kernel program's three result buffers hold after its run, as the Spec functions of the argument arrays.

  The fold of buffer contents through the program's ten segments is read segment by segment: each pallas_call's
  output arrays are the Spec function of what the call is handed (the region modules), what it is handed is either an
  argument as launched, an earlier call's output carried unchanged to the call, or a stretch of host operations applied
  to such (a bias re-laid as a row, index words re-laid as a row or a column, the two node terms gathered onto the
  edges and added, the new edges summed by receiver and by sender, the per-tile sums added over the tiles).
-/
import proofs.«409440_j63694365000381_3_alg».proof.Proof.Walk
import proofs.«409440_j63694365000381_3_alg».proof.Proof.Reg0
import proofs.«409440_j63694365000381_3_alg».proof.Proof.Reg1
import proofs.«409440_j63694365000381_3_alg».proof.Proof.Reg2
import proofs.«409440_j63694365000381_3_alg».proof.Proof.Reg3
import proofs.«409440_j63694365000381_3_alg».proof.Proof.Reg4
import proofs.«409440_j63694365000381_3_alg».proof.Proof.HostAt
import proofs.«409440_j63694365000381_3_alg».proof.Proof.Spec

set_option maxRecDepth 16384

noncomputable section

namespace Cert.KernelIdeal.Chain

open Idealize.ShloMosaic Idealize.ShloMosaic.TcCoe Idealize.ShloMosaic.ValueIdx
open Idealize.SL.Sem
open Cert.KernelIdeal Cert.KernelIdeal.Gen Cert.KernelIdeal.Walk

variable (m : (ℓ : Loc nD τ sig) → Buf (Elt Ideal) ℓ) (ρ : Dev nD → PrngReg) (c : Dev nD)

/-! ## The argument arrays -/

abbrev aEf : GN.Mat 640000 128 := m ((c : Thread nD τ).loc main_arg0)
abbrev aNf : GN.Mat 40000 128 := m ((c : Thread nD τ).loc main_arg1)
abbrev aGf : GN.Mat 64 128 := m ((c : Thread nD τ).loc main_arg2)
abbrev aSnd : GN.Ids 640000 := m ((c : Thread nD τ).loc main_arg3)
abbrev aRcv : GN.Ids 640000 := m ((c : Thread nD τ).loc main_arg4)
abbrev aEgid : GN.Ids 640000 := m ((c : Thread nD τ).loc main_arg5)
abbrev aNgid : GN.Ids 40000 := m ((c : Thread nD τ).loc main_arg6)
abbrev aWe : GN.Mat 128 128 := m ((c : Thread nD τ).loc main_arg7)
abbrev aBe : GN.Vec1 128 := m ((c : Thread nD τ).loc main_arg8)
abbrev aWs : GN.Mat 128 128 := m ((c : Thread nD τ).loc main_arg9)
abbrev aBs : GN.Vec1 128 := m ((c : Thread nD τ).loc main_arg10)
abbrev aWr : GN.Mat 128 128 := m ((c : Thread nD τ).loc main_arg11)
abbrev aBr : GN.Vec1 128 := m ((c : Thread nD τ).loc main_arg12)
abbrev aWue : GN.Mat 128 128 := m ((c : Thread nD τ).loc main_arg13)
abbrev aBue : GN.Vec1 128 := m ((c : Thread nD τ).loc main_arg14)
abbrev aWn : GN.Mat 128 128 := m ((c : Thread nD τ).loc main_arg15)
abbrev aBn : GN.Vec1 128 := m ((c : Thread nD τ).loc main_arg16)
abbrev aWi : GN.Mat 128 128 := m ((c : Thread nD τ).loc main_arg17)
abbrev aBi : GN.Vec1 128 := m ((c : Thread nD τ).loc main_arg18)
abbrev aWo : GN.Mat 128 128 := m ((c : Thread nD τ).loc main_arg19)
abbrev aBo : GN.Vec1 128 := m ((c : Thread nD τ).loc main_arg20)
abbrev aWun : GN.Mat 128 128 := m ((c : Thread nD τ).loc main_arg21)
abbrev aBun : GN.Vec1 128 := m ((c : Thread nD τ).loc main_arg22)
abbrev aWhn : GN.Mat 128 128 := m ((c : Thread nD τ).loc main_arg23)
abbrev aBhn : GN.Vec1 128 := m ((c : Thread nD τ).loc main_arg24)
abbrev aWhe : GN.Mat 128 128 := m ((c : Thread nD τ).loc main_arg25)
abbrev aBhe : GN.Vec1 128 := m ((c : Thread nD τ).loc main_arg26)
abbrev aWhu : GN.Mat 128 128 := m ((c : Thread nD τ).loc main_arg27)
abbrev aBhu : GN.Vec1 128 := m ((c : Thread nD τ).loc main_arg28)

/-- The new edges, nodes and graph features as the kernel computes them, of the argument arrays. -/
abbrev kE : GN.Mat (125 * 5120) 128 :=
  GN.kEdges (nTe := 125) (Te := 5120) (nTn := 20) (Tn := 2000) (G := 64) (D := 128) (by decide)
    (aEf m c) (aNf m c) (aGf m c) (aSnd m c) (aRcv m c) (aEgid m c)
    (aWe m c) (aWs m c) (aWr m c) (aWue m c) (aBe m c) (aBs m c) (aBr m c) (aBue m c)
abbrev kN : GN.Mat (20 * 2000) 128 :=
  GN.kNodes (nTe := 125) (Te := 5120) (nTn := 20) (Tn := 2000) (G := 64) (D := 128)
    (aNf m c) (aGf m c) (aSnd m c) (aRcv m c) (aNgid m c)
    (aWn m c) (aWi m c) (aWo m c) (aWun m c) (aBn m c) (aBi m c) (aBo m c) (aBun m c) (kE m c)
abbrev kG : GN.Mat 64 128 :=
  GN.kGlobals (nTe := 125) (Te := 5120) (nTn := 20) (Tn := 2000) (G := 64) (D := 128)
    (aGf m c) (aEgid m c) (aNgid m c) (aWhn m c) (aWhe m c) (aWhu m c) (aBhn m c) (aBhe m c) (aBhu m c) (kE m c) (kN m c)

/-! ## The first two pallas_calls: the linear layers of the node and graph features -/

theorem fs_eq : W4 m ρ c (Proc.devRef .tc main_v2_0) = GN.lin (aNf m c) (aWs m c) (aBs m c) := by
  rw [w4_v2_0, Reg0.arr0_5 (V1 m ρ) c]
  show GN.linRow (W1 m ρ c (Proc.devRef .tc main_arg1)) (W1 m ρ c (Proc.devRef .tc main_arg9)) (W1 m ρ c (Proc.devRef .tc main_v0)) = _
  rw [at1 m ρ c main_arg1 (by decide), at1 m ρ c main_arg9 (by decide), w1_v0]
  show GN.linRow _ _ (shapeCast S1x128 (m ((c : Thread nD τ).loc main_arg10)) shapeCasts_S128_S1x128) = _
  rw [GN.HostAt.reshape_asRow]
  rfl

theorem fr_eq : W4 m ρ c (Proc.devRef .tc main_v2_1) = GN.lin (aNf m c) (aWr m c) (aBr m c) := by
  rw [w4_v2_1, Reg0.arr0_6 (V1 m ρ) c]
  show GN.linRow (W1 m ρ c (Proc.devRef .tc main_arg1)) (W1 m ρ c (Proc.devRef .tc main_arg11)) (W1 m ρ c (Proc.devRef .tc main_v1)) = _
  rw [at1 m ρ c main_arg1 (by decide), at1 m ρ c main_arg11 (by decide), w1_v1]
  show GN.linRow _ _ (shapeCast S1x128 (m ((c : Thread nD τ).loc main_arg12)) shapeCasts_S128_S1x128) = _
  rw [GN.HostAt.reshape_asRow]
  rfl

theorem fue_eq : W5 m ρ c (Proc.devRef .tc main_v6_0) = GN.lin (aGf m c) (aWue m c) (aBue m c) := by
  rw [w5_v6_0, Reg1.arr1_7 (V3 m ρ) c]
  show GN.linRow (W3 m ρ c (Proc.devRef .tc main_arg2)) (W3 m ρ c (Proc.devRef .tc main_arg13)) (W3 m ρ c (Proc.devRef .tc main_v3)) = _
  rw [at3 m ρ c main_arg2 (by decide) (by decide) (by decide), at3 m ρ c main_arg13 (by decide) (by decide) (by decide), w3_v3, at2 m ρ c main_arg14 (by decide) (by decide)]
  show GN.linRow _ _ (shapeCast S1x128 (m ((c : Thread nD τ).loc main_arg14)) shapeCasts_S128_S1x128) = _
  rw [GN.HostAt.reshape_asRow]
  rfl

theorem fun_eq : W7 m ρ c (Proc.devRef .tc main_v6_1) = GN.lin (aGf m c) (aWun m c) (aBun m c) := by
  rw [w7_v6_1, Reg1.arr1_8 (V3 m ρ) c]
  show GN.linRow (W3 m ρ c (Proc.devRef .tc main_arg2)) (W3 m ρ c (Proc.devRef .tc main_arg21)) (W3 m ρ c (Proc.devRef .tc main_v4)) = _
  rw [at3 m ρ c main_arg2 (by decide) (by decide) (by decide), at3 m ρ c main_arg21 (by decide) (by decide) (by decide), w3_v4, at2 m ρ c main_arg22 (by decide) (by decide)]
  show GN.linRow _ _ (shapeCast S1x128 (m ((c : Thread nD τ).loc main_arg22)) shapeCasts_S128_S1x128) = _
  rw [GN.HostAt.reshape_asRow]
  rfl

theorem fwhu_eq : W9 m ρ c (Proc.devRef .tc main_v6_2) = GN.lin (aGf m c) (aWhu m c) (aBhu m c) := by
  rw [w9_v6_2, Reg1.arr1_9 (V3 m ρ) c]
  show GN.linRow (W3 m ρ c (Proc.devRef .tc main_arg2)) (W3 m ρ c (Proc.devRef .tc main_arg27)) (W3 m ρ c (Proc.devRef .tc main_v5)) = _
  rw [at3 m ρ c main_arg2 (by decide) (by decide) (by decide), at3 m ρ c main_arg27 (by decide) (by decide) (by decide), w3_v5, at2 m ρ c main_arg28 (by decide) (by decide)]
  show GN.linRow _ _ (shapeCast S1x128 (m ((c : Thread nD τ).loc main_arg28)) shapeCasts_S128_S1x128) = _
  rw [GN.HostAt.reshape_asRow]
  rfl

/-! ## The two node terms, gathered onto the edges and added -/

theorem pre_eq : W5 m ρ c (Proc.devRef .tc main_v21)
    = GN.add (GN.take (N := 40000) (by decide) (GN.lin (aNf m c) (aWs m c) (aBs m c)) (aSnd m c))
        (GN.take (N := 40000) (by decide) (GN.lin (aNf m c) (aWr m c) (aBr m c)) (aRcv m c)) := by
  rw [w5_v21, fs_eq, fr_eq, at4 m ρ c main_arg3 (by decide) (by decide) (by decide) (by decide), at4 m ρ c main_arg4 (by decide) (by decide) (by decide) (by decide)]
  rw [GN.HostAt.gather_take (N := 40000) (by decide) _ rfl rfl rfl rfl rfl, GN.HostAt.gather_take (N := 40000) (by decide) _ rfl rfl rfl rfl rfl]
  rfl

/-! ## The edge kernel -/

theorem e5_arg0 : V5 m ρ c main_arg0 = aEf m c := at5 m ρ c main_arg0 (by decide) (by decide) (by decide) (by decide) (by decide)
theorem e5_arg7 : V5 m ρ c main_arg7 = aWe m c := at5 m ρ c main_arg7 (by decide) (by decide) (by decide) (by decide) (by decide)
theorem e5_v23 : V5 m ρ c main_v23 = GN.asRow (aBe m c) := by
  show W5 m ρ c (Proc.devRef .tc main_v23) = _
  rw [w5_v23, at4 m ρ c main_arg8 (by decide) (by decide) (by decide) (by decide)]
  exact GN.HostAt.reshape_asRow _ _
theorem e5_v22 : V5 m ρ c main_v22 = GN.idsRow (aEgid m c) := by
  show W5 m ρ c (Proc.devRef .tc main_v22) = _
  rw [w5_v22, at4 m ρ c main_arg5 (by decide) (by decide) (by decide) (by decide)]
  exact GN.HostAt.reshape_idsRow _ _

theorem edges_arr : (dat2 (V5 m ρ) c).arrAt 6 cfg2.N = kE m c := by
  rw [Reg2.arr2_6 (V5 m ρ) c, e5_arg0, e5_arg7, e5_v23, e5_v22]
  rw [show V5 m ρ c main_v21 = _ from pre_eq m ρ c, show V5 m ρ c main_v6_0 = _ from fue_eq m ρ c]
  rfl

theorem epart_arr : (dat2 (V5 m ρ) c).arrAt 7 cfg2.N
    = GN.edgePartK (nT := 125) (T := 5120) (G := 64) (D := 128) (kE m c) (GN.idsRow (aEgid m c)) := by
  rw [Reg2.arr2_7 (V5 m ρ) c, e5_arg0, e5_arg7, e5_v23, e5_v22]
  rw [show V5 m ρ c main_v21 = _ from pre_eq m ρ c, show V5 m ρ c main_v6_0 = _ from fue_eq m ρ c]
  rfl

/-! ## The host operations after the edge kernel -/

theorem sege_eq : W7 m ρ c (Proc.devRef .tc main_v26)
    = GN.sumTiles (GN.edgePartK (nT := 125) (T := 5120) (G := 64) (D := 128) (kE m c) (GN.idsRow (aEgid m c))) := by
  rw [w7_v26, w6_v24_1, epart_arr]
  exact GN.HostAt.reduce_tiles (nT := 125) (G := 64) (D := 128) _ _ _ _

theorem segr_eq : W7 m ρ c (Proc.devRef .tc main_v29) = GN.segsum 40000 (kE m c) (aRcv m c) := by
  rw [w7_v29, w6_v24_0, edges_arr, at6 m ρ c main_arg4 (by decide) (by decide) (by decide) (by decide) (by decide) (by decide)]
  exact GN.HostAt.scatter_segsum _ rfl rfl rfl rfl _ _ _ _

theorem segs_eq : W7 m ρ c (Proc.devRef .tc main_v32) = GN.segsum 40000 (kE m c) (aSnd m c) := by
  rw [w7_v32, w6_v24_0, edges_arr, at6 m ρ c main_arg3 (by decide) (by decide) (by decide) (by decide) (by decide) (by decide)]
  exact GN.HostAt.scatter_segsum _ rfl rfl rfl rfl _ _ _ _

/-! ## The node kernel -/

theorem e7_arg1 : V7 m ρ c main_arg1 = aNf m c := at7 m ρ c main_arg1 (by decide) (by decide) (by decide) (by decide) (by decide) (by decide) (by decide)
theorem e7_arg15 : V7 m ρ c main_arg15 = aWn m c := at7 m ρ c main_arg15 (by decide) (by decide) (by decide) (by decide) (by decide) (by decide) (by decide)
theorem e7_arg17 : V7 m ρ c main_arg17 = aWi m c := at7 m ρ c main_arg17 (by decide) (by decide) (by decide) (by decide) (by decide) (by decide) (by decide)
theorem e7_arg19 : V7 m ρ c main_arg19 = aWo m c := at7 m ρ c main_arg19 (by decide) (by decide) (by decide) (by decide) (by decide) (by decide) (by decide)
theorem e7_v33 : V7 m ρ c main_v33 = GN.idsCol (aNgid m c) := by
  show W7 m ρ c (Proc.devRef .tc main_v33) = _
  rw [w7_v33, at6 m ρ c main_arg6 (by decide) (by decide) (by decide) (by decide) (by decide) (by decide)]
  exact GN.HostAt.reshape_idsCol _ _
theorem e7_v34 : V7 m ρ c main_v34 = GN.asRow (aBn m c) := by
  show W7 m ρ c (Proc.devRef .tc main_v34) = _
  rw [w7_v34, at6 m ρ c main_arg16 (by decide) (by decide) (by decide) (by decide) (by decide) (by decide)]
  exact GN.HostAt.reshape_asRow _ _
theorem e7_v35 : V7 m ρ c main_v35 = GN.asRow (aBi m c) := by
  show W7 m ρ c (Proc.devRef .tc main_v35) = _
  rw [w7_v35, at6 m ρ c main_arg18 (by decide) (by decide) (by decide) (by decide) (by decide) (by decide)]
  exact GN.HostAt.reshape_asRow _ _
theorem e7_v36 : V7 m ρ c main_v36 = GN.asRow (aBo m c) := by
  show W7 m ρ c (Proc.devRef .tc main_v36) = _
  rw [w7_v36, at6 m ρ c main_arg20 (by decide) (by decide) (by decide) (by decide) (by decide) (by decide)]
  exact GN.HostAt.reshape_asRow _ _

theorem nodes_arr : (dat3 (V7 m ρ) c).arrAt 11 cfg3.N = kN m c := by
  rw [Reg3.arr3_11 (V7 m ρ) c, e7_arg1, e7_arg15, e7_arg17, e7_arg19, e7_v33, e7_v34, e7_v35, e7_v36]
  rw [show V7 m ρ c main_v29 = _ from segr_eq m ρ c, show V7 m ρ c main_v32 = _ from segs_eq m ρ c,
    show V7 m ρ c main_v6_1 = _ from fun_eq m ρ c]
  rfl

theorem npart_arr : (dat3 (V7 m ρ) c).arrAt 12 cfg3.N
    = GN.nodePartK (nT := 20) (T := 2000) (G := 64) (D := 128) (kN m c) (GN.idsCol (aNgid m c)) := by
  rw [Reg3.arr3_12 (V7 m ρ) c, e7_arg1, e7_arg15, e7_arg17, e7_arg19, e7_v33, e7_v34, e7_v35, e7_v36]
  rw [show V7 m ρ c main_v29 = _ from segr_eq m ρ c, show V7 m ρ c main_v32 = _ from segs_eq m ρ c,
    show V7 m ρ c main_v6_1 = _ from fun_eq m ρ c]
  rfl

/-! ## The host operations after the node kernel, and the graph kernel -/

theorem segn_eq : W9 m ρ c (Proc.devRef .tc main_v39)
    = GN.sumTiles (GN.nodePartK (nT := 20) (T := 2000) (G := 64) (D := 128) (kN m c) (GN.idsCol (aNgid m c))) := by
  rw [w9_v39, w8_v37_1, npart_arr]
  exact GN.HostAt.reduce_tiles (nT := 20) (G := 64) (D := 128) _ _ _ _

theorem e9_v26 : V9 m ρ c main_v26
    = GN.sumTiles (GN.edgePartK (nT := 125) (T := 5120) (G := 64) (D := 128) (kE m c) (GN.idsRow (aEgid m c))) := by
  show W9 m ρ c (Proc.devRef .tc main_v26) = _
  rw [w9_v26, sege_eq]
theorem e9_arg25 : V9 m ρ c main_arg25 = aWhe m c := at9 m ρ c main_arg25 (by decide) (by decide) (by decide) (by decide) (by decide) (by decide) (by decide) (by decide) (by decide)
theorem e9_arg23 : V9 m ρ c main_arg23 = aWhn m c := at9 m ρ c main_arg23 (by decide) (by decide) (by decide) (by decide) (by decide) (by decide) (by decide) (by decide) (by decide)
theorem e9_v40 : V9 m ρ c main_v40 = GN.asRow (aBhe m c) := by
  show W9 m ρ c (Proc.devRef .tc main_v40) = _
  rw [w9_v40, at8 m ρ c main_arg26 (by decide) (by decide) (by decide) (by decide) (by decide) (by decide) (by decide) (by decide)]
  exact GN.HostAt.reshape_asRow _ _
theorem e9_v41 : V9 m ρ c main_v41 = GN.asRow (aBhn m c) := by
  show W9 m ρ c (Proc.devRef .tc main_v41) = _
  rw [w9_v41, at8 m ρ c main_arg24 (by decide) (by decide) (by decide) (by decide) (by decide) (by decide) (by decide) (by decide)]
  exact GN.HostAt.reshape_asRow _ _

theorem globals_arr : (dat4 (V9 m ρ) c).arrAt 7 cfg4.N = kG m c := by
  rw [Reg4.arr4_7 (V9 m ρ) c, e9_v26, e9_arg25, e9_arg23, e9_v40, e9_v41]
  rw [show V9 m ρ c main_v39 = _ from segn_eq m ρ c, show V9 m ρ c main_v6_2 = _ from fwhu_eq m ρ c]
  rfl

/-! ## The three results -/

theorem res0 : W10 m ρ c (Proc.devRef .tc main_v24_0) = kE m c := (w10_v24_0 m ρ c).trans (edges_arr m ρ c)
theorem res1 : W10 m ρ c (Proc.devRef .tc main_v37_0) = kN m c := (w10_v37_0 m ρ c).trans (nodes_arr m ρ c)
theorem res2 : W10 m ρ c (Proc.devRef .tc main_v42) = kG m c := (w10_v42 m ρ c).trans (globals_arr m ρ c)

end Cert.KernelIdeal.Chain

end
-- ==== Proof.Bridge.lean ====
/-
  The graph-network block's two readings agree, over the extended reals and over no program.

  The kernels select a row of a small per-graph table by a one-hot weight (1 at the row whose number is the index
  word, 0 elsewhere) and sum; the reference reads the row the word names.  For a word that reads, signed, as a
  number in range the weighted sum has a single nonzero term, the row read (`hot_sum`).  The kernels also sum rows
  by graph tile by tile with the same weights and then add the tiles; re-indexing the pair (tile, position) as the
  row number t · T + j turns this into the reference's sum over the rows whose word is the graph (`sumTiles_partK`).
  What is left in each of the three updates is the order in which the same terms are added; on the extended reals
  addition is commutative and associative, and 0 · x = 0, 1 · x = x for every x, so no finiteness is needed.
-/
import proofs.«409440_j63694365000381_3_alg».proof.Proof.Spec
import Mathlib.Logic.Equiv.Fin.Basic
import Mathlib.Algebra.BigOperators.Fin

open scoped BigOperators

noncomputable section

namespace GN

open Idealize.ShloMosaic Idealize.ShloMosaic.ValueIdx Idealize.ShloMosaic.StableHlo.Predicate

/-- The one-hot weight is 1 at its own word and 0 at every other. -/
theorem hot_eq (w : BitVec 32) (g : Nat) : hot w g = if w = BitVec.ofNat 32 g then 1 else 0 := by
  unfold hot
  split_ifs with h
  · have h1 : ((1#1 : BitVec 1).setWidth 32).toInt = 1 := by decide
    rw [h1]; simp
  · have h0 : ((0#1 : BitVec 1).setWidth 32).toInt = 0 := by decide
    rw [h0]; simp

/-- For a natural below 2^31, a word is that natural's word exactly when it reads, signed, as that natural. -/
theorem word_eq_iff (w : BitVec 32) (g : Nat) (hg : g < 2 ^ 31) :
    w = BitVec.ofNat 32 g ↔ w.toInt = (g : Int) := by
  constructor
  · rintro rfl
    rw [BitVec.toInt_eq_toNat_cond, BitVec.toNat_ofNat]
    have hm : g % 2 ^ 32 = g := Nat.mod_eq_of_lt (by omega)
    rw [hm]; split_ifs <;> omega
  · intro h
    apply BitVec.eq_of_toNat_eq
    rw [BitVec.toNat_ofNat]
    have h1 := BitVec.toInt_eq_toNat_cond w
    have h2 := w.isLt
    split_ifs at h1 <;> omega

/-- The one-hot weight against a row number below 2^31: 1 when the word reads, signed, as that number. -/
theorem hot_eq_toInt (w : BitVec 32) (g : Nat) (hg : g < 2 ^ 31) :
    hot w g = if w.toInt = (g : Int) then 1 else 0 := by
  rw [hot_eq]
  by_cases h : w.toInt = (g : Int)
  · rw [if_pos h, if_pos ((word_eq_iff w g hg).2 h)]
  · rw [if_neg h, if_neg (fun h' => h ((word_eq_iff w g hg).1 h'))]

/-- A one-hot-weighted sum of a table's rows is the row the word names, for a word in range. -/
theorem hot_sum {G D : Nat} (hG : 0 < G) (hG31 : G < 2 ^ 31) (w : BitVec 32)
    (hw : 0 ≤ w.toInt ∧ w.toInt < G) (T : Mat G D) (q : Fin D) :
    ∑ g : Fin G, hot w g.val * T (ix2 g q)
      = T (ix2 ⟨clampRow G (wrapWord G w), clampRow_lt hG _⟩ q) := by
  have hwrap : wrapWord G w = w := by unfold wrapWord; rw [if_neg (by omega)]
  have hclamp : clampRow G (wrapWord G w) = w.toInt.toNat := by
    rw [hwrap]; unfold clampRow; omega
  have hlt : w.toInt.toNat < G := by omega
  have hrow : (⟨clampRow G (wrapWord G w), clampRow_lt hG _⟩ : Fin G) = ⟨w.toInt.toNat, hlt⟩ :=
    Fin.ext hclamp
  rw [hrow, Finset.sum_eq_single (⟨w.toInt.toNat, hlt⟩ : Fin G)]
  · have hv : w.toInt = ((w.toInt.toNat : Nat) : Int) := by omega
    rw [hot_eq_toInt w _ (by omega : w.toInt.toNat < 2 ^ 31), if_pos hv, one_mul]
  · intro g _ hne
    have hgl : g.val < G := g.isLt
    rw [hot_eq_toInt w g.val (by omega), if_neg, zero_mul]
    intro h
    exact hne (Fin.ext (by show g.val = w.toInt.toNat; omega))
  · intro h; exact absurd (Finset.mem_univ _) h

/-- A linear layer whose bias row is a vector read as a row, at an index: the product's entry plus the vector's. -/
theorem linRow_asRow {R K C : Nat} (x : Mat R K) (W : Mat K C) (b : Vec1 C) (i : (⟨2, ![R, C]⟩ : Shape).Idx) :
    linRow x W (asRow b) i = mm x W i + b (ix1 (i 1 : Fin C)) := rfl

/-- The tiles' one-hot-weighted partial sums, added over the tiles, are the sums by index: the double sum over
    tiles t and positions j is the sum over the rows e = t · T + j, and an indicator-weighted sum is the filtered sum. -/
theorem sumTiles_partK {nT T G D : Nat} (hG31 : G < 2 ^ 31) (x : Mat (nT * T) D) (idx : Ids (nT * T)) :
    sumTiles (partK (G := G) x (fun e => idx (ix1 e))) = segsum G x idx := by
  funext i
  have hg : (i 0 : Fin G).val < G := (i 0 : Fin G).isLt
  have hrow : ∀ (t : Fin nT) (h : t.val * G + (i 0 : Fin G).val < nT * G),
      partK (G := G) x (fun e => idx (ix1 e))
          (ix2 (⟨t.val * G + (i 0 : Fin G).val, h⟩ : Fin (nT * G)) (i 1 : Fin D))
        = ∑ j : Fin T, (if (idx (ix1 (finProdFinEquiv (t, j)))).toInt = (((i 0 : Fin G).val : Nat) : Int)
            then x (ix2 (finProdFinEquiv (t, j)) (i 1 : Fin D)) else 0) := by
    intro t h
    have hdiv : (t.val * G + (i 0 : Fin G).val) / G = t.val := by
      rw [Nat.add_comm, Nat.add_mul_div_right _ _ (by omega : 0 < G), Nat.div_eq_of_lt hg, Nat.zero_add]
    have hmod : (t.val * G + (i 0 : Fin G).val) % G = (i 0 : Fin G).val := by
      rw [Nat.add_comm, Nat.add_mul_mod_self_right, Nat.mod_eq_of_lt hg]
    have htile : ∀ j : Fin T,
        tileRow (G := G) (⟨t.val * G + (i 0 : Fin G).val, h⟩ : Fin (nT * G)) j = finProdFinEquiv (t, j) := by
      intro j
      apply Fin.ext
      show (t.val * G + (i 0 : Fin G).val) / G * T + j.val = j.val + T * t.val
      rw [hdiv, Nat.mul_comm, Nat.add_comm]
    show ∑ j : Fin T, hot (idx (ix1 (tileRow (G := G) (⟨t.val * G + (i 0 : Fin G).val, h⟩ : Fin (nT * G)) j)))
          ((t.val * G + (i 0 : Fin G).val) % G)
        * x (ix2 (tileRow (G := G) (⟨t.val * G + (i 0 : Fin G).val, h⟩ : Fin (nT * G)) j) (i 1 : Fin D)) = _
    refine Finset.sum_congr rfl fun j _ => ?_
    rw [htile j, hmod, hot_eq_toInt _ _ (by omega)]
    split_ifs
    · rw [one_mul]
    · rw [zero_mul]
  show ∑ t : Fin nT, partK (G := G) x (fun e => idx (ix1 e))
        (ix2 (⟨t.val * G + (i 0 : Fin G).val, _⟩ : Fin (nT * G)) (i 1 : Fin D))
      = ∑ e ∈ Finset.univ.filter (fun e : Fin (nT * T) => (idx (ix1 e)).toInt = (((i 0 : Fin G).val : Nat) : Int)),
          x (ix2 e (i 1 : Fin D))
  rw [Finset.sum_filter, ← Equiv.sum_comp finProdFinEquiv, Fintype.sum_prod_type]
  exact Finset.sum_congr rfl fun t _ => hrow t _

/-- The edge update: the kernel's one-hot-weighted sum of the per-graph table is the reference's row read, and the
    two programs associate the same four terms differently. -/
theorem kEdges_eq {nTe Te nTn Tn G D : Nat} (hN : 0 < nTn * Tn) (hG : 0 < G) (hG31 : G < 2 ^ 31)
    (ef : Mat (nTe * Te) D) (nf : Mat (nTn * Tn) D) (gf : Mat G D) (snd rcv egid : Ids (nTe * Te))
    (We Ws Wr Wue : Mat D D) (be bs br bue : Vec1 D)
    (hegid : ∀ e : Fin (nTe * Te), 0 ≤ (egid (ix1 e)).toInt ∧ (egid (ix1 e)).toInt < G) :
    kEdges hN ef nf gf snd rcv egid We Ws Wr Wue be bs br bue
      = refEdges hN hG ef nf gf snd rcv egid We Ws Wr Wue be bs br bue := by
  funext i
  have hs := hot_sum hG hG31 (egid (ix1 (i 0 : Fin (nTe * Te)))) (hegid _) (lin gf Wue bue) (i 1 : Fin D)
  show max ((linRow ef We (asRow be) i + (take hN (lin nf Ws bs) snd i + take hN (lin nf Wr br) rcv i))
        + ∑ g : Fin G, hot (egid (ix1 (i 0 : Fin (nTe * Te)))) g.val * lin gf Wue bue (ix2 g (i 1 : Fin D))) 0
      = max (((linRow ef We (asRow be) i + take hN (lin nf Ws bs) snd i) + take hN (lin nf Wr br) rcv i)
        + lin gf Wue bue (ix2 ⟨clampRow G (wrapWord G (egid (ix1 (i 0 : Fin (nTe * Te))))), clampRow_lt hG _⟩
            (i 1 : Fin D))) 0
  rw [hs]
  congr 1
  ac_rfl

/-- The node update: each of the kernel's three linear layers is a product plus a bias entry, its one-hot-weighted
    sum of the per-graph table is the reference's row read, and the sums re-associate. -/
theorem kNodes_eq {nTe Te nTn Tn G D : Nat} (hG : 0 < G) (hG31 : G < 2 ^ 31)
    (nf : Mat (nTn * Tn) D) (gf : Mat G D) (snd rcv : Ids (nTe * Te)) (ngid : Ids (nTn * Tn))
    (Wn Wi Wo Wun : Mat D D) (bn bi bo bun : Vec1 D)
    (hngid : ∀ r : Fin (nTn * Tn), 0 ≤ (ngid (ix1 r)).toInt ∧ (ngid (ix1 r)).toInt < G)
    (edges : Mat (nTe * Te) D) :
    kNodes nf gf snd rcv ngid Wn Wi Wo Wun bn bi bo bun edges
      = refNodes hG nf gf snd rcv ngid Wn Wi Wo Wun bn bi bo bun edges := by
  funext i
  have hs := hot_sum hG hG31 (ngid (ix1 (i 0 : Fin (nTn * Tn)))) (hngid _) (lin gf Wun bun) (i 1 : Fin D)
  show max (((linRow nf Wn (asRow bn) i
          + (mm (segsum (nTn * Tn) edges rcv) Wi i + bi (ix1 (i 1 : Fin D))))
          + (mm (segsum (nTn * Tn) edges snd) Wo i + bo (ix1 (i 1 : Fin D))))
        + ∑ g : Fin G, hot (ngid (ix1 (i 0 : Fin (nTn * Tn)))) g.val * lin gf Wun bun (ix2 g (i 1 : Fin D))) 0
      = max (((((linRow nf Wn (asRow bn) i + mm (segsum (nTn * Tn) edges rcv) Wi i) + bi (ix1 (i 1 : Fin D)))
          + mm (segsum (nTn * Tn) edges snd) Wo i) + bo (ix1 (i 1 : Fin D)))
        + lin gf Wun bun (ix2 ⟨clampRow G (wrapWord G (ngid (ix1 (i 0 : Fin (nTn * Tn))))), clampRow_lt hG _⟩
            (i 1 : Fin D))) 0
  rw [hs]
  congr 1
  ac_rfl

/-- The graph update: the tiles' partial sums added up are the sums by graph, each linear layer is a product plus a
    bias entry, and the sums re-associate. -/
theorem kGlobals_eq {nTe Te nTn Tn G D : Nat} (hG31 : G < 2 ^ 31)
    (gf : Mat G D) (egid : Ids (nTe * Te)) (ngid : Ids (nTn * Tn))
    (Whn Whe Whu : Mat D D) (bhn bhe bhu : Vec1 D)
    (edges : Mat (nTe * Te) D) (nodes : Mat (nTn * Tn) D) :
    kGlobals gf egid ngid Whn Whe Whu bhn bhe bhu edges nodes
      = refGlobals gf egid ngid Whn Whe Whu bhn bhe bhu edges nodes := by
  have he : sumTiles (edgePartK (G := G) edges (idsRow egid)) = segsum G edges egid :=
    sumTiles_partK hG31 edges egid
  have hn : sumTiles (nodePartK (G := G) nodes (idsCol ngid)) = segsum G nodes ngid :=
    sumTiles_partK hG31 nodes ngid
  funext i
  show (linRow (sumTiles (edgePartK (G := G) edges (idsRow egid))) Whe (asRow bhe) i
        + linRow (sumTiles (nodePartK (G := G) nodes (idsCol ngid))) Whn (asRow bhn) i)
        + (mm gf Whu i + bhu (ix1 (i 1 : Fin D)))
      = (((linRow (segsum G edges egid) Whe (asRow bhe) i + mm (segsum G nodes ngid) Whn i)
          + bhn (ix1 (i 1 : Fin D))) + mm gf Whu i) + bhu (ix1 (i 1 : Fin D))
  rw [he, hn, linRow_asRow (segsum G nodes ngid) Whn bhn]
  ac_rfl

end GN

end
-- ==== Proof.PreGid.lean ====
/-
  The precondition's two index-range conjuncts, read back.

  The precondition is a chain of conjunctions ending in
    jnp.all((edge_gid >= 0) & (edge_gid < 64))  and  jnp.all((node_gid >= 0) & (node_gid < 64)).
  Each jnp.all is a reduction by "and" of a one-bit array over its one axis; the claim that the whole chain is 1
  gives that each conjunct is 1, each reduction being 1 gives that every element of its array is 1, and an element
  being 1 says that the index word there, read signed, is at least 0 and below 64.
-/
import proofs.«409440_j63694365000381_3_alg».proof.Defs
import proofs.«409440_j63694365000381_3_alg».proof.Proof.Spec
import Idealize.ShloMosaic.Lib.ReduceAll
import Idealize.ShloMosaic.Lib.StableHlo.Predicate

noncomputable section

namespace Cert.PreGid

open Idealize.ShloMosaic Idealize.ShloMosaic.ValueIdx
open Cert.Pre_finite_inputs

variable [hPre : Cert.Pre_finite_inputs.Facts]

/-- A scalar's shape has exactly one index. -/
instance : Subsingleton S_.Idx := ⟨fun a b => funext fun d => d.elim0⟩

/-- One element of (x >= 0) & (x < 64), the bounds being scalars broadcast to x's shape: when it is 1 the word of x
    there, read signed, lies in [0, 64). -/
theorem word_range {t : Shape} (hb : S_.BroadcastsInDim t ![]) (x : IVec t 32) (i : t.Idx)
    (h : andi (cmpi .sge x (broadcastInDim t ![] hb (constantI S_ 32 0#32)))
              (cmpi .slt x (broadcastInDim t ![] hb (constantI S_ 32 64#32))) i = 1#1) :
    0 ≤ (x i).toInt ∧ (x i).toInt < 64 := by
  obtain ⟨hge, hlt⟩ := IntOp.andi_eq_one.1 h
  have hge' := IntOp.cmpi_sge.1 hge
  have hlt' := IntOp.cmpi_slt.1 hlt
  rw [StableHlo.Predicate.bcast_scalar hb Facts.h_S_] at hge' hlt'
  have e0 : (0#32 : BitVec 32).toInt = 0 := by decide
  have e64 : (64#32 : BitVec 32).toInt = 64 := by decide
  exact ⟨e0 ▸ hge', e64 ▸ hlt'⟩

/-- The tail of the chain (its last 26 operations), at any value of the conjunction so far: when the chain's result is 1,
    both index arrays lie in [0, 64) at every position. -/
theorem tail_range {F : FTy → Type} [FloatOps F] (a5 : IVec S640000 32) (a6 : IVec S40000 32) (v118 : IVec S_ 1)
    (v119 : FVec F S128 .f32) (h : fn_part7 (F := F) a5 a6 v118 v119 ix0 = 1#1) :
    (∀ i, 0 ≤ (a5 i).toInt ∧ (a5 i).toInt < 64) ∧ (∀ i, 0 ≤ (a6 i).toInt ∧ (a6 i).toInt < 64) := by
  dsimp only [fn_part7, fn_part8] at h
  -- the chain is left-nested: ((so far ∧ edge conjunct) ∧ node conjunct)
  obtain ⟨h1, hN⟩ := IntOp.andi_eq_one.1 h
  obtain ⟨-, hE⟩ := IntOp.andi_eq_one.1 h1
  exact ⟨fun i => word_range _ a5 i (Host.reduce_andi_all _ _ _ _ _ hE i),
    fun i => word_range _ a6 i (Host.reduce_andi_all _ _ _ _ _ hN i)⟩

/-- THE PRECONDITION'S INDEX RANGES: on every device, every edge's graph index and every node's graph index, read
    signed, lies in [0, 64). -/
theorem gid_range (m : (ℓ : Loc Cert.KernelIdeal.nD Cert.KernelIdeal.τ Cert.KernelIdeal.sig) → Buf (Elt Ideal) ℓ) (h : Cert.Pre_KernelIdeal m) (c : Dev Cert.KernelIdeal.nD) :
  (∀ e : Fin 640000, 0 ≤ ((m ((c.tc : Thread Cert.KernelIdeal.nD Cert.KernelIdeal.τ).loc Cert.KernelIdeal.main_arg5) : GN.Ids 640000) (ix1 e)).toInt ∧ ((m ((c.tc : Thread Cert.KernelIdeal.nD Cert.KernelIdeal.τ).loc Cert.KernelIdeal.main_arg5) : GN.Ids 640000) (ix1 e)).toInt < 64)
  ∧ (∀ r : Fin 40000, 0 ≤ ((m ((c.tc : Thread Cert.KernelIdeal.nD Cert.KernelIdeal.τ).loc Cert.KernelIdeal.main_arg6) : GN.Ids 40000) (ix1 r)).toInt ∧ ((m ((c.tc : Thread Cert.KernelIdeal.nD Cert.KernelIdeal.τ).loc Cert.KernelIdeal.main_arg6) : GN.Ids 40000) (ix1 r)).toInt < 64) := by
  have e := congrFun (h c) ix0
  -- the chain's earlier parts each end in the call of the next: unfolding them leaves the tail
  dsimp only [fn, fn_part1, fn_part2, fn_part3, fn_part4, fn_part5, fn_part6] at e
  obtain ⟨hE, hN⟩ := tail_range (F := Ideal) _ _ _ _ e
  exact ⟨fun e => hE (ix1 e), fun r => hN (ix1 r)⟩

end Cert.PreGid

end
-- ==== Proof.RefEdges.lean ====
/-
  The reference's new edges.

  The reference computes four terms and adds them in order: the linear layer of the edge features; the senders'
  linear layer of the node features, read at each edge's sender word; the receivers' linear layer, read at each edge's
  receiver word; the linear layer of the graph features, read at each edge's graph word.  It then takes the larger
  of each entry and zero.

  A linear layer is a contraction over the 128 input features plus the bias, which the program first makes a one-row
  matrix and then repeats on every row.  A row read takes an index word, adds the table's row count when the word is
  negative, and clamps the result into the table; the program hands the read its words as a column.  Each of these is
  identified with the specification's `lin`, `wrapWord` and `take`, and the sum with `refEdges`.
-/
import proofs.«409440_j63694365000381_3_alg».proof.Proof.Gen.ReferenceIdeal.Read
import proofs.«409440_j63694365000381_3_alg».proof.Proof.Spec
import proofs.«409440_j63694365000381_3_alg».proof.Proof.LibPlainDot
import proofs.«409440_j63694365000381_3_alg».proof.Proof.LibRowSum

set_option maxRecDepth 16384

noncomputable section

open Idealize.ShloMosaic Idealize.ShloMosaic.TcCoe Idealize.ShloMosaic.ValueIdx Cert.ReferenceIdeal Cert.ReferenceIdeal.Read
open Idealize.ShloMosaic.StableHlo.Predicate
open scoped BigOperators

namespace Cert.ReferenceIdeal.RefSide

/-- The linear layer on the edge features: the matrix product with the bias added to every row. -/
theorem lin_v3 (x0 : (⟨S640000x128, .f32⟩ : BufTy).Contents (Elt Ideal)) (x7 : (⟨S128x128, .f32⟩ : BufTy).Contents (Elt Ideal))
    (x8 : (⟨S128, .f32⟩ : BufTy).Contents (Elt Ideal)) :
    val_main_v3 (F := Ideal) x0 x7 x8 = GN.lin (R := 640000) (K := 128) (C := 128) x0 x7 x8 := by
  funext i
  obtain ⟨p, q, rfl⟩ : ∃ (p : Fin 640000) (q : Fin 128), i = ix2 p q := ⟨i 0, i 1, eq_ix2 i⟩
  unfold GN.lin GN.linRow GN.mm GN.asRow
  rw [val_main_v3_apply, val_main_v0_apply, val_main_v2_apply, val_main_v1_apply]
  have hl : ∀ k : Fin 128, lidx_main_v0 (ix2 p q) k = ix2 p k := fun k => funext fun a => Fin.ext (by
    match a with
    | ⟨0, _⟩ => rfl
    | ⟨1, _⟩ => rfl)
  have hr : ∀ k : Fin 128, ridx_main_v0 (ix2 p q) k = ix2 k q := fun k => funext fun a => Fin.ext (by
    match a with
    | ⟨0, _⟩ => rfl
    | ⟨1, _⟩ => rfl)
  have hb : idx_main_v1 (idx_main_v2 (ix2 p q)) = ix1 q := funext fun a => Fin.ext (by
    match a with
    | ⟨0, _⟩ => rfl)
  simp only [Ideal.addf_def, hl, hr, hb]

/-- The senders' linear layer on the node features. -/
theorem lin_v7 (x1 : (⟨S40000x128, .f32⟩ : BufTy).Contents (Elt Ideal)) (x9 : (⟨S128x128, .f32⟩ : BufTy).Contents (Elt Ideal))
    (x10 : (⟨S128, .f32⟩ : BufTy).Contents (Elt Ideal)) :
    val_main_v7 (F := Ideal) x1 x9 x10 = GN.lin (R := 40000) (K := 128) (C := 128) x1 x9 x10 := by
  funext i
  obtain ⟨p, q, rfl⟩ : ∃ (p : Fin 40000) (q : Fin 128), i = ix2 p q := ⟨i 0, i 1, eq_ix2 i⟩
  unfold GN.lin GN.linRow GN.mm GN.asRow
  rw [val_main_v7_apply, val_main_v4_apply, val_main_v6_apply, val_main_v5_apply]
  have hl : ∀ k : Fin 128, lidx_main_v4 (ix2 p q) k = ix2 p k := fun k => funext fun a => Fin.ext (by
    match a with
    | ⟨0, _⟩ => rfl
    | ⟨1, _⟩ => rfl)
  have hr : ∀ k : Fin 128, ridx_main_v4 (ix2 p q) k = ix2 k q := fun k => funext fun a => Fin.ext (by
    match a with
    | ⟨0, _⟩ => rfl
    | ⟨1, _⟩ => rfl)
  have hb : idx_main_v5 (idx_main_v6 (ix2 p q)) = ix1 q := funext fun a => Fin.ext (by
    match a with
    | ⟨0, _⟩ => rfl)
  simp only [Ideal.addf_def, hl, hr, hb]

/-- The receivers' linear layer on the node features. -/
theorem lin_v19 (x1 : (⟨S40000x128, .f32⟩ : BufTy).Contents (Elt Ideal)) (x11 : (⟨S128x128, .f32⟩ : BufTy).Contents (Elt Ideal))
    (x12 : (⟨S128, .f32⟩ : BufTy).Contents (Elt Ideal)) :
    val_main_v19 (F := Ideal) x1 x11 x12 = GN.lin (R := 40000) (K := 128) (C := 128) x1 x11 x12 := by
  funext i
  obtain ⟨p, q, rfl⟩ : ∃ (p : Fin 40000) (q : Fin 128), i = ix2 p q := ⟨i 0, i 1, eq_ix2 i⟩
  unfold GN.lin GN.linRow GN.mm GN.asRow
  rw [val_main_v19_apply, val_main_v16_apply, val_main_v18_apply, val_main_v17_apply]
  have hl : ∀ k : Fin 128, lidx_main_v16 (ix2 p q) k = ix2 p k := fun k => funext fun a => Fin.ext (by
    match a with
    | ⟨0, _⟩ => rfl
    | ⟨1, _⟩ => rfl)
  have hr : ∀ k : Fin 128, ridx_main_v16 (ix2 p q) k = ix2 k q := fun k => funext fun a => Fin.ext (by
    match a with
    | ⟨0, _⟩ => rfl
    | ⟨1, _⟩ => rfl)
  have hb : idx_main_v17 (idx_main_v18 (ix2 p q)) = ix1 q := funext fun a => Fin.ext (by
    match a with
    | ⟨0, _⟩ => rfl)
  simp only [Ideal.addf_def, hl, hr, hb]

/-- The linear layer on the graph features. -/
theorem lin_v31 (x2 : (⟨S64x128, .f32⟩ : BufTy).Contents (Elt Ideal)) (x13 : (⟨S128x128, .f32⟩ : BufTy).Contents (Elt Ideal))
    (x14 : (⟨S128, .f32⟩ : BufTy).Contents (Elt Ideal)) :
    val_main_v31 (F := Ideal) x2 x13 x14 = GN.lin (R := 64) (K := 128) (C := 128) x2 x13 x14 := by
  funext i
  obtain ⟨p, q, rfl⟩ : ∃ (p : Fin 64) (q : Fin 128), i = ix2 p q := ⟨i 0, i 1, eq_ix2 i⟩
  unfold GN.lin GN.linRow GN.mm GN.asRow
  rw [val_main_v31_apply, val_main_v28_apply, val_main_v30_apply, val_main_v29_apply]
  have hl : ∀ k : Fin 128, lidx_main_v28 (ix2 p q) k = ix2 p k := fun k => funext fun a => Fin.ext (by
    match a with
    | ⟨0, _⟩ => rfl
    | ⟨1, _⟩ => rfl)
  have hr : ∀ k : Fin 128, ridx_main_v28 (ix2 p q) k = ix2 k q := fun k => funext fun a => Fin.ext (by
    match a with
    | ⟨0, _⟩ => rfl
    | ⟨1, _⟩ => rfl)
  have hb : idx_main_v29 (idx_main_v30 (ix2 p q)) = ix1 q := funext fun a => Fin.ext (by
    match a with
    | ⟨0, _⟩ => rfl)
  simp only [Ideal.addf_def, hl, hr, hb]

/-- The index word as the program normalises it: a negative word has the table's row count added. -/
theorem wrap_eq (N : Nat) (w : BitVec 32) :
    Scalar.select (IntOp.cmpi .slt w 0#32) (IntOp.addi w (BitVec.ofNat 32 N)) w = GN.wrapWord N w := by
  unfold GN.wrapWord Scalar.select IntOp.cmpi IntOp.addi
  by_cases h : w.toInt < 0
  · simp [BitVec.slt, h]
  · simp [BitVec.slt, h]

/-- A row read of a table of 40000 rows: row e of the result is the table's row named by word e, clamped into the table. -/
theorem take_40000 (T : (⟨S40000x128, .f32⟩ : BufTy).Contents (Elt Ideal)) (idx : (⟨S640000, .i32⟩ : BufTy).Contents (Elt Ideal))
    (col : (⟨S640000x1, .i32⟩ : BufTy).Contents (Elt Ideal))
    (hcol : ∀ e : Fin 640000, col (ixP e) = GN.wrapWord 40000 (idx (ix1 e))) :
    Host.gather gather_S40000x128_S640000x1_S640000x128_1_0_n_n_0_1_1128 T col
      = GN.take (N := 40000) (C := 128) (n := 640000) (by decide) T idx := by
  funext i
  obtain ⟨p, q, rfl⟩ : ∃ (p : Fin 640000) (q : Fin 128), i = ix2 p q := ⟨i 0, i 1, eq_ix2 i⟩
  have hij : (ix2 p q : (⟨2, ![640000, 128]⟩ : Shape).Idx) = ij p q := funext fun a => by
    match a with
    | ⟨0, _⟩ => rfl
    | ⟨1, _⟩ => rfl
  rw [hij, RowIndex.gather_rows gather_S40000x128_S640000x1_S640000x128_1_0_n_n_0_1_1128 rfl rfl rfl rfl rfl T col p q (by decide)]
  unfold GN.take GN.clampRow
  congr 1
  funext a
  match a with
  | ⟨0, _⟩ =>
    apply Fin.ext
    show min (col (ixP p)).toInt.toNat (40000 - 1) = min (GN.wrapWord 40000 (idx (ix1 p))).toInt.toNat (40000 - 1)
    rw [hcol p]
  | ⟨1, _⟩ => rfl

/-- A row read of a table of 64 rows. -/
theorem take_64 (T : (⟨S64x128, .f32⟩ : BufTy).Contents (Elt Ideal)) (idx : (⟨S640000, .i32⟩ : BufTy).Contents (Elt Ideal))
    (col : (⟨S640000x1, .i32⟩ : BufTy).Contents (Elt Ideal))
    (hcol : ∀ e : Fin 640000, col (ixP e) = GN.wrapWord 64 (idx (ix1 e))) :
    Host.gather gather_S64x128_S640000x1_S640000x128_1_0_n_n_0_1_1128 T col
      = GN.take (N := 64) (C := 128) (n := 640000) (by decide) T idx := by
  funext i
  obtain ⟨p, q, rfl⟩ : ∃ (p : Fin 640000) (q : Fin 128), i = ix2 p q := ⟨i 0, i 1, eq_ix2 i⟩
  have hij : (ix2 p q : (⟨2, ![640000, 128]⟩ : Shape).Idx) = ij p q := funext fun a => by
    match a with
    | ⟨0, _⟩ => rfl
    | ⟨1, _⟩ => rfl
  rw [hij, RowIndex.gather_rows gather_S64x128_S640000x1_S640000x128_1_0_n_n_0_1_1128 rfl rfl rfl rfl rfl T col p q (by decide)]
  unfold GN.take GN.clampRow
  congr 1
  funext a
  match a with
  | ⟨0, _⟩ =>
    apply Fin.ext
    show min (col (ixP p)).toInt.toNat (64 - 1) = min (GN.wrapWord 64 (idx (ix1 p))).toInt.toNat (64 - 1)
    rw [hcol p]
  | ⟨1, _⟩ => rfl

/-- The gather's index column at position e: word e, normalised against a table of 40000 rows. -/
theorem col_v13 (x3 : (⟨S640000, .i32⟩ : BufTy).Contents (Elt Ideal)) (e : Fin 640000) :
    val_main_v13 (F := Ideal) x3 (ixP e) = GN.wrapWord 40000 (x3 (ix1 e)) := by
  have h : idx_main_v13 (ixP e) = ix1 e := funext fun a => Fin.ext (by
    match a with
    | ⟨0, _⟩ => rfl)
  rw [val_main_v13_apply, h, val_main_v12_apply, val_main_v9_apply, val_main_v11_apply, val_main_v8_apply,
    val_main_v10_apply, val_main_c_apply, val_main_c_0_apply]
  exact wrap_eq 40000 _

/-- The gather's index column at position e: word e, normalised against a table of 40000 rows. -/
theorem col_v25 (x4 : (⟨S640000, .i32⟩ : BufTy).Contents (Elt Ideal)) (e : Fin 640000) :
    val_main_v25 (F := Ideal) x4 (ixP e) = GN.wrapWord 40000 (x4 (ix1 e)) := by
  have h : idx_main_v25 (ixP e) = ix1 e := funext fun a => Fin.ext (by
    match a with
    | ⟨0, _⟩ => rfl)
  rw [val_main_v25_apply, h, val_main_v24_apply, val_main_v21_apply, val_main_v23_apply, val_main_v20_apply,
    val_main_v22_apply, val_main_c_1_apply, val_main_c_2_apply]
  exact wrap_eq 40000 _

/-- The gather's index column at position e: word e, normalised against a table of 64 rows. -/
theorem col_v37 (x5 : (⟨S640000, .i32⟩ : BufTy).Contents (Elt Ideal)) (e : Fin 640000) :
    val_main_v37 (F := Ideal) x5 (ixP e) = GN.wrapWord 64 (x5 (ix1 e)) := by
  have h : idx_main_v37 (ixP e) = ix1 e := funext fun a => Fin.ext (by
    match a with
    | ⟨0, _⟩ => rfl)
  rw [val_main_v37_apply, h, val_main_v36_apply, val_main_v33_apply, val_main_v35_apply, val_main_v32_apply,
    val_main_v34_apply, val_main_c_3_apply, val_main_c_4_apply]
  exact wrap_eq 64 _

/-- The senders' term: the senders' linear layer of the node features, read at the sender words. -/
theorem take_v14 (x1 : (⟨S40000x128, .f32⟩ : BufTy).Contents (Elt Ideal)) (x3 : (⟨S640000, .i32⟩ : BufTy).Contents (Elt Ideal)) (x9 : (⟨S128x128, .f32⟩ : BufTy).Contents (Elt Ideal)) (x10 : (⟨S128, .f32⟩ : BufTy).Contents (Elt Ideal)) :
    val_main_v14 (F := Ideal) x1 x3 x9 x10
      = GN.take (N := 40000) (C := 128) (n := 640000) (by decide) (GN.lin (R := 40000) (K := 128) (C := 128) x1 x9 x10) x3 := by
  unfold val_main_v14
  rw [lin_v7]
  exact take_40000 _ x3 _ (col_v13 x3)

/-- The receivers' term. -/
theorem take_v26 (x1 : (⟨S40000x128, .f32⟩ : BufTy).Contents (Elt Ideal)) (x4 : (⟨S640000, .i32⟩ : BufTy).Contents (Elt Ideal)) (x11 : (⟨S128x128, .f32⟩ : BufTy).Contents (Elt Ideal)) (x12 : (⟨S128, .f32⟩ : BufTy).Contents (Elt Ideal)) :
    val_main_v26 (F := Ideal) x1 x4 x11 x12
      = GN.take (N := 40000) (C := 128) (n := 640000) (by decide) (GN.lin (R := 40000) (K := 128) (C := 128) x1 x11 x12) x4 := by
  unfold val_main_v26
  rw [lin_v19]
  exact take_40000 _ x4 _ (col_v25 x4)

/-- The graph term: the linear layer of the graph features, read at the edges' graph words. -/
theorem take_v38 (x2 : (⟨S64x128, .f32⟩ : BufTy).Contents (Elt Ideal)) (x5 : (⟨S640000, .i32⟩ : BufTy).Contents (Elt Ideal)) (x13 : (⟨S128x128, .f32⟩ : BufTy).Contents (Elt Ideal)) (x14 : (⟨S128, .f32⟩ : BufTy).Contents (Elt Ideal)) :
    val_main_v38 (F := Ideal) x2 x5 x13 x14
      = GN.take (N := 64) (C := 128) (n := 640000) (by decide) (GN.lin (R := 64) (K := 128) (C := 128) x2 x13 x14) x5 := by
  unfold val_main_v38
  rw [lin_v31]
  exact take_64 _ x5 _ (col_v37 x5)

/-- The reference's new edges are the specification's: relu of the sum of the four terms, associated as the
    program adds them. -/
theorem edges_eq (x0 : (⟨S640000x128, .f32⟩ : BufTy).Contents (Elt Ideal)) (x1 : (⟨S40000x128, .f32⟩ : BufTy).Contents (Elt Ideal)) (x2 : (⟨S64x128, .f32⟩ : BufTy).Contents (Elt Ideal))
    (x3 x4 x5 : (⟨S640000, .i32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v40 (F := Ideal) x0 x1 x2 x3 x4 x5 x7 x8 x9 x10 x11 x12 x13 x14
      = GN.refEdges (E := 640000) (N := 40000) (G := 64) (D := 128) (by decide) (by decide)
          x0 x1 x2 x3 x4 x5 x7 x9 x11 x13 x8 x10 x12 x14 := by
  funext i
  unfold GN.refEdges GN.relu GN.add
  rw [val_main_v40_apply, val_main_v39_apply, val_main_v27_apply, val_main_v15_apply, val_main_call0_v0_apply,
    val_main_call0_cst_apply, lin_v3, take_v14, take_v26, take_v38]
  simp only [Ideal.maximumf_def, Ideal.addf_def, Ideal.ofBits_def, Ideal.ofBits_zero_f32]

end Cert.ReferenceIdeal.RefSide

end
-- ==== Proof.RefNodes.lean ====
/-
  The reference's new nodes, read as the specification's `refNodes` of the new edges.

  The middle stretch of the reference sums the new edges by receiver and by sender (two accumulating row scatters into
  a zero table), passes each sum through a matrix product, adds the linear layer of the node features and the three
  biases in the order the program writes them, adds the graph features' linear layer read at each node's graph word,
  and takes the larger of each entry and zero.  Each scatter into the zero table is the sum by index; each
  `dot_general` is the matrix product; each bias is a vector repeated on every row; the row read takes a word, adds the
  table's row count when it is negative, and clamps it into the table.  The new edges stay an opaque array throughout.
-/
import proofs.«409440_j63694365000381_3_alg».proof.Proof.Gen.ReferenceIdeal.Read
import proofs.«409440_j63694365000381_3_alg».proof.Proof.Spec
import proofs.«409440_j63694365000381_3_alg».proof.Proof.LibPlainDot
import proofs.«409440_j63694365000381_3_alg».proof.Proof.LibRowSum

set_option maxRecDepth 16384

open scoped BigOperators

noncomputable section

open Idealize.ShloMosaic Idealize.ShloMosaic.TcCoe Idealize.ShloMosaic.ValueIdx Idealize.ShloMosaic.StableHlo.Predicate Cert.ReferenceIdeal Cert.ReferenceIdeal.Gen Cert.ReferenceIdeal.Read

/-!
  The reference's new nodes, read as a function of the new edges.

  After the edge update the reference forms, for every node, the sum of the new edges it receives and the sum of the
  new edges it sends (two scatter-adds into a zero table, indexed by the receiver and the sender words), multiplies
  each by its weight matrix, adds the node's own linear layer and the three biases, adds the row of the per-graph table
  (a linear layer of the graph features) that the node's graph word names, and applies relu.  Each stage is read here
  once, over variables of the array types, as the piece of the mathematics it is: a matrix product, a bias added to
  every row, a sum by index, a row read.  The last theorem chains them.
-/

namespace Cert.ReferenceIdeal.RefSide

/-! ## Matrix products -/

/-- The product of a 40000 × 128 array with a 128 × 128 matrix is the matrix product. -/
theorem dot_nodes (l : GN.Mat 40000 128) (r : GN.Mat 128 128) :
    Host.dotGeneral (F := Ideal) (φ₁ := .f32) (φ₂ := .f32) dot_S40000x128_S128x128_S40000x128_1_0_0_1_n_n none l r = GN.mm l r := by
  funext i
  obtain ⟨p, q, rfl⟩ : ∃ (p : Fin 40000) (q : Fin 128), i = ix2 p q := ⟨i 0, i 1, eq_ix2 i⟩
  simp only [Host.dotGeneral]
  rw [Ideal.dotGeneral_apply]
  exact PlainDot.sum_eq dot_S40000x128_S128x128_S40000x128_1_0_0_1_n_n rfl rfl rfl rfl rfl rfl l r p q

/-- The product of a 64 × 128 array with a 128 × 128 matrix is the matrix product. -/
theorem dot_graphs (l : GN.Mat 64 128) (r : GN.Mat 128 128) :
    Host.dotGeneral (F := Ideal) (φ₁ := .f32) (φ₂ := .f32) dot_S64x128_S128x128_S64x128_1_0_0_1_n_n none l r = GN.mm l r := by
  funext i
  obtain ⟨p, q, rfl⟩ : ∃ (p : Fin 64) (q : Fin 128), i = ix2 p q := ⟨i 0, i 1, eq_ix2 i⟩
  simp only [Host.dotGeneral]
  rw [Ideal.dotGeneral_apply]
  exact PlainDot.sum_eq dot_S64x128_S128x128_S64x128_1_0_0_1_n_n rfl rfl rfl rfl rfl rfl l r p q

/-! ## A bias spread over the rows -/

/-- A bias read through its two broadcasts (to one row, then to every row) is read at the column. -/
theorem bias_bn (b : GN.Vec1 128) (i : S40000x128.Idx) : val_main_v43 (F := Ideal) b i = b (ix1 (i 1 : Fin 128)) := by
  rw [val_main_v43_apply, val_main_v42_apply]
  exact congrArg b (funext fun a => Fin.ext (by match a with | ⟨0, _⟩ => rfl))

theorem bias_bi (b : GN.Vec1 128) (i : S40000x128.Idx) : val_main_v51 (F := Ideal) b i = b (ix1 (i 1 : Fin 128)) := by
  rw [val_main_v51_apply, val_main_v50_apply]
  exact congrArg b (funext fun a => Fin.ext (by match a with | ⟨0, _⟩ => rfl))

theorem bias_bo (b : GN.Vec1 128) (i : S40000x128.Idx) : val_main_v59 (F := Ideal) b i = b (ix1 (i 1 : Fin 128)) := by
  rw [val_main_v59_apply, val_main_v58_apply]
  exact congrArg b (funext fun a => Fin.ext (by match a with | ⟨0, _⟩ => rfl))

theorem bias_bun (b : GN.Vec1 128) (i : S64x128.Idx) : val_main_v63 (F := Ideal) b i = b (ix1 (i 1 : Fin 128)) := by
  rw [val_main_v63_apply, val_main_v62_apply]
  exact congrArg b (funext fun a => Fin.ext (by match a with | ⟨0, _⟩ => rfl))

/-! ## Sums by index -/

/-- A scatter-add of the rows of `upd` into a zero table, the row of update e named by word e of a column of words,
    is the sum by index. -/
theorem scatter_zero (z : GN.Mat 40000 128) (hz : ∀ i, z i = 0) (col : GN.IdsCol 640000) (w : GN.Ids 640000)
    (hc : ∀ e : Fin 640000, col (ixP e) = w (ix1 e)) (upd : GN.Mat 640000 128) :
    Host.scatterAdd (F := Ideal) (φ := .f32) scatter_S40000x128_S640000x1_S640000x128_1_0_0_1 z col upd = GN.segsum 40000 upd w := by
  funext i
  unfold Host.scatterAdd
  rw [Ideal.hostScatterAdd_def]
  unfold Ideal.hostScatterAdd
  rw [hz, zero_add,
    RowIndex.scatter_rows_sum scatter_S40000x128_S640000x1_S640000x128_1_0_0_1 rfl rfl rfl rfl col upd i]
  unfold GN.segsum
  simp only [hc]
  rfl

/-- The zero table of the first scatter-add. -/
theorem zero_v45 (i : S40000x128.Idx) : val_main_v45 (F := Ideal) i = 0 := by
  rw [val_main_v45_apply, val_main_cst_apply]
  exact Ideal.ofBits_zero_f32

/-- The zero table of the second scatter-add. -/
theorem zero_v53 (i : S40000x128.Idx) : val_main_v53 (F := Ideal) i = 0 := by
  rw [val_main_v53_apply, val_main_cst_5_apply]
  exact Ideal.ofBits_zero_f32

/-- The zero relu compares with. -/
theorem zero_relu (i : S40000x128.Idx) : val_main_call1_v0 (F := Ideal) i = 0 := by
  rw [val_main_call1_v0_apply, val_main_call1_cst_apply]
  exact Ideal.ofBits_zero_f32

/-- The receiver words as a column. -/
theorem col_v46 (x4 : GN.Ids 640000) (e : Fin 640000) : val_main_v46 (F := Ideal) x4 (ixP e) = x4 (ix1 e) := by
  rw [val_main_v46_apply]
  exact congrArg x4 (funext fun a => Fin.ext (by match a with | ⟨0, _⟩ => rfl))

/-- The sender words as a column. -/
theorem col_v54 (x3 : GN.Ids 640000) (e : Fin 640000) : val_main_v54 (F := Ideal) x3 (ixP e) = x3 (ix1 e) := by
  rw [val_main_v54_apply]
  exact congrArg x3 (funext fun a => Fin.ext (by match a with | ⟨0, _⟩ => rfl))

/-! ## The row read -/

/-- jnp's normalisation of an index word into a table of 64 rows: a negative word counts from the end. -/
theorem wrap_word (w : BitVec 32) :
    Scalar.select (IntOp.cmpi .slt w 0#32) (IntOp.addi w 64#32) w = GN.wrapWord 64 w := by
  unfold Scalar.select IntOp.cmpi IntOp.addi GN.wrapWord
  by_cases h : w.toInt < 0
  · have hs : w.slt 0#32 = true := by simp [BitVec.slt, h]
    simp only [hs, h, if_true]
    rfl
  · have hs : w.slt 0#32 = false := by simp [BitVec.slt, h]
    simp only [hs, h, if_false]
    rfl

/-- The node's graph word, normalised and kept as a column. -/
theorem col_v70 (x6 : GN.Ids 40000) (e : Fin 40000) :
    val_main_v70 (F := Ideal) x6 (ixP e) = GN.wrapWord 64 (x6 (ix1 e)) := by
  have hi : idx_main_v70 (ixP e) = ix1 e := funext fun a => Fin.ext (by match a with | ⟨0, _⟩ => rfl)
  rw [val_main_v70_apply, val_main_v69_apply, val_main_v66_apply, val_main_v68_apply, val_main_v67_apply,
    val_main_c_7_apply, val_main_v65_apply, val_main_c_6_apply, hi]
  exact wrap_word _

/-- The gather of the rows of a 64-row table named by the nodes' normalised graph words is the row read. -/
theorem gather_graph_rows (T : GN.Mat 64 128) (x6 : GN.Ids 40000) :
    Host.gather gather_S64x128_S40000x1_S40000x128_1_0_n_n_0_1_1128 T (val_main_v70 (F := Ideal) x6)
      = GN.take (N := 64) (by decide) T x6 := by
  funext i
  obtain ⟨p, q, rfl⟩ : ∃ (p : Fin 40000) (q : Fin 128), i = ix2 p q := ⟨i 0, i 1, eq_ix2 i⟩
  refine (RowIndex.gather_rows gather_S64x128_S40000x1_S40000x128_1_0_n_n_0_1_1128 rfl rfl rfl rfl rfl T
    (val_main_v70 (F := Ideal) x6) p q (by decide)).trans ?_
  unfold GN.take GN.clampRow
  simp only [col_v70]
  rfl

/-! ## The new nodes -/

/-- The reference's second result, the new nodes, is the node update of the mathematics applied to its first result,
    the new edges: relu of the node's linear layer, plus the received and the sent sums of new edges through their
    matrices and biases, plus the node's graph's row of the per-graph table.  The new edges enter only as an array. -/
theorem nodes_eq (x0 : (⟨S640000x128, .f32⟩ : BufTy).Contents (Elt Ideal)) (x1 : (⟨S40000x128, .f32⟩ : BufTy).Contents (Elt Ideal)) (x2 : (⟨S64x128, .f32⟩ : BufTy).Contents (Elt Ideal)) (x3 x4 x5 : (⟨S640000, .i32⟩ : BufTy).Contents (Elt Ideal)) (x6 : (⟨S40000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) :
    val_main_v73 (F := Ideal) x0 x1 x2 x3 x4 x5 x6 x7 x8 x9 x10 x11 x12 x13 x14 x15 x16 x17 x18 x19 x20 x21 x22
      = GN.refNodes (N := 40000) (G := 64) (D := 128) (E := 640000) (by decide) x1 x2 x3 x4 x6 x15 x17 x19 x21 x16 x18 x20 x22
          (val_main_v40 (F := Ideal) x0 x1 x2 x3 x4 x5 x7 x8 x9 x10 x11 x12 x13 x14) := by
  unfold val_main_v73 val_main_v72 val_main_v71 val_main_v64 val_main_v61 val_main_v60 val_main_v57 val_main_v56 val_main_v55
    val_main_v52 val_main_v49 val_main_v48 val_main_v47 val_main_v44 val_main_v41
  generalize val_main_v40 (F := Ideal) x0 x1 x2 x3 x4 x5 x7 x8 x9 x10 x11 x12 x13 x14 = ed
  have hT : addf (F := Ideal) (φ := .f32) (Host.dotGeneral (φ₁ := .f32) (φ₂ := .f32) dot_S64x128_S128x128_S64x128_1_0_0_1_n_n none x2 x21) (val_main_v63 (F := Ideal) x22)
      = GN.lin x2 x21 x22 := by
    funext j
    rw [dot_graphs]
    show GN.mm x2 x21 j + val_main_v63 (F := Ideal) x22 j = _
    rw [bias_bun]
    rfl
  rw [hT, gather_graph_rows, dot_nodes, dot_nodes, dot_nodes,
    scatter_zero _ zero_v45 _ x4 (col_v46 x4), scatter_zero _ zero_v53 _ x3 (col_v54 x3)]
  funext i
  simp only [maximumf_apply, addf_apply, bias_bn, bias_bi, bias_bo]
  rw [zero_relu]
  rfl

end Cert.ReferenceIdeal.RefSide
-- ==== Proof.RefGlobals.lean ====
/-
  The reference's new graph features, read as the specification's `refGlobals` of the new edges and the new nodes.

  The last stretch of the reference sums the new edges by their graph word and the new nodes by theirs (two
  accumulating row scatters into a zero table), passes each sum through a linear layer, adds the graph features'
  own product and the three biases.  Each scatter into the zero table is the sum by index; each `dot_general` is the
  matrix product; each bias is a vector broadcast along the rows.
-/
import proofs.«409440_j63694365000381_3_alg».proof.Proof.Gen.ReferenceIdeal.Read
import proofs.«409440_j63694365000381_3_alg».proof.Proof.Spec
import proofs.«409440_j63694365000381_3_alg».proof.Proof.LibPlainDot
import proofs.«409440_j63694365000381_3_alg».proof.Proof.LibRowSum

set_option maxRecDepth 16384

open scoped BigOperators

noncomputable section

open Idealize.ShloMosaic Idealize.ShloMosaic.TcCoe Idealize.ShloMosaic.ValueIdx Idealize.ShloMosaic.StableHlo.Predicate
open Cert.ReferenceIdeal Cert.ReferenceIdeal.Gen Cert.ReferenceIdeal.Value Cert.ReferenceIdeal.Read

namespace Cert.ReferenceIdeal.RefSide

/-- An accumulating row scatter into a table of zeros is the sum by index: row r of the result is the sum of the
    update rows whose index word, read signed, is r.  The index words arrive as a column. -/
theorem scatterAdd_zero_eq_segsum {N C n : Nat}
    (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (z : FVec Ideal ⟨2, ![N, C]⟩ .f32) (hz : ∀ i, z i = 0)
    (col : IVec ⟨2, ![n, 1]⟩ 32) (idx : GN.Ids n) (hcol : ∀ e : Fin n, col (ixP e) = idx (ix1 e))
    (upd : FVec Ideal ⟨2, ![n, C]⟩ .f32) :
    Host.scatterAdd (F := Ideal) d z col upd = GN.segsum N upd idx := by
  funext i
  show Ideal.hostScatterAdd d z col upd i = _
  unfold Ideal.hostScatterAdd GN.segsum
  rw [hz i, zero_add, RowIndex.scatter_rows_sum d hu hi hs hv col upd i]
  refine Finset.sum_congr (Finset.filter_congr fun e _ => by rw [hcol e]) (fun e _ => ?_)
  rfl

/-- The reference's `dot_general` of a [64, 128] array with a [128, 128] matrix is the matrix product. -/
theorem dot64_eq_mm (l : FVec Ideal S64x128 .f32) (r : FVec Ideal S128x128 .f32) :
    Host.dotGeneral (F := Ideal) dot_S64x128_S128x128_S64x128_1_0_0_1_n_n none l r = GN.mm (R := 64) (K := 128) (C := 128) l r := by
  funext i
  obtain ⟨p, q, rfl⟩ : ∃ (p : Fin 64) (q : Fin 128), i = ix2 p q := ⟨i 0, i 1, eq_ix2 i⟩
  simp only [Host.dotGeneral]
  rw [Ideal.dotGeneral_apply]
  exact PlainDot.sum_eq dot_S64x128_S128x128_S64x128_1_0_0_1_n_n rfl rfl rfl rfl rfl rfl l r p q

/-- The zero table the edges' scatter accumulates into. -/
theorem zero74 (i : S64x128.Idx) : val_main_v74 (F := Ideal) i = 0 := by
  rw [val_main_v74_apply, val_main_cst_8_apply, Ideal.ofBits_def, Ideal.ofBits_zero_f32]

/-- The zero table the nodes' scatter accumulates into. -/
theorem zero81 (i : S64x128.Idx) : val_main_v81 (F := Ideal) i = 0 := by
  rw [val_main_v81_apply, val_main_cst_9_apply, Ideal.ofBits_def, Ideal.ofBits_zero_f32]

/-- The edges' graph words as a column: position e holds word e. -/
theorem col75 (x5 : (⟨S640000, .i32⟩ : BufTy).Contents (Elt Ideal)) (e : Fin 640000) :
    val_main_v75 (F := Ideal) x5 (ixP e) = x5 (ix1 e) := by
  rw [val_main_v75_apply]
  exact congrArg x5 (funext fun a => match a with | ⟨0, _⟩ => rfl)

/-- The nodes' graph words as a column: position e holds word e. -/
theorem col82 (x6 : (⟨S40000, .i32⟩ : BufTy).Contents (Elt Ideal)) (e : Fin 40000) :
    val_main_v82 (F := Ideal) x6 (ixP e) = x6 (ix1 e) := by
  rw [val_main_v82_apply]
  exact congrArg x6 (funext fun a => match a with | ⟨0, _⟩ => rfl)

/-- A bias broadcast along the 64 rows: entry (p, q) is b q. -/
theorem bias79 (b : (⟨S128, .f32⟩ : BufTy).Contents (Elt Ideal)) (p : Fin 64) (q : Fin 128) :
    val_main_v79 (F := Ideal) b (ix2 p q) = b (ix1 q) := by
  rw [val_main_v79_apply, val_main_v78_apply]
  exact congrArg b (funext fun a => match a with | ⟨0, _⟩ => rfl)

/-- The same for the second bias of the stretch. -/
theorem bias87 (b : (⟨S128, .f32⟩ : BufTy).Contents (Elt Ideal)) (p : Fin 64) (q : Fin 128) :
    val_main_v87 (F := Ideal) b (ix2 p q) = b (ix1 q) := by
  rw [val_main_v87_apply, val_main_v86_apply]
  exact congrArg b (funext fun a => match a with | ⟨0, _⟩ => rfl)

/-- The same for the third bias of the stretch. -/
theorem bias92 (b : (⟨S128, .f32⟩ : BufTy).Contents (Elt Ideal)) (p : Fin 64) (q : Fin 128) :
    val_main_v92 (F := Ideal) b (ix2 p q) = b (ix1 q) := by
  rw [val_main_v92_apply, val_main_v91_apply]
  exact congrArg b (funext fun a => match a with | ⟨0, _⟩ => rfl)

/-- The stretch after the new edges and the new nodes, over any two such arrays: the two sums by graph word, the two
    linear layers, the graph features' own product and the three biases, associated as the reference adds them. -/
theorem globals_of (x2 : FVec Ideal S64x128 .f32) (x5 : IVec S640000 32) (x6 : IVec S40000 32)
    (x23 : FVec Ideal S128x128 .f32) (x24 : FVec Ideal S128 .f32) (x25 : FVec Ideal S128x128 .f32) (x26 : FVec Ideal S128 .f32)
    (x27 : FVec Ideal S128x128 .f32) (x28 : FVec Ideal S128 .f32)
    (edges : FVec Ideal S640000x128 .f32) (nodes : FVec Ideal S40000x128 .f32) :
    addf (addf (addf (addf (addf
        (Host.dotGeneral (F := Ideal) dot_S64x128_S128x128_S64x128_1_0_0_1_n_n none
          (Host.scatterAdd (F := Ideal) scatter_S64x128_S640000x1_S640000x128_1_0_0_1 (val_main_v74 (F := Ideal)) (val_main_v75 (F := Ideal) x5) edges) x25)
        (val_main_v79 (F := Ideal) x26))
        (Host.dotGeneral (F := Ideal) dot_S64x128_S128x128_S64x128_1_0_0_1_n_n none
          (Host.scatterAdd (F := Ideal) scatter_S64x128_S40000x1_S40000x128_1_0_0_1 (val_main_v81 (F := Ideal)) (val_main_v82 (F := Ideal) x6) nodes) x23))
        (val_main_v87 (F := Ideal) x24))
        (val_main_v89 (F := Ideal) x2 x27))
        (val_main_v92 (F := Ideal) x28)
      = GN.refGlobals (G := 64) (D := 128) (E := 640000) (N := 40000) x2 x5 x6 x23 x25 x27 x24 x26 x28 edges nodes := by
  rw [scatterAdd_zero_eq_segsum scatter_S64x128_S640000x1_S640000x128_1_0_0_1 rfl rfl rfl rfl
        (val_main_v74 (F := Ideal)) zero74 (val_main_v75 (F := Ideal) x5) x5 (col75 x5) edges,
      scatterAdd_zero_eq_segsum scatter_S64x128_S40000x1_S40000x128_1_0_0_1 rfl rfl rfl rfl
        (val_main_v81 (F := Ideal)) zero81 (val_main_v82 (F := Ideal) x6) x6 (col82 x6) nodes]
  unfold val_main_v89
  rw [dot64_eq_mm, dot64_eq_mm, dot64_eq_mm]
  funext i
  obtain ⟨p, q, rfl⟩ : ∃ (p : Fin 64) (q : Fin 128), i = ix2 p q := ⟨i 0, i 1, eq_ix2 i⟩
  simp only [addf_apply, bias79, bias87, bias92]
  rfl

/-- The reference's third result is the specification's new graph features of its new edges and its new nodes. -/
theorem globals_eq (x0 : (⟨S640000x128, .f32⟩ : BufTy).Contents (Elt Ideal)) (x1 : (⟨S40000x128, .f32⟩ : BufTy).Contents (Elt Ideal)) (x2 : (⟨S64x128, .f32⟩ : BufTy).Contents (Elt Ideal)) (x3 x4 x5 : (⟨S640000, .i32⟩ : BufTy).Contents (Elt Ideal)) (x6 : (⟨S40000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal)) :
    val_main_v93 (F := Ideal) x0 x1 x2 x3 x4 x5 x6 x7 x8 x9 x10 x11 x12 x13 x14 x15 x16 x17 x18 x19 x20 x21 x22 x23 x24 x25 x26 x27 x28
      = GN.refGlobals (G := 64) (D := 128) (E := 640000) (N := 40000) x2 x5 x6 x23 x25 x27 x24 x26 x28
          (val_main_v40 (F := Ideal) x0 x1 x2 x3 x4 x5 x7 x8 x9 x10 x11 x12 x13 x14)
          (val_main_v73 (F := Ideal) x0 x1 x2 x3 x4 x5 x6 x7 x8 x9 x10 x11 x12 x13 x14 x15 x16 x17 x18 x19 x20 x21 x22) := by
  unfold val_main_v93 val_main_v90 val_main_v88 val_main_v85 val_main_v84 val_main_v83 val_main_v80 val_main_v77 val_main_v76
  exact globals_of x2 x5 x6 x23 x24 x25 x26 x27 x28 _ _

end Cert.ReferenceIdeal.RefSide

end
-- ==== Proof.lean ====
/-
  A graph-network block computed by five pallas_calls (two linear layers of the node features; three of the graph
  features; the edge update; the node update; the graph update) with host gathers and sums by index between them,
  against the plain jnp reference, over the extended reals.

  Mathematics.  Both programs compute: new edges = relu(e·We + be + (n·Ws + bs)[sender] + (n·Wr + br)[receiver]
  + (u·Wue + bue)[graph of the edge]); new nodes = relu(n·Wn + bn + (sum of received new edges)·Wi + bi + (sum of sent
  new edges)·Wo + bo + (u·Wun + bun)[graph of the node]); new graph features = (sum of the graph's new edges)·Whe + bhe
  + (sum of its new nodes)·Whn + bhn + u·Whu + bhu.  The kernel differs from the reference in three ways only.
  It adds the same terms in another grouping (addition of extended reals is commutative and associative).  It reads
  the row of the per-graph table named by a graph word w as the one-hot-weighted sum over all rows g of
  [w = g]·table(g, ·); since 0·x = 0 and 1·x = x for every extended real, that sum is the row w when 0 ≤ w < 64,
  which is also the row the reference's clamped read takes there: this is where the precondition's range of the graph
  words is used (outside it the reference reads a clamped or wrapped row and the kernel reads zero).  And it sums
  the new edges (nodes) by graph as per-tile one-hot-weighted sums added over the tiles, which is the sum over all
  positions whose word is g, the reference's sum by index.  No finiteness of the float inputs is needed.

  The frames of the two kernel programs are the generated ones; the reference's frame is its generated run with the
  results dropped; nothing was rewritten by the idealization, so there is nothing to preserve.
-/
import proofs.«409440_j63694365000381_3_alg».proof.Defs
import proofs.«409440_j63694365000381_3_alg».proof.Proof.Gen.Kernel
import proofs.«409440_j63694365000381_3_alg».proof.Proof.Gen.Kernel.Skeleton
import proofs.«409440_j63694365000381_3_alg».proof.Proof.Gen.Kernel.Launch
import proofs.«409440_j63694365000381_3_alg».proof.Proof.Gen.Kernel.Points
import proofs.«409440_j63694365000381_3_alg».proof.Proof.Gen.Kernel.Frame
import proofs.«409440_j63694365000381_3_alg».proof.Proof.Gen.KernelIdeal
import proofs.«409440_j63694365000381_3_alg».proof.Proof.Gen.KernelIdeal.Skeleton
import proofs.«409440_j63694365000381_3_alg».proof.Proof.Gen.KernelIdeal.Launch
import proofs.«409440_j63694365000381_3_alg».proof.Proof.Gen.KernelIdeal.Points
import proofs.«409440_j63694365000381_3_alg».proof.Proof.Gen.KernelIdeal.Frame
import proofs.«409440_j63694365000381_3_alg».proof.Proof.Gen.ReferenceIdeal
import proofs.«409440_j63694365000381_3_alg».proof.Proof.Gen.ReferenceIdeal.Run
import proofs.«409440_j63694365000381_3_alg».proof.Proof.Gen.ReferenceIdeal.Read
import proofs.«409440_j63694365000381_3_alg».proof.Proof.Gen.Pre_finite_inputs
import proofs.«409440_j63694365000381_3_alg».proof.Proof.KRun
import proofs.«409440_j63694365000381_3_alg».proof.Proof.Chain
import proofs.«409440_j63694365000381_3_alg».proof.Proof.Bridge
import proofs.«409440_j63694365000381_3_alg».proof.Proof.PreGid
import proofs.«409440_j63694365000381_3_alg».proof.Proof.RefEdges
import proofs.«409440_j63694365000381_3_alg».proof.Proof.RefNodes
import proofs.«409440_j63694365000381_3_alg».proof.Proof.RefGlobals
import Idealize.ShloMosaic.Adequacy
import Idealize.ShloMosaic.Init

set_option maxRecDepth 16384

noncomputable section

namespace Cert.Proof

open Idealize.ShloMosaic Idealize.SL.Sem Cert.Kernel
open Cert.KernelIdeal.Chain

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

section Results
variable (m : (ℓ : Loc Cert.KernelIdeal.nD Cert.KernelIdeal.τ Cert.KernelIdeal.sig) → Buf (Elt Ideal) ℓ) (c : Dev Cert.KernelIdeal.nD)

/-- The new edges, as the reference's mathematics of the argument arrays. -/
abbrev E0 : GN.Mat 640000 128 :=
  GN.refEdges (E := 640000) (N := 40000) (G := 64) (D := 128) (by decide) (by decide)
    (aEf m c) (aNf m c) (aGf m c) (aSnd m c) (aRcv m c) (aEgid m c)
    (aWe m c) (aWs m c) (aWr m c) (aWue m c) (aBe m c) (aBs m c) (aBr m c) (aBue m c)
/-- The new nodes. -/
abbrev N0 : GN.Mat 40000 128 :=
  GN.refNodes (N := 40000) (G := 64) (D := 128) (E := 640000) (by decide)
    (aNf m c) (aGf m c) (aSnd m c) (aRcv m c) (aNgid m c)
    (aWn m c) (aWi m c) (aWo m c) (aWun m c) (aBn m c) (aBi m c) (aBo m c) (aBun m c) (E0 m c)
/-- The new graph features. -/
abbrev G0 : GN.Mat 64 128 :=
  GN.refGlobals (G := 64) (D := 128) (E := 640000) (N := 40000)
    (aGf m c) (aEgid m c) (aNgid m c) (aWhn m c) (aWhe m c) (aWhu m c) (aBhn m c) (aBhe m c) (aBhu m c) (E0 m c) (N0 m c)

/-- Under the range of the graph words the kernel's new edges are the reference's. -/
theorem kE_eq (hpre : Cert.Pre_KernelIdeal m) : kE m c = E0 m c :=
  GN.kEdges_eq (nTe := 125) (Te := 5120) (nTn := 20) (Tn := 2000) (G := 64) (D := 128) (by decide) (by decide) (by decide)
    (aEf m c) (aNf m c) (aGf m c) (aSnd m c) (aRcv m c) (aEgid m c)
    (aWe m c) (aWs m c) (aWr m c) (aWue m c) (aBe m c) (aBs m c) (aBr m c) (aBue m c)
    (Cert.PreGid.gid_range m hpre c).1

/-- … its new nodes the reference's … -/
theorem kN_eq (hpre : Cert.Pre_KernelIdeal m) : kN m c = N0 m c :=
  (GN.kNodes_eq (nTe := 125) (Te := 5120) (nTn := 20) (Tn := 2000) (G := 64) (D := 128) (by decide) (by decide)
    (aNf m c) (aGf m c) (aSnd m c) (aRcv m c) (aNgid m c)
    (aWn m c) (aWi m c) (aWo m c) (aWun m c) (aBn m c) (aBi m c) (aBo m c) (aBun m c)
    (Cert.PreGid.gid_range m hpre c).2 (kE m c)).trans
  (congrArg (GN.refNodes (N := 40000) (G := 64) (D := 128) (E := 640000) (by decide)
    (aNf m c) (aGf m c) (aSnd m c) (aRcv m c) (aNgid m c)
    (aWn m c) (aWi m c) (aWo m c) (aWun m c) (aBn m c) (aBi m c) (aBo m c) (aBun m c)) (kE_eq m c hpre))

/-- … and its new graph features the reference's. -/
theorem kG_eq (hpre : Cert.Pre_KernelIdeal m) : kG m c = G0 m c := by
  refine (GN.kGlobals_eq (nTe := 125) (Te := 5120) (nTn := 20) (Tn := 2000) (G := 64) (D := 128) (by decide)
    (aGf m c) (aEgid m c) (aNgid m c) (aWhn m c) (aWhe m c) (aWhu m c) (aBhn m c) (aBhe m c) (aBhu m c) (kE m c) (kN m c)).trans ?_
  rw [kE_eq m c hpre, kN_eq m c hpre]

end Results

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs end with the three results at the reference's mathematics of the kernel memory's argument
    arrays: the kernel by its run with the results named, the fold of buffer contents read through, and the bridge
    under the precondition's range of the graph words; the reference by its generated run read stage by stage, its
    arguments being the kernel's. -/
theorem algebraic : Cert.algebraic_KernelIdeal_ReferenceIdeal := by
  intro m ρ m' ρ' hpre hagree
  refine ⟨fun c => E0 m c, fun c => N0 m c, fun c => G0 m c, ?_, ?_⟩
  · refine (θ_run Cert.KernelIdeal.defs _ _).mono (fun r h c => ?_) (Cert.KernelIdeal.Results.run_results (F := Ideal) m ρ)
    obtain ⟨h0, h1, h2, hargs⟩ := h c
    exact ⟨h0.trans ((res0 m ρ c).trans (kE_eq m c hpre)), h1.trans ((res1 m ρ c).trans (kN_eq m c hpre)),
      h2.trans ((res2 m ρ c).trans (kG_eq m c hpre)), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15, a16, a17, a18, a19, a20, a21, a22, a23, a24,
      a25, a26, a27, a28⟩ := hagree c
    have e0 : Cert.ReferenceIdeal.Read.val_main_v40 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = E0 m c := by
      rw [Cert.ReferenceIdeal.RefSide.edges_eq, a0, a1, a2, a3, a4, a5, a7, a8, a9, a10, a11, a12, a13, a14]
    have e1 : Cert.ReferenceIdeal.Read.val_main_v73 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = N0 m c := by
      rw [Cert.ReferenceIdeal.RefSide.nodes_eq, e0, a1, a2, a3, a4, a6, a15, a16, a17, a18, a19, a20, a21, a22]
    have e2 : Cert.ReferenceIdeal.Read.val_main_v93 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) = G0 m c := by
      rw [Cert.ReferenceIdeal.RefSide.globals_eq, e0, e1, a2, a5, a6, a23, a24, a25, a26, a27, a28]
    exact ⟨h0.trans e0, h1.trans ((Cert.ReferenceIdeal.Read.val_main_v73_eq m' c).trans e1),
      h2.trans ((Cert.ReferenceIdeal.Read.val_main_v93_eq m' c).trans e2), hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
